-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S512x256 : Shape := ⟨2, ![512, 256]⟩
abbrev S512x128 : Shape := ⟨2, ![512, 128]⟩
abbrev S512 : Shape := ⟨1, ![512]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S1000000x128 .f32) (main_arg1 : IVec S1000000 32) (main_arg2 : FVec F S512x256 .f32) (main_arg3 : FVec F S512x128 .f32) (main_arg4 : FVec F S512 .f32) (main_arg5 : FVec F S512 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_v13 main_v16
-- ==== Kernel.lean ====
abbrev S1000000x128 : Shape := ⟨2, ![1000000, 128]⟩
abbrev S1000000 : Shape := ⟨1, ![1000000]⟩
abbrev S512x256 : Shape := ⟨2, ![512, 256]⟩
abbrev S512x128 : Shape := ⟨2, ![512, 128]⟩
abbrev S512 : Shape := ⟨1, ![512]⟩
abbrev S1000000x1 : Shape := ⟨2, ![1000000, 1]⟩
abbrev S2x1024x128 : Shape := ⟨3, ![2, 1024, 128]⟩
abbrev S2000x128 : Shape := ⟨2, ![2000, 128]⟩
abbrev S2000x1 : Shape := ⟨2, ![2000, 1]⟩
abbrev S1x1024x128 : Shape := ⟨3, ![1, 1024, 128]⟩
abbrev S1024x128 : Shape := ⟨2, ![1024, 128]⟩
abbrev S2000x1024 : Shape := ⟨2, ![2000, 1024]⟩
abbrev S_ : Shape := ⟨0, ![]⟩
abbrev S1024 : Shape := ⟨1, ![1024]⟩
abbrev S1024x1 : Shape := ⟨2, ![1024, 1]⟩
abbrev S1024x256 : Shape := ⟨2, ![1024, 256]⟩
abbrev S256x512 : Shape := ⟨2, ![256, 512]⟩
abbrev S1024x512 : Shape := ⟨2, ![1024, 512]⟩
abbrev S128x512 : Shape := ⟨2, ![128, 512]⟩
abbrev S1x512 : Shape := ⟨2, ![1, 512]⟩

abbrev nBuf : Space → Nat
  | .hbm => 171
  | .vmem => 7
  | .smem => 0
  | _ => 0

abbrev hbmTy0_0 (i : Nat) : BufTy := match i % 128 with
  | 0 => ⟨S1000000x128, .f32⟩
  | 1 => ⟨S1000000, .i32⟩
  | 2 => ⟨S512x256, .f32⟩
  | 3 => ⟨S512x128, .f32⟩
  | 4 => ⟨S512, .f32⟩
  | 5 => ⟨S512, .f32⟩
  | 6 => ⟨S1000000x1, .i32⟩
  | 7 => ⟨S2x1024x128, .f32⟩
  | 8 => ⟨S1x1024x128, .f32⟩
  | 9 => ⟨S1024x128, .f32⟩
  | 10 => ⟨S1x1024x128, .f32⟩
  | 11 => ⟨S1024x128, .f32⟩
  | 12 => ⟨S1024x128, .f32⟩
  | 13 => ⟨S_, .f32⟩
  | 14 => ⟨S1000000, .f32⟩
  | 15 => ⟨S_, .f32⟩
  | 16 => ⟨S1024, .f32⟩
  | 17 => ⟨S1000000x1, .i32⟩
  | 18 => ⟨S1024, .f32⟩
  | 19 => ⟨S1024x1, .f32⟩
  | 20 => ⟨S_, .f32⟩
  | 21 => ⟨S1024x128, .f32⟩
  | 22 => ⟨S_, .f32⟩
  | 23 => ⟨S1024x128, .f32⟩
  | 24 => ⟨S_, .f32⟩
  | 25 => ⟨S1024x128, .f32⟩
  | 26 => ⟨S1024x128, .f32⟩
  | 27 => ⟨S1024x128, .f32⟩
  | 28 => ⟨S1024x256, .f32⟩
  | 29 => ⟨S256x512, .f32⟩
  | 30 => ⟨S1024x512, .f32⟩
  | 31 => ⟨S128x512, .f32⟩
  | 32 => ⟨S1024x512, .f32⟩
  | 33 => ⟨S1024x512, .f32⟩
  | 34 => ⟨S1x512, .f32⟩
  | 35 => ⟨S1024x512, .f32⟩
  | 36 => ⟨S1024x512, .f32⟩
  | 37 => ⟨S1x512, .f32⟩
  | 38 => ⟨S1024x512, .f32⟩
  | 39 => ⟨S1024x512, .f32⟩
  | 40 => ⟨S1024x128, .f32⟩
  | 41 => ⟨S1024x128, .f32⟩
  | 42 => ⟨S1024x128, .f32⟩
  | 43 => ⟨S1024x128, .f32⟩
  | 44 => ⟨S1024x128, .f32⟩
  | 45 => ⟨S1024x128, .f32⟩
  | 46 => ⟨S_, .f32⟩
  | 47 => ⟨S1024x128, .f32⟩
  | 48 => ⟨S1024x128, .f32⟩
  | 49 => ⟨S_, .f32⟩
  | 50 => ⟨S1024x128, .f32⟩
  | 51 => ⟨S1024x128, .f32⟩
  | 52 => ⟨S1024x128, .f32⟩
  | 53 => ⟨S1024x128, .f32⟩
  | 54 => ⟨S1024x128, .f32⟩
  | 55 => ⟨S_, .f32⟩
  | 56 => ⟨S1024x128, .f32⟩
  | 57 => ⟨S1024x128, .f32⟩
  | 58 => ⟨S_, .f32⟩
  | 59 => ⟨S1024x128, .f32⟩
  | 60 => ⟨S1024x128, .f32⟩
  | 61 => ⟨S1024x128, .f32⟩
  | 62 => ⟨S1024x128, .f32⟩
  | 63 => ⟨S1024x128, .f32⟩
  | 64 => ⟨S1024x128, .f32⟩
  | 65 => ⟨S1024x128, .f32⟩
  | 66 => ⟨S_, .f32⟩
  | 67 => ⟨S1024x128, .f32⟩
  | 68 => ⟨S1024x128, .f32⟩
  | 69 => ⟨S_, .f32⟩
  | 70 => ⟨S1024x128, .f32⟩
  | 71 => ⟨S1024x128, .f32⟩
  | 72 => ⟨S1024x128, .f32⟩
  | 73 => ⟨S1024x128, .f32⟩
  | 74 => ⟨S1024x128, .f32⟩
  | 75 => ⟨S1024x128, .f32⟩
  | 76 => ⟨S1024x256, .f32⟩
  | 77 => ⟨S256x512, .f32⟩
  | 78 => ⟨S1024x512, .f32⟩
  | 79 => ⟨S128x512, .f32⟩
  | 80 => ⟨S1024x512, .f32⟩
  | 81 => ⟨S1024x512, .f32⟩
  | 82 => ⟨S1x512, .f32⟩
  | 83 => ⟨S1024x512, .f32⟩
  | 84 => ⟨S1024x512, .f32⟩
  | 85 => ⟨S1x512, .f32⟩
  | 86 => ⟨S1024x512, .f32⟩
  | 87 => ⟨S1024x512, .f32⟩
  | 88 => ⟨S1024x128, .f32⟩
  | 89 => ⟨S1024x128, .f32⟩
  | 90 => ⟨S1024x128, .f32⟩
  | 91 => ⟨S1024x128, .f32⟩
  | 92 => ⟨S1024x128, .f32⟩
  | 93 => ⟨S1024x128, .f32⟩
  | 94 => ⟨S_, .f32⟩
  | 95 => ⟨S1024x128, .f32⟩
  | 96 => ⟨S1024x128, .f32⟩
  | 97 => ⟨S_, .f32⟩
  | 98 => ⟨S1024x128, .f32⟩
  | 99 => ⟨S1024x128, .f32⟩
  | 100 => ⟨S1024x128, .f32⟩
  | 101 => ⟨S1024x128, .f32⟩
  | 102 => ⟨S1024x128, .f32⟩
  | 103 => ⟨S_, .f32⟩
  | 104 => ⟨S1024x128, .f32⟩
  | 105 => ⟨S1024x128, .f32⟩
  | 106 => ⟨S_, .f32⟩
  | 107 => ⟨S1024x128, .f32⟩
  | 108 => ⟨S1024x128, .f32⟩
  | 109 => ⟨S1024x128, .f32⟩
  | 110 => ⟨S1024x128, .f32⟩
  | 111 => ⟨S1024x128, .f32⟩
  | 112 => ⟨S1024x128, .f32⟩
  | 113 => ⟨S1024x128, .f32⟩
  | 114 => ⟨S_, .f32⟩
  | 115 => ⟨S1024x128, .f32⟩
  | 116 => ⟨S1024x128, .f32⟩
  | 117 => ⟨S_, .f32⟩
  | 118 => ⟨S1024x128, .f32⟩
  | 119 => ⟨S1024x128, .f32⟩
  | 120 => ⟨S1024x128, .f32⟩
  | 121 => ⟨S1024x128, .f32⟩
  | 122 => ⟨S1024x128, .f32⟩
  | 123 => ⟨S1024x128, .f32⟩
  | 124 => ⟨S1024x256, .f32⟩
  | 125 => ⟨S256x512, .f32⟩
  | 126 => ⟨S1024x512, .f32⟩
  | 127 => ⟨S128x512, .f32⟩
  | _ => ⟨S1000000x128, .f32⟩

abbrev hbmTy0_1 (i : Nat) : BufTy := match i % 128 with
  | 0 => ⟨S1024x512, .f32⟩
  | 1 => ⟨S1024x512, .f32⟩
  | 2 => ⟨S1x512, .f32⟩
  | 3 => ⟨S1024x512, .f32⟩
  | 4 => ⟨S1024x512, .f32⟩
  | 5 => ⟨S1x512, .f32⟩
  | 6 => ⟨S1024x512, .f32⟩
  | 7 => ⟨S1024x512, .f32⟩
  | 8 => ⟨S1024x128, .f32⟩
  | 9 => ⟨S1024x128, .f32⟩
  | 10 => ⟨S1024x128, .f32⟩
  | 11 => ⟨S1024x128, .f32⟩
  | 12 => ⟨S1024x128, .f32⟩
  | 13 => ⟨S1024x128, .f32⟩
  | 14 => ⟨S_, .f32⟩
  | 15 => ⟨S1024x128, .f32⟩
  | 16 => ⟨S1024x128, .f32⟩
  | 17 => ⟨S_, .f32⟩
  | 18 => ⟨S1024x128, .f32⟩
  | 19 => ⟨S1024x128, .f32⟩
  | 20 => ⟨S1024x128, .f32⟩
  | 21 => ⟨S1024x128, .f32⟩
  | 22 => ⟨S1024x128, .f32⟩
  | 23 => ⟨S_, .f32⟩
  | 24 => ⟨S1024x128, .f32⟩
  | 25 => ⟨S1024x128, .f32⟩
  | 26 => ⟨S_, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S1024x128, .f32⟩
  | 33 => ⟨S1024x128, .f32⟩
  | 34 => ⟨S_, .f32⟩
  | 35 => ⟨S1024x128, .f32⟩
  | 36 => ⟨S1024x128, .f32⟩
  | 37 => ⟨S_, .f32⟩
  | 38 => ⟨S1024x128, .f32⟩
  | 39 => ⟨S1024x128, .f32⟩
  | 40 => ⟨S1024x128, .f32⟩
  | 41 => ⟨S1024x128, .f32⟩
  | 42 => ⟨S1024x256, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .i32⟩
  | .local _ .vmem, ⟨3, _⟩ => ⟨S2000x1, .i32⟩
  | .local _ .vmem, ⟨4, _⟩ => ⟨S1x1024x128, .f32⟩
  | .local _ .vmem, ⟨5, _⟩ => ⟨S1x1024x128, .f32⟩
  | .local _ .vmem, ⟨6, _⟩ => ⟨S1024x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_v84 : Ref sig .tc := ⟨.hbm, 104, rfl⟩
abbrev main_v85 : Ref sig .tc := ⟨.hbm, 105, rfl⟩
abbrev main_cst_13 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_14 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_16 : Ref sig .tc := ⟨.hbm, 142, rfl⟩
abbrev main_v119 : Ref sig .tc := ⟨.hbm, 143, rfl⟩
abbrev main_v120 : Ref sig .tc := ⟨.hbm, 144, rfl⟩
abbrev main_cst_17 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_18 : Ref sig .tc := ⟨.hbm, 151, rfl⟩
abbrev main_v126 : Ref sig .tc := ⟨.hbm, 152, rfl⟩
abbrev main_v127 : Ref sig .tc := ⟨.hbm, 153, rfl⟩
abbrev main_cst_19 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_20 : Ref sig .tc := ⟨.hbm, 162, rfl⟩
abbrev main_v135 : Ref sig .tc := ⟨.hbm, 163, rfl⟩
abbrev main_v136 : Ref sig .tc := ⟨.hbm, 164, rfl⟩
abbrev main_cst_21 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 250], ![false, false]⟩

def k0_cond2 (i : grid0.Coords) : BitVec 1 :=
  let arg1 : BitVec 32 := BitVec.ofNat 32 (i 1).val
  let c249_i32 : BitVec 32 := 249#32
  let v19 : BitVec 1 := Scalar.cmpi .eq arg1 c249_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1000000_S1000000x1 : S1000000.ShapeCasts S1000000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  broadcasts_S2000x1_S2000x1024 : S2000x1.Broadcasts S2000x1024
  natLt_1_32 : 1 < 32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S2x1024x128_S1x1024x128_0_0_0 : S2x1024x128.Slices ![0, 0, 0] S1x1024x128
  slices_S2x1024x128_S1x1024x128_1_0_0 : S2x1024x128.Slices ![1, 0, 0] S1x1024x128
  bcast_S_S1000000 : S_.BroadcastsInDim S1000000 (![] : Fin 0 → Fin S1000000.rank)
  bcast_S_S1024 : S_.BroadcastsInDim S1024 (![] : Fin 0 → Fin S1024.rank)
  bcast_S1000000_S1000000x1_0 : S1000000.BroadcastsInDim S1000000x1 (![0] : Fin 1 → Fin S1000000x1.rank)
  shapeCasts_S1024_S1024x1 : S1024.ShapeCasts S1024x1
  bcast_S_S1024x128 : S_.BroadcastsInDim S1024x128 (![] : Fin 0 → Fin S1024x128.rank)
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  transposes_S512x256_S256x512_1_0 : S512x256.Transposes [1, 0] S256x512
  transposes_S512x128_S128x512_1_0 : S512x128.Transposes [1, 0] S128x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  slices_S1024x512_S1024x128_0_0 : S1024x512.Slices ![0, 0] S1024x128
  slices_S1024x512_S1024x128_0_128 : S1024x512.Slices ![0, 128] S1024x128
  slices_S1024x512_S1024x128_0_256 : S1024x512.Slices ![0, 256] S1024x128
  slices_S1024x512_S1024x128_0_384 : S1024x512.Slices ![0, 384] S1024x128
  dot_S2000x1024_S2000x128_S1024x128_0_0_1_1_n_n_wf : DotDims.WF S2000x1024 S2000x128 S1024x128 [0] [0] [1] [1] [] []
  scatter_S1024_S1000000x1_S1000000_n_0_0_1_wf : ScatterDims.WF S1024 S1000000x1 S1000000 [] [0] [0] 1
  dot_S1024x256_S256x512_S1024x512_1_0_0_1_n_n_wf : DotDims.WF S1024x256 S256x512 S1024x512 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S1000000x128.size a
  hwx0_0 : ∀ i : grid0.Coords, EltTy.bits .f32 = 32 ∨ (Rect.block (s := S1000000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S1000000x1.size a
  hwx0_1 : ∀ i : grid0.Coords, EltTy.bits .i32 = 32 ∨ (Rect.block (s := S1000000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x1024x128.size a
  hwx0_2 : ∀ i : grid0.Coords, EltTy.bits .f32 = 32 ∨ (Rect.block (s := S2x1024x128) S1x1024x128.size (cc0_transform_2 i) (hinb0_2 i)).WholeWords (EltTy.packing .f32)

variable [Facts₀]

def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1000000x128 : Shape := ⟨2, ![1000000, 128]⟩
abbrev S1000000 : Shape := ⟨1, ![1000000]⟩
abbrev S512x256 : Shape := ⟨2, ![512, 256]⟩
abbrev S512x128 : Shape := ⟨2, ![512, 128]⟩
abbrev S512 : Shape := ⟨1, ![512]⟩
abbrev S_ : Shape := ⟨0, ![]⟩
abbrev S1024x128 : Shape := ⟨2, ![1024, 128]⟩
abbrev S1000000x1 : Shape := ⟨2, ![1000000, 1]⟩
abbrev S1000000x256 : Shape := ⟨2, ![1000000, 256]⟩
abbrev S1024x256 : Shape := ⟨2, ![1024, 256]⟩
abbrev S256x512 : Shape := ⟨2, ![256, 512]⟩
abbrev S1024x512 : Shape := ⟨2, ![1024, 512]⟩
abbrev S128x512 : Shape := ⟨2, ![128, 512]⟩
abbrev S1x512 : Shape := ⟨2, ![1, 512]⟩

abbrev nBuf : Space → Nat
  | .hbm => 190
  | .vmem => 0
  | .smem => 0
  | _ => 0

abbrev hbmTy0_0 (i : Nat) : BufTy := match i % 128 with
  | 0 => ⟨S1000000x128, .f32⟩
  | 1 => ⟨S1000000, .i32⟩
  | 2 => ⟨S512x256, .f32⟩
  | 3 => ⟨S512x128, .f32⟩
  | 4 => ⟨S512, .f32⟩
  | 5 => ⟨S512, .f32⟩
  | 6 => ⟨S_, .f32⟩
  | 7 => ⟨S1024x128, .f32⟩
  | 8 => ⟨S_, .f32⟩
  | 9 => ⟨S1024x128, .f32⟩
  | 10 => ⟨S_, .f32⟩
  | 11 => ⟨S1024x128, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x128, .f32⟩
  | 21 => ⟨S1000000x256, .f32⟩
  | 22 => ⟨S_, .f32⟩
  | 23 => ⟨S1024x256, .f32⟩
  | 24 => ⟨S1000000x1, .i32⟩
  | 25 => ⟨S1024x256, .f32⟩
  | 26 => ⟨S256x512, .f32⟩
  | 27 => ⟨S1024x512, .f32⟩
  | 28 => ⟨S128x512, .f32⟩
  | 29 => ⟨S1024x512, .f32⟩
  | 30 => ⟨S1024x512, .f32⟩
  | 31 => ⟨S1x512, .f32⟩
  | 32 => ⟨S1024x512, .f32⟩
  | 33 => ⟨S1024x512, .f32⟩
  | 34 => ⟨S1x512, .f32⟩
  | 35 => ⟨S1024x512, .f32⟩
  | 36 => ⟨S1024x512, .f32⟩
  | 37 => ⟨S1024x128, .f32⟩
  | 38 => ⟨S1024x128, .f32⟩
  | 39 => ⟨S1024x128, .f32⟩
  | 40 => ⟨S1024x128, .f32⟩
  | 41 => ⟨S1024x128, .f32⟩
  | 42 => ⟨S1024x128, .f32⟩
  | 43 => ⟨S_, .f32⟩
  | 44 => ⟨S1024x128, .f32⟩
  | 45 => ⟨S1024x128, .f32⟩
  | 46 => ⟨S_, .f32⟩
  | 47 => ⟨S1024x128, .f32⟩
  | 48 => ⟨S1024x128, .f32⟩
  | 49 => ⟨S1024x128, .f32⟩
  | 50 => ⟨S1024x128, .f32⟩
  | 51 => ⟨S1024x128, .f32⟩
  | 52 => ⟨S_, .f32⟩
  | 53 => ⟨S1024x128, .f32⟩
  | 54 => ⟨S1024x128, .f32⟩
  | 55 => ⟨S_, .f32⟩
  | 56 => ⟨S1024x128, .f32⟩
  | 57 => ⟨S1024x128, .f32⟩
  | 58 => ⟨S1024x128, .f32⟩
  | 59 => ⟨S1024x128, .f32⟩
  | 60 => ⟨S1024x128, .f32⟩
  | 61 => ⟨S1024x128, .f32⟩
  | 62 => ⟨S1024x128, .f32⟩
  | 63 => ⟨S_, .f32⟩
  | 64 => ⟨S1024x128, .f32⟩
  | 65 => ⟨S1024x128, .f32⟩
  | 66 => ⟨S_, .f32⟩
  | 67 => ⟨S1024x128, .f32⟩
  | 68 => ⟨S1024x128, .f32⟩
  | 69 => ⟨S1024x128, .f32⟩
  | 70 => ⟨S1024x128, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x128, .f32⟩
  | 80 => ⟨S1000000x256, .f32⟩
  | 81 => ⟨S_, .f32⟩
  | 82 => ⟨S1024x256, .f32⟩
  | 83 => ⟨S1000000x1, .i32⟩
  | 84 => ⟨S1024x256, .f32⟩
  | 85 => ⟨S256x512, .f32⟩
  | 86 => ⟨S1024x512, .f32⟩
  | 87 => ⟨S128x512, .f32⟩
  | 88 => ⟨S1024x512, .f32⟩
  | 89 => ⟨S1024x512, .f32⟩
  | 90 => ⟨S1x512, .f32⟩
  | 91 => ⟨S1024x512, .f32⟩
  | 92 => ⟨S1024x512, .f32⟩
  | 93 => ⟨S1x512, .f32⟩
  | 94 => ⟨S1024x512, .f32⟩
  | 95 => ⟨S1024x512, .f32⟩
  | 96 => ⟨S1024x128, .f32⟩
  | 97 => ⟨S1024x128, .f32⟩
  | 98 => ⟨S1024x128, .f32⟩
  | 99 => ⟨S1024x128, .f32⟩
  | 100 => ⟨S1024x128, .f32⟩
  | 101 => ⟨S1024x128, .f32⟩
  | 102 => ⟨S_, .f32⟩
  | 103 => ⟨S1024x128, .f32⟩
  | 104 => ⟨S1024x128, .f32⟩
  | 105 => ⟨S_, .f32⟩
  | 106 => ⟨S1024x128, .f32⟩
  | 107 => ⟨S1024x128, .f32⟩
  | 108 => ⟨S1024x128, .f32⟩
  | 109 => ⟨S1024x128, .f32⟩
  | 110 => ⟨S1024x128, .f32⟩
  | 111 => ⟨S_, .f32⟩
  | 112 => ⟨S1024x128, .f32⟩
  | 113 => ⟨S1024x128, .f32⟩
  | 114 => ⟨S_, .f32⟩
  | 115 => ⟨S1024x128, .f32⟩
  | 116 => ⟨S1024x128, .f32⟩
  | 117 => ⟨S1024x128, .f32⟩
  | 118 => ⟨S1024x128, .f32⟩
  | 119 => ⟨S1024x128, .f32⟩
  | 120 => ⟨S1024x128, .f32⟩
  | 121 => ⟨S1024x128, .f32⟩
  | 122 => ⟨S_, .f32⟩
  | 123 => ⟨S1024x128, .f32⟩
  | 124 => ⟨S1024x128, .f32⟩
  | 125 => ⟨S_, .f32⟩
  | 126 => ⟨S1024x128, .f32⟩
  | 127 => ⟨S1024x128, .f32⟩
  | _ => ⟨S1000000x128, .f32⟩

abbrev hbmTy0_1 (i : Nat) : BufTy := match i % 128 with
  | 0 => ⟨S1024x128, .f32⟩
  | 1 => ⟨S1024x128, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x128, .f32⟩
  | 11 => ⟨S1000000x256, .f32⟩
  | 12 => ⟨S_, .f32⟩
  | 13 => ⟨S1024x256, .f32⟩
  | 14 => ⟨S1000000x1, .i32⟩
  | 15 => ⟨S1024x256, .f32⟩
  | 16 => ⟨S256x512, .f32⟩
  | 17 => ⟨S1024x512, .f32⟩
  | 18 => ⟨S128x512, .f32⟩
  | 19 => ⟨S1024x512, .f32⟩
  | 20 => ⟨S1024x512, .f32⟩
  | 21 => ⟨S1x512, .f32⟩
  | 22 => ⟨S1024x512, .f32⟩
  | 23 => ⟨S1024x512, .f32⟩
  | 24 => ⟨S1x512, .f32⟩
  | 25 => ⟨S1024x512, .f32⟩
  | 26 => ⟨S1024x512, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S1024x128, .f32⟩
  | 33 => ⟨S_, .f32⟩
  | 34 => ⟨S1024x128, .f32⟩
  | 35 => ⟨S1024x128, .f32⟩
  | 36 => ⟨S_, .f32⟩
  | 37 => ⟨S1024x128, .f32⟩
  | 38 => ⟨S1024x128, .f32⟩
  | 39 => ⟨S1024x128, .f32⟩
  | 40 => ⟨S1024x128, .f32⟩
  | 41 => ⟨S1024x128, .f32⟩
  | 42 => ⟨S_, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x128, .f32⟩
  | 49 => ⟨S1024x128, .f32⟩
  | 50 => ⟨S1024x128, .f32⟩
  | 51 => ⟨S1024x128, .f32⟩
  | 52 => ⟨S1024x128, .f32⟩
  | 53 => ⟨S_, .f32⟩
  | 54 => ⟨S1024x128, .f32⟩
  | 55 => ⟨S1024x128, .f32⟩
  | 56 => ⟨S_, .f32⟩
  | 57 => ⟨S1024x128, .f32⟩
  | 58 => ⟨S1024x128, .f32⟩
  | 59 => ⟨S1024x128, .f32⟩
  | 60 => ⟨S1024x128, .f32⟩
  | 61 => ⟨S1024x256, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_17 : Ref sig .tc := ⟨.hbm, 122, rfl⟩
abbrev main_v97 : Ref sig .tc := ⟨.hbm, 123, rfl⟩
abbrev main_v98 : Ref sig .tc := ⟨.hbm, 124, rfl⟩
abbrev main_cst_18 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_19 : Ref sig .tc := ⟨.hbm, 130, rfl⟩
abbrev main_v103 : Ref sig .tc := ⟨.hbm, 131, rfl⟩
abbrev main_v104 : Ref sig .tc := ⟨.hbm, 132, rfl⟩
abbrev main_c_20 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_21 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_22 : Ref sig .tc := ⟨.hbm, 161, rfl⟩
abbrev main_v131 : Ref sig .tc := ⟨.hbm, 162, rfl⟩
abbrev main_v132 : Ref sig .tc := ⟨.hbm, 163, rfl⟩
abbrev main_cst_23 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_24 : Ref sig .tc := ⟨.hbm, 170, rfl⟩
abbrev main_v138 : Ref sig .tc := ⟨.hbm, 171, rfl⟩
abbrev main_v139 : Ref sig .tc := ⟨.hbm, 172, rfl⟩
abbrev main_cst_25 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_26 : Ref sig .tc := ⟨.hbm, 181, rfl⟩
abbrev main_v147 : Ref sig .tc := ⟨.hbm, 182, rfl⟩
abbrev main_v148 : Ref sig .tc := ⟨.hbm, 183, rfl⟩
abbrev main_cst_27 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S_S1024x256 : S_.BroadcastsInDim S1024x256 (![] : Fin 0 → Fin S1024x256.rank)
  transposes_S512x256_S256x512_1_0 : S512x256.Transposes [1, 0] S256x512
  transposes_S512x128_S128x512_1_0 : S512x128.Transposes [1, 0] S128x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  slices_S1024x512_S1024x128_0_0 : S1024x512.Slices ![0, 0] S1024x128
  slices_S1024x512_S1024x128_0_128 : S1024x512.Slices ![0, 128] S1024x128
  slices_S1024x512_S1024x128_0_256 : S1024x512.Slices ![0, 256] S1024x128
  slices_S1024x512_S1024x128_0_384 : S1024x512.Slices ![0, 384] S1024x128
  concatenates_S1024x128_S1024x128_S1024x256_d1 : Shape.Concatenates [S1024x128, S1024x128] S1024x256 1
  gather_S1024x128_S1000000x1_S1000000x128_1_0_n_n_0_1_1128_wf : GatherDims.WF S1024x128 S1000000x1 S1000000x128 [1] [0] [] [0] [] 1 ![1, 128]
  scatter_S1024x256_S1000000x1_S1000000x256_1_0_0_1_wf : ScatterDims.WF S1024x256 S1000000x1 S1000000x256 [1] [0] [0] 1
  dot_S1024x256_S256x512_S1024x512_1_0_0_1_n_n_wf : DotDims.WF S1024x256 S256x512 S1024x512 [1] [0] [0] [1] [] []
  dot_S1024x128_S128x512_S1024x512_1_0_0_1_n_n_wf : DotDims.WF S1024x128 S128x512 S1024x512 [1] [0] [0] [1] [] []

variable [Facts₀]

def gather_S1024x128_S1000000x1_S1000000x128_1_0_n_n_0_1_1128 : GatherDims S1024x128 S1000000x1 S1000000x128 where
  offsetDims := [1]
  collapsedSliceDims := [0]
  operandBatchingDims := []
  startIndicesBatchingDims := []
  startIndexMap := [0]
  indexVectorDim := 1
  sliceSizes := ![1, 128]
  wf := gather_S1024x128_S1000000x1_S1000000x128_1_0_n_n_0_1_1128_wf
def scatter_S1024x256_S1000000x1_S1000000x256_1_0_0_1 : ScatterDims S1024x256 S1000000x1 S1000000x256 where
  updateWindowDims := [1]
  insertedWindowDims := [0]
  scatterDimsToOperandDims := [0]
  indexVectorDim := 1
  wf := scatter_S1024x256_S1000000x1_S1000000x256_1_0_0_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

class Facts : Prop extends Facts₀ where

variable [Facts]
-- ==== Proof.KIKit.lean ====
/-
  The frame of the kernel program, part 1: what the three cases of the kernel body and the run around the region share.

  @main is one reshape (the segment ids as a column), the region, and 163 host operations.  The region's arrays are
  `x`, the id column and the [2, 1024, 128] result.  Stated here: the contents the region finds (`V`: the launch
  memory after the reshape); that the later operations write none of the region's arrays and none of the six
  arguments (each writes only its own result buffer); the blocks the windows read; the body's two conditions on
  the grid point in closed form (`t % 250 = 0`: the first point of a half; `t % 250 = 249`: the last), and where the
  result window is idle; the frame claim's post read off a run's post.
-/
import proofs.«417752_j51754355917417_1_alg».proof.Proof.Gen.KernelIdeal.Launch
import proofs.«417752_j51754355917417_1_alg».proof.Proof.Gen.KernelIdeal.Skeleton
import proofs.«417752_j51754355917417_1_alg».proof.Proof.Gen.KernelIdeal.Points
import Idealize.ShloMosaic.Lib.Pipeline.FrameBody
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the reshape of the segment ids. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

set_option maxHeartbeats 4000000 in
theorem hostOps1_fresh : (hostOps1 : List (HloOp τ sig (Elt F))).Forall fun op => op.fresh = ∅ := by
  simp only [List.Forall]
  repeat' apply And.intro
  all_goals rfl

set_option maxRecDepth 200000 in
/-- @main is the reshape, the region, and the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The buffers the later operations write, in order: each operation writes its own result buffer only. -/
abbrev hostOps1_W : List (Ref sig .tc) := [main_v2, main_v3, main_v4, main_v5, main_v6, main_cst, main_v7, main_cst_0, main_v8, main_v9, main_v10, main_v11, main_cst_1, main_v12, main_cst_2, main_v13, main_cst_3, main_v14, main_v15, main_v16, main_v17, main_v18, main_v19, main_v20, main_v21, main_v22, main_v23, main_v24, main_v25, main_v26, main_v27, main_v28, main_v29, main_v30, main_v31, main_v32, main_v33, main_v34, main_cst_4, main_v35, main_v36, main_cst_5, main_v37, main_v38, main_v39, main_v40, main_v41, main_cst_6, main_v42, main_v43, main_cst_7, main_v44, main_v45, main_v46, main_v47, main_v48, main_v49, main_v50, main_cst_8, main_v51, main_v52, main_cst_9, main_v53, main_v54, main_v55, main_v56, main_v57, main_v58, main_v59, main_v60, main_v61, main_v62, main_v63, main_v64, main_v65, main_v66, main_v67, main_v68, main_v69, main_v70, main_v71, main_v72, main_v73, main_v74, main_v75, main_v76, main_cst_10, main_v77, main_v78, main_cst_11, main_v79, main_v80, main_v81, main_v82, main_v83, main_cst_12, main_v84, main_v85, main_cst_13, main_v86, main_v87, main_v88, main_v89, main_v90, main_v91, main_v92, main_cst_14, main_v93, main_v94, main_cst_15, main_v95, main_v96, main_v97, main_v98, main_v99, main_v100, main_v101, main_v102, main_v103, main_v104, main_v105, main_v106, main_v107, main_v108, main_v109, main_v110, main_v111, main_v112, main_v113, main_v114, main_v115, main_v116, main_v117, main_v118, main_cst_16, main_v119, main_v120, main_cst_17, main_v121, main_v122, main_v123, main_v124, main_v125, main_cst_18, main_v126, main_v127, main_cst_19, main_v128, main_v129, main_v130, main_v131, main_v132, main_v133, main_v134, main_cst_20, main_v135, main_v136, main_cst_21, main_v137, main_v138, main_v139, main_v140, main_v141]

set_option maxHeartbeats 8000000 in
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer none of the later operations writes keeps its contents through them. -/
theorem tail_keep (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- The later operations write no array of the region: none of the three is among the buffers they write. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  have h1 := (List.forall_iff_forall_mem.mp hostOps1_writes) op hop hw
  obtain ⟨y, hy, he⟩ := List.mem_map.mp (List.mem_toFinset.mp h1)
  have hyw : y = Pipeline.arrRef spec0 w := Proc.devRef_injective _ he
  subst hyw
  revert hy
  fin_cases w <;> decide

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.reshape_writes, Finset.mem_singleton]
    exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.Forall, StableHlo.reshape_writes, Finset.mem_singleton]
    exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.Forall, StableHlo.reshape_writes, Finset.mem_singleton]
    exact StableHlo.devRef_ne_of_ne (by decide)))

/-- An argument that is no array of the region ends, after the later operations, as launched. -/
theorem W_of_not_written (dats : (p : Fin 1) → (c : Dev nD) → Dat τ (Elt F) Unit ℕ (UR sig nD τ) ℕ (cfgs p) c) (c : Dev nD)
    (a : Ref sig .tc) (ha : a ∉ hostOps1_W) (hne : ∀ w, Pipeline.arrRef spec0 w ≠ a) :
    Pipeline.afterTail₀ cfgs dats 0 (V0 m) [hostOps1] c a = V m c a := by
  unfold Pipeline.afterTail₀
  simp only [List.flatten_cons, List.flatten_nil, List.append_nil]
  rw [tail_keep _ a ha, Pipeline.withArrays_of_ne _ c (V0 m c) _ a hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim's post (every argument array ends as launched) from a run to the library's frame post: `x` is an input
    window's array; the other five are written by no operation and are no array of the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans ((W_of_not_written m dats c main_arg1 (by decide) (by decide)).trans (V_main_arg1 m c)),
      ((h c).2 main_arg2 (Pipeline.mem_restRefs_of main_arg2 (by decide) (by decide))).trans ((W_of_not_written m dats c main_arg2 (by decide) (by decide)).trans (V_main_arg2 m c)),
      ((h c).2 main_arg3 (Pipeline.mem_restRefs_of main_arg3 (by decide) (by decide))).trans ((W_of_not_written m dats c main_arg3 (by decide) (by decide)).trans (V_main_arg3 m c)),
      ((h c).2 main_arg4 (Pipeline.mem_restRefs_of main_arg4 (by decide) (by decide))).trans ((W_of_not_written m dats c main_arg4 (by decide) (by decide)).trans (V_main_arg4 m c)),
      ((h c).2 main_arg5 (Pipeline.mem_restRefs_of main_arg5 (by decide) (by decide))).trans ((W_of_not_written m dats c main_arg5 (by decide) (by decide)).trans (V_main_arg5 m c))⟩) h

/-! ## The body's branch conditions -/

/-- The first conditional's condition (the accumulator is zeroed): the point is the first of its half. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 250 = 0 :=
  (by decide +kernel : ∀ t : Fin grid0.N, cond0_0 (grid0.coords t) ↔ t.val % 250 = 0)

/-- The second conditional's condition (the accumulator is copied to the result block): the point is the last of its half. -/
abbrev cond0_1 (i : grid0.Coords) : Prop := k0_cond2 i = 1#1
theorem hcond0_1 : ∀ t : Fin cfg0.N, cond0_1 (grid0.coords t) ↔ t.val % 250 = 249 :=
  (by decide +kernel : ∀ t : Fin grid0.N, cond0_1 (grid0.coords t) ↔ t.val % 250 = 249)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body runs on -/

/-- One staging buffer of the result window, through which its contents are stated. -/
abbrev VO0_2 : View sig .tc .vmem S1x1024x128 .f32 := (Memref.whole cc0_stg2_0 : Memref sig .tc .vmem S1x1024x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x128 .f32 := Memref.whole cc0_scratch0
abbrev VS0_0 : View sig .tc .vmem S1024x128 .f32 := scM0_0.view

/-- The region's invariant of the class: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The frame of the kernel program, part 2A: the kernel body run once at the first point of a half (the accumulator is zeroed first; the result block is not stored).
  The run is symbolic: on whole staging buffers holding the point's two input blocks it reaches the end with the inputs as
  they were and with each buffer it stored into holding the stores' pieces, which the run itself finds.
-/
import proofs.«417752_j51754355917417_1_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the first condition holds and the second does not: the result window's buffer is handed back
    untouched, the accumulator (at anything before) ends with the pieces `LS0` written. -/
noncomputable def kernelRun0_A (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S2000x128 .f32) (x1 : Vec F S2000x1 .i32) :
    Σ' (L2 : List (View.Piece (Elt F) S1x1024x128 .f32)), { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨[], ?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIRunB.lean ====
/-
  The frame of the kernel program, part 2B: the kernel body run once at a point that is neither the first nor the last of its half (the accumulator takes the point's product; the result block is not stored).
  The run is symbolic: on whole staging buffers holding the point's two input blocks it reaches the end with the inputs as
  they were and with each buffer it stored into holding the stores' pieces, which the run itself finds.
-/
import proofs.«417752_j51754355917417_1_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where neither condition holds: the result window's buffer is handed back untouched, the accumulator
    (at what the point before left, `xs0`) ends with the pieces `LS0` written. -/
noncomputable def kernelRun0_B (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S2000x128 .f32) (x1 : Vec F S2000x1 .i32) (xs0 : Vec F S1024x128 .f32) :
    Σ' (L2 : List (View.Piece (Elt F) S1x1024x128 .f32)), { LS0 : List (View.Piece (Elt F) S1024x128 .f32) //
      ∀ (xi2 : Vec F S1x1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨[], ?_, fun xi2 E K => ?run⟩
  case run =>
    simp only [cc0__segsum_kernel_eq_skeleton]; unfold cc0__segsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIRunC.lean ====
/-
  The frame of the kernel program, part 2C: the kernel body run once at the last point of a half (the accumulator takes the point's product and is copied to the result block).
  The run is symbolic: on whole staging buffers holding the point's two input blocks it reaches the end with the inputs as
  they were and with each buffer it stored into holding the stores' pieces, which the run itself finds.
-/
import proofs.«417752_j51754355917417_1_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the first condition fails and the second holds: the result window's buffer (at anything before)
    ends with the pieces `L2` written, the accumulator (at what the point before left, `xs0`) with `LS0`. -/
noncomputable def kernelRun0_C (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S2000x128 .f32) (x1 : Vec F S2000x1 .i32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__segsum_kernel i arg2 harg2 arg3 harg3 arg4 harg4 arg5 harg5) K } := by
  refine ⟨?_, ?_, fun E K => ?run⟩
  case run =>
    simp only [cc0__segsum_kernel_eq_skeleton]; unfold cc0__segsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KIOuts.lean ====
/-
  The frame of the kernel program, part 3: what the result window's staging buffer and the accumulator hold after the
  body at each grid point, and the proof data of the pipeline built from it.

  The grid is 2 halves of 250 points.  At point `t` the body is in one of three cases: `t % 250 = 0` (A: the accumulator is
  zeroed, then the point's partial segment sums are added), `0 < t % 250 < 249` (B: the partial sums are added to what the
  point before left), `t % 250 = 249` (C: as B, and then the accumulator is copied into the result block).  The accumulator
  is a buffer of the kernel's own that lives across points, so its contents after point `t` are defined by recursion on `t`
  (`outsAt0`); the result window is idle except in case C.
-/
import proofs.«417752_j51754355917417_1_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result window's buffer and in the accumulator -/

/-- At the first point of a half the body stores nothing into the result window (the window is idle there and not
    written back): no pieces. A placeholder — junk read back — that nothing consults, since at such a point the window is
    neither written back nor read at the next point. -/
def out0_A_2 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S2000x128 .f32) (x1 : Vec F S2000x1 .i32) : Vec F S1x1024x128 .f32 :=
  VO0_2.read (Elt F) (VO0_2.writes (Elt F) VO0_2.junk (kernelRun0_A c i arg2 harg2 arg3 harg3 arg4 harg4 arg5 harg5 hc0 hc1 x0 x1).1)

/-- The pieces stored into the accumulator at the first point of a half (zeroed, then the point's partial sums added) cover it: every store is of the whole [1024, 128] buffer. -/
theorem scover0_A_0 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S2000x128 .f32) (x1 : Vec F S2000x1 .i32) (y : S1024x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x128.size (by sl_kernel_rfl) y

/-- What the body leaves in the accumulator at the first point of a half (zeroed, then the point's partial sums added): its pieces read back over junk. -/
def sout0_A_0 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S2000x128 .f32) (x1 : Vec F S2000x1 .i32) : Vec F S1024x128 .f32 :=
  VS0_0.read (Elt F) (VS0_0.writes (Elt F) VS0_0.junk (kernelRun0_A c i arg2 harg2 arg3 harg3 arg4 harg4 arg5 harg5 hc0 hc1 x0 x1).2.1)

/-- At a middle point of a half the body stores nothing into the result window either: the same placeholder. -/
def out0_B_2 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S2000x128 .f32) (x1 : Vec F S2000x1 .i32) (xs0 : Vec F S1024x128 .f32) : Vec F S1x1024x128 .f32 :=
  VO0_2.read (Elt F) (VO0_2.writes (Elt F) VO0_2.junk (kernelRun0_B c i arg2 harg2 arg3 harg3 arg4 harg4 arg5 harg5 hc0 hc1 x0 x1 xs0).1)

/-- The pieces stored into the accumulator at a middle point of a half (the point's partial sums added to what the point before left) cover it: every store is of the whole [1024, 128] buffer. -/
theorem scover0_B_0 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S2000x128 .f32) (x1 : Vec F S2000x1 .i32) (xs0 : Vec F S1024x128 .f32) (y : S1024x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x128.size (by sl_kernel_rfl) y

/-- What the body leaves in the accumulator at a middle point of a half (the point's partial sums added to what the point before left): its pieces read back over junk. -/
def sout0_B_0 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S2000x128 .f32) (x1 : Vec F S2000x1 .i32) (xs0 : Vec F S1024x128 .f32) : Vec F S1024x128 .f32 :=
  VS0_0.read (Elt F) (VS0_0.writes (Elt F) VS0_0.junk (kernelRun0_B c i arg2 harg2 arg3 harg3 arg4 harg4 arg5 harg5 hc0 hc1 x0 x1 xs0).2.1)

/-- At the last point of a half the body copies the accumulator into the result window's block: one store of the whole
    block, so the stored pieces cover it. -/
theorem cover0_C_2 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S2000x128 .f32) (x1 : Vec F S2000x1 .i32) (xs0 : Vec F S1024x128 .f32) (y : S1x1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024x128.size (by sl_kernel_rfl) y

/-- What the body leaves in the result window's staging buffer at the last point of a half: its pieces read back over junk. -/
def out0_C_2 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S2000x128 .f32) (x1 : Vec F S2000x1 .i32) (xs0 : Vec F S1024x128 .f32) : Vec F S1x1024x128 .f32 :=
  VO0_2.read (Elt F) (VO0_2.writes (Elt F) VO0_2.junk (kernelRun0_C c i arg2 harg2 arg3 harg3 arg4 harg4 arg5 harg5 hc0 hc1 x0 x1 xs0).1)

/-- The pieces stored into the accumulator at the last point of a half (the point's partial sums added to what the point before left) cover it: every store is of the whole [1024, 128] buffer. -/
theorem scover0_C_0 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S2000x128 .f32) (x1 : Vec F S2000x1 .i32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y

/-- What the body leaves in the accumulator at the last point of a half (the point's partial sums added to what the point before left): its pieces read back over junk. -/
def sout0_C_0 (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S2000x128 .f32) (x1 : Vec F S2000x1 .i32) (xs0 : Vec F S1024x128 .f32) : Vec F S1024x128 .f32 :=
  VS0_0.read (Elt F) (VS0_0.writes (Elt F) VS0_0.junk (kernelRun0_C c i arg2 harg2 arg3 harg3 arg4 harg4 arg5 harg5 hc0 hc1 x0 x1 xs0).2.1)

/-! ## What the two buffers hold after each point -/

/-- THE ACCUMULATION. What the result window's staging buffer (first component) and the accumulator (second component) hold
    after the body at position `n`: the case that `n % 250` selects, run on the point's memrefs and its two input blocks,
    and — in cases B and C, which read the accumulator before storing into it — on what position `n - 1` left there (nothing
    touches the accumulator between two points).  Both conditions at once (`n % 250` equal to 0 and to 249) is no point. -/
def outsAt0 (c : Dev nD) : (n : ℕ) → n < cfg0.N → Vec F S1x1024x128 .f32 × Vec F S1024x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 250 = 0 then
      if h1 : (n + 1) % 250 = 249 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 250 = 249 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at the first point of a half: case A's contents (nothing of the point before enters). -/
theorem outsAt0_A (c : Dev nD) (t : Fin cfg0.N) (h0 : t.val % 250 = 0) (h1 : ¬t.val % 250 = 249) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a middle point of a half: case B's contents, over what the point before left in the accumulator. -/
theorem outsAt0_B (c : Dev nD) (t : Fin cfg0.N) (h0 : ¬t.val % 250 = 0) (h1 : ¬t.val % 250 = 249) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point of a half: case C's contents, over what the point before left in the accumulator. -/
theorem outsAt0_C (c : Dev nD) (t : Fin cfg0.N) (h0 : ¬t.val % 250 = 0) (h1 : t.val % 250 = 249) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`.  Before the first point: the accumulator owned at anything (what the launch hands
    the region).  Before any later point: the accumulator owned at exactly what the point before left in it (`outsAt0`'s
    second component).  In both, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (that is, before point `n + 1`): the accumulator at point `n`'s contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the three arrays as the region finds them (`V`); after the body at point
    `t` the two input windows' buffers at their blocks (the body does not write them) and the result window's at `outsAt0`'s
    first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents (the definition projected, so that `V` — a fold over the
    reshape before the region — is never unfolded to see it). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input window's current staging buffer holds its block at every point: both windows are fetched at every point and
    the body writes neither. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Fr

end
-- ==== Proof.KIFrame.lean ====
/-
  The frame of the kernel program, part 4: the body obligation at every grid point, the run of @main, and the frame claim.

  At each of the 500 points the body is given the invariant (the accumulator at what the point before left, or at anything
  before the very first point), the two input windows' buffers at their blocks, and the result window's buffer at whatever
  it holds.  Whichever of the three cases the point is in, the body hands the inputs back unchanged and the accumulator at
  `outsAt0`'s second component; the result window's buffer comes back untouched (cases A, B: the window is idle there) or at
  `outsAt0`'s first component (case C).  The run of @main then follows from the library's rule for one pipelined region with
  host operations before and after it.
-/
import proofs.«417752_j51754355917417_1_alg».proof.Proof.KIOuts

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Two small facts the three cases share -/

/-- A buffer into which pieces covering every index have been stored is owned at those pieces read back over anything:
    what it held before the stores no longer shows. -/
theorem owns_of_cover {s : Shape} {e : EltTy} (c : Dev nD) (M : Memref sig .tc .vmem s e) (v' : View sig .tc .vmem s e)
    (L : List (View.Piece (Elt F) s e)) (hL : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩
  unfold owns; iexists M.view.writes (Elt F) f L; isplitr
  · ipureintro; exact View.read_writes_of_cover _ _ _ _ _ hL
  · iexact H

/-- At any position the invariant yields the accumulator at SOME contents and the generator register: before the first point
    that is all it says; later the named contents are forgotten. -/
theorem PhiS_forget (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_succ]
    iintro ⟨HS0, Hg⟩
    isplitl [HS0]
    · iexists _; iexact HS0
    iexact Hg

/-- The input windows are live at every point: the body must leave each one's buffer at the proof data's contents, its block. -/
theorem leaves0_0 (c : Dev nD) (t : Fin cfg0.N) :
    (dats m 0 c).leavesExact 0 t = owns (c : Thread nD τ) (ms0_0 t) fullShare (iblk m c 0 t) := by
  rw [← after0_0 m c t]
theorem leaves0_1 (c : Dev nD) (t : Fin cfg0.N) :
    (dats m 0 c).leavesExact 1 t = owns (c : Thread nD τ) (ms0_1 t) fullShare (iblk m c 1 t) := by
  rw [← after0_1 m c t]

/-! ## The body obligation, at a generic point -/

/-- What the body is called with at point `t`: the invariant, the (empty) debts, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it must return. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 6400000 in
/-- The body at any point.  `t % 250` says which case the point is in.  In every case the inputs' buffers hold their blocks,
    so the case's run applies; it is given the accumulator from the invariant (at anything in case A, which overwrites it
    before reading it; at what the point before left in cases B and C, which is what `outsAt0` feeds them) and returns it with
    covering pieces stored, that is at `outsAt0`'s second component.  The result window's buffer is passed through untouched
    in cases A and B, where the window is idle and not written back, and comes back covered by one whole store in case C. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0_0, leaves0_1]
  by_cases h0 : t.val % 250 = 0
  · -- case A: the first point of a half
    have h1 : ¬t.val % 250 = 249 := by omega
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [outsAt0_A m c t h0 h1]
    unfold sout0_A_0; (try dsimp only)
    iintro ⟨HΦ, Ho, ⟨%d0, H0⟩, ⟨%d1, H1⟩, ⟨%d2, H2⟩⟩
    icases (PhiS_forget m c t.val (Nat.le_of_lt t.isLt)) $$ HΦ with ⟨HS0, Hg⟩
    iapply ((kernelRun0_A c (grid0.coords t) _ _ _ _ _ _ _ _ ((hcond0_0 t).mpr h0) (fun h => h1 ((hcond0_1 t).mp h)) (iblk m c 0 t) (iblk m c 1 t)).2.2 _ Set.univ _)
    isplitl [H0]; · iexact H0
    isplitl [H1]; · iexact H1
    isplitl [H2]; · iexact H2
    isplitl [HS0]; · iexact HS0
    iintro ⟨H0, H1, H2, HS0⟩
    isplitl [HS0 Hg]
    · isplitl [HS0]
      · iapply (owns_of_cover c scM0_0 VS0_0 _ (scover0_A_0 c _ _ _ _ _ _ _ _ _ _ _ _ _))
        iexact HS0
      iexact Hg
    isplitl [Ho]; · iexact Ho
    isplitl [H0]; · iexact H0
    isplitl [H1]; · iexact H1
    iexists _; iexact H2
  · have hz : t.val ≠ 0 := fun h => h0 (by rw [h])
    rw [PhiS_pos m c _ _ hz]
    by_cases h1 : t.val % 250 = 249
    · -- case C: the last point of a half
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]
        · iapply (owns_of_cover c scM0_0 VS0_0 _ (scover0_C_0 c _ _ _ _ _ _ _ _ _ _ _ _ _ _))
          iexact HS0
        iexact Hg
      isplitl [Ho]; · iexact Ho
      isplitl [H0]; · iexact H0
      isplitl [H1]; · iexact H1
      iapply (owns_of_cover c (ms0_2 t) VO0_2 _ (cover0_C_2 c _ _ _ _ _ _ _ _ _ _ _ _ _ _))
      iexact H2
    · -- case B: a middle point of a half
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]
        · iapply (owns_of_cover c scM0_0 VS0_0 _ (scover0_B_0 c _ _ _ _ _ _ _ _ _ _ _ _ _ _))
          iexact HS0
        iexact Hg
      isplitl [Ho]; · iexact Ho
      isplitl [H0]; · iexact H0
      isplitl [H1]; · iexact H1
      iexists _; iexact H2

/-- The library's body obligation, at every point: its conjunction over the three windows written out. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- At any position the invariant gives back what the launch handed over: the accumulator's contents are forgotten. -/
theorem Phi_out (c : Dev nD) (t : Fin (cfg0.N + 1)) : (dats m 0 c).Φ t ⊢ Pipeline.ΦA spec0 c := by
  rw [show (dats m 0 c).Φ t = PhiS m c t.val (Nat.le_of_lt_succ t.isLt) from rfl, PhiA0_eq]
  exact PhiS_forget m c _ _

/-- In particular after the last point. -/
theorem hout (c : Dev nD) : (dats m 0 c).Φ (Fin.last cfg0.N) ⊢ Pipeline.ΦA spec0 c :=
  Phi_out m c _

/-! ## The run and the frame -/

-- the rule's implicit arguments are found by unifying its conclusion with this one, which takes unfolding plain
-- definitions in a metavariable's type
set_option backward.isDefEq.respectTransparency.types false in
set_option maxRecDepth 131072 in
/-- At the compiled mesh, for any values, from any memory with zero counters: every weakly fair execution of @main on the
    TensorCores terminates, and every final state has each of the region's three arrays at what the proof data says the
    pipeline leaves there and every other unscoped buffer as the 163 later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.KernelIdeal.Fr.run_main' depends on axioms: [propext, Classical.choice, Quot.sound] -/
#guard_msgs in #print axioms run_main

/-- THE FRAME: from any memory, every weakly fair execution of @main terminates with all six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.Spec.lean ====
/-
  The two programs' shared mathematics, stated once.

  Both programs run three steps of one LSTM cell on a pooled input.  The cell's step (the four gate
  pre-activations, the new cell state, the new hidden state) is the same chain of operations in both; the
  programs differ only in how they compute the POOLED input of a step from the previous hidden state `q`:

  * the reference gathers `q[batch]` row by row, concatenates it to `x`, and scatter-adds the rows into
    the 1024 segments (`pooledR`);
  * the kernel program adds the two halves of the kernel's result (each half the segment sums of `x` over
    half of the rows), and concatenates `counts · q`, `counts` the number of rows of each segment
    (`pooledK`).

  `resultOf P` is the three steps over a pooling function `P`, and the programs' results are
  `resultOf (pooledR x batch)` and `resultOf (pooledK out batch)`.
-/
import proofs.«417752_j51754355917417_1_alg».proof.Proof.Gen.KernelIdeal
import proofs.«417752_j51754355917417_1_alg».proof.Proof.Gen.ReferenceIdeal

noncomputable section

namespace Cert.Spec

open Idealize.ShloMosaic

variable {F : FTy → Type} [FloatOps F]

section Shared
open Cert.ReferenceIdeal Cert.ReferenceIdeal.Facts₀

/-- The all-zero [1024, 128] array (the initial hidden state, cell state and query). -/
def zeros : FVec F S1024x128 .f32 :=
  broadcastInDim S1024x128 ![] bcast_S_S1024x128 (constant S_ .f32 0x00000000#32)

/-- The all-one [1024, 128] array. -/
def ones : FVec F S1024x128 .f32 :=
  broadcastInDim S1024x128 ![] bcast_S_S1024x128 (constant S_ .f32 0x3F800000#32)

/-- The four gates' pre-activations: `pooled · W_ihᵀ + h · W_hhᵀ + b_ih + b_hh`. -/
def gates (pooled : FVec F S1024x256 .f32) (h : FVec F S1024x128 .f32) (Wih : FVec F S512x256 .f32)
    (Whh : FVec F S512x128 .f32) (bih bhh : FVec F S512 .f32) : FVec F S1024x512 .f32 :=
  addf (addf (addf (Host.dotGeneral dot_S1024x256_S256x512_S1024x512_1_0_0_1_n_n none pooled (transpose S256x512 [1, 0] Wih transposes_S512x256_S256x512_1_0)) (Host.dotGeneral dot_S1024x128_S128x512_S1024x512_1_0_0_1_n_n none h (transpose S128x512 [1, 0] Whh transposes_S512x128_S128x512_1_0))) (broadcastInDim S1024x512 ![0, 1] bcast_S1x512_S1024x512_0_1 (broadcastInDim S1x512 ![1] bcast_S512_S1x512_1 bih))) (broadcastInDim S1024x512 ![0, 1] bcast_S1x512_S1024x512_0_1 (broadcastInDim S1x512 ![1] bcast_S512_S1x512_1 bhh))

/-- The new cell state: `σ(f) · c + σ(i) · tanh g`, the gates the column blocks 1, 0 and 2 of the pre-activations,
    `σ z = 1 / (1 + exp (−z))`. -/
def cnew (g : FVec F S1024x512 .f32) (c : FVec F S1024x128 .f32) : FVec F S1024x128 .f32 :=
  addf (mulf (Host.divf ones (addf ones (Host.exp (Host.negf (extractStridedSlice S1024x128 ![0, 128] g slices_S1024x512_S1024x128_0_128))))) c) (mulf (Host.divf ones (addf ones (Host.exp (Host.negf (extractStridedSlice S1024x128 ![0, 0] g slices_S1024x512_S1024x128_0_0))))) (Host.tanh (extractStridedSlice S1024x128 ![0, 256] g slices_S1024x512_S1024x128_0_256)))

/-- The new hidden state: `σ(o) · tanh c'`, the output gate the column block 3. -/
def hnew (g : FVec F S1024x512 .f32) (c' : FVec F S1024x128 .f32) : FVec F S1024x128 .f32 :=
  mulf (Host.divf ones (addf ones (Host.exp (Host.negf (extractStridedSlice S1024x128 ![0, 384] g slices_S1024x512_S1024x128_0_384))))) (Host.tanh c')

/-- One step over a pooling function `P`: from (hidden, cell) to the new (hidden, cell); the query is the hidden state. -/
def step (P : FVec F S1024x128 .f32 → FVec F S1024x256 .f32) (Wih : FVec F S512x256 .f32)
    (Whh : FVec F S512x128 .f32) (bih bhh : FVec F S512 .f32)
    (hc : FVec F S1024x128 .f32 × FVec F S1024x128 .f32) : FVec F S1024x128 .f32 × FVec F S1024x128 .f32 :=
  (hnew (gates (P hc.1) hc.1 Wih Whh bih bhh) (cnew (gates (P hc.1) hc.1 Wih Whh bih bhh) hc.2),
   cnew (gates (P hc.1) hc.1 Wih Whh bih bhh) hc.2)

/-- Three steps from zero states, the last hidden state twice side by side. -/
def resultOf (P : FVec F S1024x128 .f32 → FVec F S1024x256 .f32) (Wih : FVec F S512x256 .f32)
    (Whh : FVec F S512x128 .f32) (bih bhh : FVec F S512 .f32) : FVec F S1024x256 .f32 :=
  concatenate S1024x256 1
    [⟨S1024x128, (step P Wih Whh bih bhh (step P Wih Whh bih bhh (step P Wih Whh bih bhh (zeros, zeros)))).1⟩,
     ⟨S1024x128, (step P Wih Whh bih bhh (step P Wih Whh bih bhh (step P Wih Whh bih bhh (zeros, zeros)))).1⟩]
    concatenates_S1024x128_S1024x128_S1024x256_d1

/-- The reference's pooling: rows `[x_i, q[batch_i]]` scatter-added into the segments `batch_i` (a negative row number
    of the gather wrapped by 1024 first, as jnp's indexing does). -/
def pooledR (x : FVec F S1000000x128 .f32) (batch : IVec S1000000 32) (q : FVec F S1024x128 .f32) :
    FVec F S1024x256 .f32 :=
  Host.scatterAdd scatter_S1024x256_S1000000x1_S1000000x256_1_0_0_1 (broadcastInDim S1024x256 ![] bcast_S_S1024x256 (constant S_ .f32 0x00000000#32)) (broadcastInDim S1000000x1 ![0] bcast_S1000000_S1000000x1_0 batch) (concatenate S1000000x256 1 [⟨S1000000x128, x⟩, ⟨S1000000x128, (Host.gather gather_S1024x128_S1000000x1_S1000000x128_1_0_n_n_0_1_1128 q (broadcastInDim S1000000x1 ![0] bcast_S1000000_S1000000x1_0 (select (cmpi .slt batch (broadcastInDim S1000000 ![] bcast_S_S1000000 (constantI S_ 32 0#32))) (addi batch (broadcastInDim S1000000 ![] bcast_S_S1000000 (constantI S_ 32 1024#32))) batch)))⟩] concatenates_S1000000x128_S1000000x128_S1000000x256_d1)

end Shared

section KernelSide
open Cert.KernelIdeal Cert.KernelIdeal.Facts₀

/-- The number of rows of each segment, as a float: ones scatter-added into the segments. -/
def countsK (batch : IVec S1000000 32) : FVec F S1024 .f32 :=
  Host.scatterAdd scatter_S1024_S1000000x1_S1000000_n_0_0_1 (broadcastInDim S1024 ![] bcast_S_S1024 (constant S_ .f32 0x00000000#32)) (broadcastInDim S1000000x1 ![0] bcast_S1000000_S1000000x1_0 batch) (broadcastInDim S1000000 ![] bcast_S_S1000000 (constant S_ .f32 0x3F800000#32))

/-- The segment sums of `x`: the two halves of the kernel's result added. -/
def xsumK (out : FVec F S2x1024x128 .f32) : FVec F S1024x128 .f32 :=
  addf (shapeCast S1024x128 (extractStridedSlice S1x1024x128 ![0, 0, 0] out slices_S2x1024x128_S1x1024x128_0_0_0) shapeCasts_S1x1024x128_S1024x128)
    (shapeCast S1024x128 (extractStridedSlice S1x1024x128 ![1, 0, 0] out slices_S2x1024x128_S1x1024x128_1_0_0) shapeCasts_S1x1024x128_S1024x128)

/-- The kernel program's pooling: the segment sums of `x` beside `counts · q`. -/
def pooledK (out : FVec F S2x1024x128 .f32) (batch : IVec S1000000 32) (q : FVec F S1024x128 .f32) :
    FVec F S1024x256 .f32 :=
  concatenate S1024x256 1 [⟨S1024x128, xsumK out⟩, ⟨S1024x128, mulf (broadcastInDim S1024x128 ![0, 1] bcast_S1024x1_S1024x128_0_1 (shapeCast S1024x1 (countsK batch) shapeCasts_S1024_S1024x1)) q⟩] concatenates_S1024x128_S1024x128_S1024x256_d1

end KernelSide

end Cert.Spec

end
-- ==== Proof.SegSpec.lean ====
/-
  What the kernel leaves in its result array, as a recursion over the grid's points.

  The grid has 2 × 250 points; point `t` reads rows `[2000 t, 2000 t + 2000)` of `x` and of the segment ids.  The
  kernel keeps a [1024, 128] accumulator: at the first point of each half (`t % 250 = 0`) it is zeroed and then takes
  the point's one-hot product; at every other point it takes the point's one-hot product added to what the point before
  left.  Half `p` of the result is the accumulator after the half's last point, `250 p + 249`.
-/
import proofs.«417752_j51754355917417_1_alg».proof.Proof.Spec
import proofs.«417752_j51754355917417_1_alg».proof.Proof.Gen.KernelIdeal.Skeleton
import Idealize.ShloMosaic.Lib.ValueIdx

noncomputable section

namespace Cert.Spec

open Idealize.ShloMosaic Idealize.ShloMosaic.ValueIdx Cert.KernelIdeal Cert.KernelIdeal.Gen

variable {F : FTy → Type} [FloatOps F]

/-- Rows `[2000 g, 2000 g + 2000)` of `x`: the block the kernel loads at point `g`. -/
def xblk (x : FVec F S1000000x128 .f32) (g : ℕ) : Vec F S2000x128 .f32 :=
  fun y => x (ix2 (⟨(2000 * g + (y 0).val) % 1000000, Nat.mod_lt _ (by decide)⟩ : Fin 1000000) (⟨(y 1).val, (y 1).isLt⟩ : Fin 128))

/-- Rows `[2000 g, 2000 g + 2000)` of the segment ids (a column): the block the kernel loads at point `g`. -/
def bblk (b2 : IVec S1000000x1 32) (g : ℕ) : Vec F S2000x1 .i32 :=
  fun y => b2 (ix2 (⟨(2000 * g + (y 0).val) % 1000000, Nat.mod_lt _ (by decide)⟩ : Fin 1000000) (⟨(y 1).val, (y 1).isLt⟩ : Fin 1))

/-- The accumulator after point `n`. -/
def accAt (x : FVec F S1000000x128 .f32) (b2 : IVec S1000000x1 32) : ℕ → FVec F S1024x128 .f32
  | 0 => k0_pay2 (xblk x 0) (bblk (F := F) b2 0) (k0_pay1 (F := F))
  | n + 1 =>
    if (n + 1) % 250 = 0 then k0_pay2 (xblk x (n + 1)) (bblk (F := F) b2 (n + 1)) (k0_pay1 (F := F))
    else k0_pay2 (xblk x (n + 1)) (bblk (F := F) b2 (n + 1)) (accAt x b2 n)

/-- The kernel's result array: half `p` is the accumulator after point `250 p + 249`. -/
def segOut (x : FVec F S1000000x128 .f32) (b2 : IVec S1000000x1 32) : FVec F S2x1024x128 .f32 :=
  fun i => accAt x b2 (250 * (i 0).val + 249) (ix2 (⟨(i 1).val, (i 1).isLt⟩ : Fin 1024) (⟨(i 2).val, (i 2).isLt⟩ : Fin 128))

end Cert.Spec

end
-- ==== Proof.KIBlocks.lean ====
/-
  The blocks the kernel loads at a point are rows `[2000 t, 2000 t + 2000)` of the arrays the region finds.
-/
import proofs.«417752_j51754355917417_1_alg».proof.Proof.KIKit
import proofs.«417752_j51754355917417_1_alg».proof.Proof.SegSpec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The two input windows' index maps, decided over the grid: block row `t`, block column 0. -/
theorem idx_facts_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Window 0's block at point `t`: rows `[2000 t, 2000 t + 2000)` of `x`. -/
theorem iblk0_eq (c : Dev nD) (t : Fin cfg0.N) :
    (iblk m c 0 t : S2000x128.Idx → F .f32) = Cert.Spec.xblk (V m c main_arg0) t.val := by
  funext y
  show V m c main_arg0 (((cfg0.win 0).blk t).view.emb y) = V m c main_arg0 _
  refine congrArg (V m c main_arg0) ?_
  obtain ⟨e0, e1, -, -⟩ := idx_facts_in t
  have ht : t.val < 500 := lt_of_lt_of_eq t.isLt N_0
  funext a; apply Fin.ext
  match a with
  | ⟨0, _⟩ =>
    show win0_0.index t (0 : Fin 2) * 2000 + 1 * (y 0).val = (2000 * t.val + (y 0).val) % 1000000
    have hy : (y 0).val < 2000 := (y 0).isLt
    omega
  | ⟨1, _⟩ =>
    show win0_0.index t (1 : Fin 2) * 128 + 1 * (y 1).val = (y 1).val
    omega

/-- Window 1's block at point `t`: rows `[2000 t, 2000 t + 2000)` of the segment-id column. -/
theorem iblk1_eq (c : Dev nD) (t : Fin cfg0.N) :
    (iblk m c 1 t : S2000x1.Idx → BitVec 32) = Cert.Spec.bblk (F := F) (V m c main_v0) t.val := by
  funext y
  show V m c main_v0 (((cfg0.win 1).blk t).view.emb y) = V m c main_v0 _
  refine congrArg (V m c main_v0) ?_
  obtain ⟨-, -, e0, e1⟩ := idx_facts_in t
  have ht : t.val < 500 := lt_of_lt_of_eq t.isLt N_0
  funext a; apply Fin.ext
  match a with
  | ⟨0, _⟩ =>
    show win0_1.index t (0 : Fin 2) * 2000 + 1 * (y 0).val = (2000 * t.val + (y 0).val) % 1000000
    have hy : (y 0).val < 2000 := (y 0).isLt
    omega
  | ⟨1, _⟩ =>
    show win0_1.index t (1 : Fin 2) * 1 + 1 * (y 1).val = (y 1).val
    omega

end Cert.KernelIdeal.Fr

end
-- ==== Proof.KIRegionValue.lean ====
/-
  What the kernel leaves in its result array: the accumulator recursion of `Cert.Spec.segOut`.

  The region's result array after the last point is, half by half, the accumulator after the half's last point; the
  accumulator after each point is the payload of the point's two input blocks over what the point before left (over the
  zero array at the first point of a half), and the input blocks are rows `[2000 t, 2000 t + 2000)` of the arrays the region
  finds.

  In order: what each of the three cases of the body leaves in the accumulator and in the result block, as payloads of the
  blocks it reads (the stores are of whole buffers, so the last store's payload is what is left); the accumulator after
  point `n` by induction on `n`; the result block's buffer at the last point of a half, the copy of the accumulator; the
  block of a [2, 1024, 128] array that point `t` writes back, half `t / 250`; the two written blocks cover the array.
-/
import proofs.«417752_j51754355917417_1_alg».proof.Proof.KIOuts
import proofs.«417752_j51754355917417_1_alg».proof.Proof.KIBlocks
import proofs.«417752_j51754355917417_1_alg».proof.Proof.SegSpec
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-! ## The arrays, and the spec's recursion one step at a time -/

/-- The x array the region finds. -/
abbrev xarr (c : Dev nD) : FVec F S1000000x128 .f32 := V m c main_arg0
/-- The segment-id column the region finds. -/
abbrev barr (c : Dev nD) : IVec S1000000x1 32 := V m c main_v0

theorem N500 : cfg0.N = 500 := N_0

theorem pay2_congr {x0 x0' : Vec F S2000x128 .f32} {x1 x1' : Vec F S2000x1 .i32} {a a' : Vec F S1024x128 .f32}
    (h0 : x0 = x0') (h1 : x1 = x1') (ha : a = a') : k0_pay2 x0 x1 a = k0_pay2 x0' x1' a' := by
  subst h0 h1 ha; rfl

/-- At the first point of a half the recursion restarts from the zero array. -/
theorem accAt_reset (x : FVec F S1000000x128 .f32) (b2 : IVec S1000000x1 32) (n : ℕ) (h : (n + 1) % 250 = 0) :
    Cert.Spec.accAt x b2 (n + 1) = k0_pay2 (Cert.Spec.xblk x (n + 1)) (Cert.Spec.bblk (F := F) b2 (n + 1)) (k0_pay1 (F := F)) := by
  rw [Cert.Spec.accAt, if_pos h]

/-- At any other point it updates what the point before left. -/
theorem accAt_step (x : FVec F S1000000x128 .f32) (b2 : IVec S1000000x1 32) (n : ℕ) (h : ¬(n + 1) % 250 = 0) :
    Cert.Spec.accAt x b2 (n + 1) = k0_pay2 (Cert.Spec.xblk x (n + 1)) (Cert.Spec.bblk (F := F) b2 (n + 1)) (Cert.Spec.accAt x b2 n) := by
  rw [Cert.Spec.accAt, if_neg h]

/-! ## What each case of the body leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves in the accumulator the update of what it held by the point's two blocks. -/
theorem soutB_eq (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : ¬cond0_1 i)
    (x0 : Vec F S2000x128 .f32) (x1 : Vec F S2000x1 .i32) (xs0 : Vec F S1024x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S2000x128) hz2, View.ld_unit_zero (S := S2000x1) hz2, View.ld_unit_zero (S := S1024x128) hz2]

/-- The last point of a half leaves in the accumulator the same update. -/
theorem soutC_eq (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S2000x128 .f32) (x1 : Vec F S2000x1 .i32) (xs0 : Vec F S1024x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S2000x128) hz2, View.ld_unit_zero (S := S2000x1) hz2, View.ld_unit_zero (S := S1024x128) hz2]

/-- The last point of a half leaves in the result block the copy of the updated accumulator. -/
theorem outC_eq (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : ¬cond0_0 i) (hc1 : cond0_1 i)
    (x0 : Vec F S2000x128 .f32) (x1 : Vec F S2000x1 .i32) (xs0 : Vec F S1024x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1024x128) hz3, View.readCov_unit_zero (S := S1024x128) _ hz2]
  simp only [View.readAt_eq_ld, harg2.read_unread, harg3.read_unread, harg5.read_unread, View.ld_unit_zero (S := S2000x128) hz2, View.ld_unit_zero (S := S2000x1) hz2, View.ld_unit_zero (S := S1024x128) hz2]

/-- The first point of a half leaves in the accumulator the update of the zero array by the point's two blocks. -/
theorem soutA_eq (c : Dev nD) (i : grid0.Coords) (arg2 : Memref sig .tc .vmem S2000x128 .f32) (harg2 : arg2.IsWhole) (arg3 : Memref sig .tc .vmem S2000x1 .i32) (harg3 : arg3.IsWhole) (arg4 : Memref sig .tc .vmem S1x1024x128 .f32) (harg4 : arg4.IsWhole) (arg5 : Memref sig .tc .vmem S1024x128 .f32) (harg5 : arg5.IsWhole) (hc0 : cond0_0 i) (hc1 : ¬cond0_1 i)
    (x0 : Vec F S2000x128 .f32) (x1 : Vec F S2000x1 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S2000x128) hz2, View.ld_unit_zero (S := S2000x1) hz2]

/-! ## The accumulator after each point -/

/-- The accumulator after point `n` is the recursion of `Cert.Spec.accAt` over the arrays the region finds. -/
theorem acc_eq (c : Dev nD) : ∀ (n : ℕ) (hn : n < cfg0.N),
    (outsAt0 m c n hn).2 = Cert.Spec.accAt (xarr m c) (barr m c) n := by
  intro n
  induction n with
  | zero =>
    intro hn
    have h0 : (⟨0, hn⟩ : Fin cfg0.N).val % 250 = 0 := rfl
    have h1 : ¬(⟨0, hn⟩ : Fin cfg0.N).val % 250 = 249 := by dsimp only; omega
    rw [outsAt0_A m c (⟨0, hn⟩ : Fin cfg0.N) h0 h1]
    dsimp only
    refine (soutA_eq (F := F) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) ((hcond0_0 (⟨0, hn⟩ : Fin cfg0.N)).mpr h0) (fun h => h1 ((hcond0_1 (⟨0, hn⟩ : Fin cfg0.N)).mp h)) (iblk m c 0 (⟨0, hn⟩ : Fin cfg0.N)) (iblk m c 1 (⟨0, hn⟩ : Fin cfg0.N))).trans ?_
    exact pay2_congr (iblk0_eq m c (⟨0, hn⟩ : Fin cfg0.N)) (iblk1_eq m c (⟨0, hn⟩ : Fin cfg0.N)) rfl
  | succ n ih =>
    intro hn
    by_cases h0 : (⟨n + 1, hn⟩ : Fin cfg0.N).val % 250 = 0
    · have h1 : ¬(⟨n + 1, hn⟩ : Fin cfg0.N).val % 250 = 249 := by dsimp only at h0 ⊢; omega
      rw [outsAt0_A m c (⟨n + 1, hn⟩ : Fin cfg0.N) h0 h1]
      dsimp only
      refine (soutA_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) ((hcond0_0 (⟨n + 1, hn⟩ : Fin cfg0.N)).mpr h0) (fun h => h1 ((hcond0_1 (⟨n + 1, hn⟩ : Fin cfg0.N)).mp h)) (iblk m c 0 (⟨n + 1, hn⟩ : Fin cfg0.N)) (iblk m c 1 (⟨n + 1, hn⟩ : Fin cfg0.N))).trans ?_
      rw [accAt_reset _ _ n h0]
      exact pay2_congr (iblk0_eq m c (⟨n + 1, hn⟩ : Fin cfg0.N)) (iblk1_eq m c (⟨n + 1, hn⟩ : Fin cfg0.N)) rfl
    · by_cases h1 : (⟨n + 1, hn⟩ : Fin cfg0.N).val % 250 = 249
      · rw [outsAt0_C m c (⟨n + 1, hn⟩ : Fin cfg0.N) h0 h1]
        dsimp only
        refine (soutC_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (outsAt0 m c n (Nat.lt_of_succ_lt hn)).2).trans ?_
        rw [accAt_step _ _ n h0]
        exact pay2_congr (iblk0_eq m c (⟨n + 1, hn⟩ : Fin cfg0.N)) (iblk1_eq m c (⟨n + 1, hn⟩ : Fin cfg0.N)) (ih (Nat.lt_of_succ_lt hn))
      · rw [outsAt0_B m c (⟨n + 1, hn⟩ : Fin cfg0.N) h0 h1]
        dsimp only
        refine (soutB_eq (F := F) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (outsAt0 m c n (Nat.lt_of_succ_lt hn)).2).trans ?_
        rw [accAt_step _ _ n h0]
        exact pay2_congr (iblk0_eq m c (⟨n + 1, hn⟩ : Fin cfg0.N)) (iblk1_eq m c (⟨n + 1, hn⟩ : Fin cfg0.N)) (ih (Nat.lt_of_succ_lt hn))

/-! ## The result window: its block index, the copy read at an index, the written blocks -/

theorem idx2 : ∀ t : Fin cfg0.N, win0_2.index t (0 : Fin 3) = t.val / 250 ∧ win0_2.index t (1 : Fin 3) = 0 ∧ win0_2.index t (2 : Fin 3) = 0 :=
  (by decide +kernel : ∀ t : Fin grid0.N, win0_2.index t (0 : Fin 3) = t.val / 250 ∧ win0_2.index t (1 : Fin 3) = 0 ∧ win0_2.index t (2 : Fin 3) = 0)

/-- The copy to the result block read at an index: entry (0, s, h) is the accumulator's entry (s, h). -/
theorem pay3_apply (v : Vec F S1024x128 .f32) (j : S1x1024x128.Idx) :
    k0_pay3 v j = v (ix2 (⟨(j 1).val, (j 1).isLt⟩ : Fin 1024) (⟨(j 2).val, (j 2).isLt⟩ : Fin 128)) := by
  unfold k0_pay3
  refine (shapeCast_addUnit_apply (![1024, 128]) v shapeCasts_S1024x128_S1x1024x128 j).trans ?_
  congr 1
  funext a
  match a with
  | ⟨0, _⟩ => rfl
  | ⟨1, _⟩ => rfl

/-- Block `t` of a [2, 1024, 128] array, read at an index: half `t / 250`. -/
theorem blk2_read (t : Fin cfg0.N) (G : FVec F S2x1024x128 .f32) (y : S1x1024x128.Idx) :
    (((cfg0.win 2).blk t).view.read (Elt F) G : Vec F S1x1024x128 .f32) y
      = G (ix3 (⟨t.val / 250, by have := lt_of_lt_of_eq t.isLt N500; omega⟩ : Fin 2) (⟨(y 1).val, (y 1).isLt⟩ : Fin 1024) (⟨(y 2).val, (y 2).isLt⟩ : Fin 128)) := by
  rw [View.read_apply]
  show G _ = G _
  congr 1
  funext a
  apply Fin.ext
  have hy : (y 0).val < 1 := (y 0).isLt
  match a with
  | ⟨0, _⟩ => show win0_2.index t 0 * 1 + 1 * (y 0).val = t.val / 250
              rw [(idx2 t).1]; omega
  | ⟨1, _⟩ => show win0_2.index t 1 * 1024 + 1 * (y 1).val = (y 1).val
              rw [(idx2 t).2.1]; omega
  | ⟨2, _⟩ => show win0_2.index t 2 * 128 + 1 * (y 2).val = (y 2).val
              rw [(idx2 t).2.2]; omega
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : Nat) < 2 := (i 0).isLt
  have hi1 : (i 1 : Nat) < 1024 := (i 1).isLt
  have hi2 : (i 2 : Nat) < 128 := (i 2).isLt
  have hN : 250 * (i 0 : Nat) + 249 < cfg0.N := by rw [N500]; omega
  refine ⟨⟨250 * (i 0 : Nat) + 249, hN⟩, (flush0_2 _).mpr (by dsimp only; omega), ?_⟩
  show i ∈ ((View.whole main_v1).slice (win0_2.rect ⟨250 * (i 0 : Nat) + 249, hN⟩)).set
  rw [View.set_slice_whole, Rect.mem_set_unit]
  intro a
  match a with
  | ⟨0, _⟩ => show win0_2.index ⟨250 * (i 0 : Nat) + 249, hN⟩ 0 * 1 ≤ (i 0 : Nat) ∧ (i 0 : Nat) < win0_2.index ⟨250 * (i 0 : Nat) + 249, hN⟩ 0 * 1 + 1
              rw [(idx2 ⟨250 * (i 0 : Nat) + 249, hN⟩).1]; dsimp only; omega
  | ⟨1, _⟩ => show win0_2.index ⟨250 * (i 0 : Nat) + 249, hN⟩ 1 * 1024 ≤ (i 1 : Nat) ∧ (i 1 : Nat) < win0_2.index ⟨250 * (i 0 : Nat) + 249, hN⟩ 1 * 1024 + 1024
              rw [(idx2 ⟨250 * (i 0 : Nat) + 249, hN⟩).2.1]; omega
  | ⟨2, _⟩ => show win0_2.index ⟨250 * (i 0 : Nat) + 249, hN⟩ 2 * 128 ≤ (i 2 : Nat) ∧ (i 2 : Nat) < win0_2.index ⟨250 * (i 0 : Nat) + 249, hN⟩ 2 * 128 + 128
              rw [(idx2 ⟨250 * (i 0 : Nat) + 249, hN⟩).2.2]; omega

/-! ## The result array -/

/-- At the last point of a half the result block's buffer holds the copy of the accumulator. -/
theorem out_last (c : Dev nD) (t : Fin cfg0.N) (h0 : ¬t.val % 250 = 0) (h1 : t.val % 250 = 249) :
    (outsAt0 m c t.val t.isLt).1 = k0_pay3 (outsAt0 m c t.val t.isLt).2 := by
  rw [outsAt0_C m c t h0 h1]
  dsimp only
  exact (outC_eq (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (congrArg k0_pay3 (soutC_eq (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm)

/-- What a write-back writes is its block of the accumulator recursion's result array. -/
theorem flushed_eq (c : Dev nD) (t : Fin cfg0.N) (hf : (cfg0.win 2).flush t = true) :
    (dats m 0 c).flushed 2 t = ((cfg0.win 2).blk t).view.read (Elt F) (Cert.Spec.segOut (xarr m c) (barr m c)) := by
  have h1 : t.val % 250 = 249 := (flush0_2 t).mp hf
  have h0 : ¬t.val % 250 = 0 := by omega
  have ht : 250 * (t.val / 250) + 249 = t.val := by omega
  show (cfg0.win 2).cut (grid0.coords t) ((dats m 0 c).after 2 t) = _
  rw [after0_2, out_last m c t h0 h1, acc_eq m c t.val t.isLt]
  funext y
  refine Eq.trans ?_ (blk2_read t (Cert.Spec.segOut (xarr m c) (barr m c)) y).symm
  refine (pay3_apply (Cert.Spec.accAt (xarr m c) (barr m c) t.val) y).trans ?_
  show Cert.Spec.accAt (xarr m c) (barr m c) t.val _ = Cert.Spec.accAt (xarr m c) (barr m c) (250 * (t.val / 250) + 249) _
  rw [ht]

/-- The region's result array after the run is the accumulator recursion over the arrays the region finds. -/
theorem arr2_eq (c : Dev nD) :
    (dats m 0 c).arrAt 2 cfg0.N = Cert.Spec.segOut (V m c main_arg0) (V m c main_v0) :=
  (dats m 0 c).arrAt_eq_of_cover 2 (Cert.Spec.segOut (xarr m c) (barr m c)) (flushed_eq m c) (cover2 c)

end Cert.KernelIdeal.Fr

end
-- ==== Proof.KITail.lean ====
/-
  The 163 host operations after the region, read back as one function of the buffers they start from.

  From any contents `W` of the device's buffers, the operations leave in the result buffer three steps of the LSTM cell
  over the kernel program's pooling (`Cert.Spec.resultOf` over `Cert.Spec.pooledK`) of the kernel's result array
  `W main_v1`, the segment ids `W main_arg1` and the four weight arguments.

  The operations are read in four stretches: the first eighteen (the segment sums of `x`, the counts column, three
  zero arrays), then the three steps of the cell, 48 operations each (the third with the final concatenate).  Each
  stretch is read from an arbitrary start: what it leaves in the buffers later stretches read, as the shared functions
  of `Spec` applied to what the start holds in the buffers the stretch reads.
-/
import proofs.«417752_j51754355917417_1_alg».proof.Proof.Spec
import proofs.«417752_j51754355917417_1_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- Two [1024, 128] arrays side by side, as a function of two plain arguments. -/
def catF : (⟨S1024x128, .f32⟩ : BufTy).Contents (Elt F) → (⟨S1024x128, .f32⟩ : BufTy).Contents (Elt F) → (⟨S1024x256, .f32⟩ : BufTy).Contents (Elt F) :=
  fun a b => concatenate S1024x256 1 [⟨S1024x128, a⟩, ⟨S1024x128, b⟩] concatenates_S1024x128_S1024x128_S1024x256_d1

/-- The first stretch: the segment sums of `x`, the counts as a column, and three zero arrays. -/
abbrev opsA : List (HloOp τ sig (Elt F)) :=
  ( StableHlo.unary main_v1 main_v2 ((extractStridedSlice S1x1024x128 ![0, 0, 0] · slices_S2x1024x128_S1x1024x128_0_0_0) : (⟨S2x1024x128, .f32⟩ : BufTy).Contents (Elt F) → (⟨S1x1024x128, .f32⟩ : BufTy).Contents (Elt F))
  :: StableHlo.reshape main_v2 main_v3 rfl shapeCasts_S1x1024x128_S1024x128
  :: StableHlo.unary main_v1 main_v4 ((extractStridedSlice S1x1024x128 ![1, 0, 0] · slices_S2x1024x128_S1x1024x128_1_0_0) : (⟨S2x1024x128, .f32⟩ : BufTy).Contents (Elt F) → (⟨S1x1024x128, .f32⟩ : BufTy).Contents (Elt F))
  :: StableHlo.reshape main_v4 main_v5 rfl shapeCasts_S1x1024x128_S1024x128
  :: StableHlo.binary main_v3 main_v5 main_v6 (addf : (⟨S1024x128, .f32⟩ : BufTy).Contents (Elt F) → (⟨S1024x128, .f32⟩ : BufTy).Contents (Elt F) → (⟨S1024x128, .f32⟩ : BufTy).Contents (Elt F))
  :: StableHlo.nullary main_cst (constant S_ .f32 0x3F800000#32)
  :: StableHlo.unary main_cst main_v7 (broadcastInDim S1000000 ![] bcast_S_S1000000 : (⟨S_, .f32⟩ : BufTy).Contents (Elt F) → (⟨S1000000, .f32⟩ : BufTy).Contents (Elt F))
  :: StableHlo.nullary main_cst_0 (constant S_ .f32 0x00000000#32)
  :: StableHlo.unary main_cst_0 main_v8 (broadcastInDim S1024 ![] bcast_S_S1024 : (⟨S_, .f32⟩ : BufTy).Contents (Elt F) → (⟨S1024, .f32⟩ : BufTy).Contents (Elt F))
  :: StableHlo.unary main_arg1 main_v9 (broadcastInDim S1000000x1 ![0] bcast_S1000000_S1000000x1_0 : (⟨S1000000, .i32⟩ : BufTy).Contents (Elt F) → (⟨S1000000x1, .i32⟩ : BufTy).Contents (Elt F))
  :: StableHlo.ternary main_v8 main_v9 main_v7 main_v10 ((fun x i u => Host.scatterAdd scatter_S1024_S1000000x1_S1000000_n_0_0_1 x i u) : (⟨S1024, .f32⟩ : BufTy).Contents (Elt F) → (⟨S1000000x1, .i32⟩ : BufTy).Contents (Elt F) → (⟨S1000000, .f32⟩ : BufTy).Contents (Elt F) → (⟨S1024, .f32⟩ : BufTy).Contents (Elt F))
  :: StableHlo.reshape main_v10 main_v11 rfl shapeCasts_S1024_S1024x1
  :: StableHlo.nullary main_cst_1 (constant S_ .f32 0x00000000#32)
  :: StableHlo.unary main_cst_1 main_v12 (broadcastInDim S1024x128 ![] bcast_S_S1024x128 : (⟨S_, .f32⟩ : BufTy).Contents (Elt F) → (⟨S1024x128, .f32⟩ : BufTy).Contents (Elt F))
  :: StableHlo.nullary main_cst_2 (constant S_ .f32 0x00000000#32)
  :: StableHlo.unary main_cst_2 main_v13 (broadcastInDim S1024x128 ![] bcast_S_S1024x128 : (⟨S_, .f32⟩ : BufTy).Contents (Elt F) → (⟨S1024x128, .f32⟩ : BufTy).Contents (Elt F))
  :: StableHlo.nullary main_cst_3 (constant S_ .f32 0x00000000#32)
  :: StableHlo.unary main_cst_3 main_v14 (broadcastInDim S1024x128 ![] bcast_S_S1024x128 : (⟨S_, .f32⟩ : BufTy).Contents (Elt F) → (⟨S1024x128, .f32⟩ : BufTy).Contents (Elt F))
  :: [] )

/-- The first step of the cell. -/
abbrev opsB1 : List (HloOp τ sig (Elt F)) :=
  ( StableHlo.unary main_v11 main_v15 (broadcastInDim S1024x128 ![0, 1] bcast_S1024x1_S1024x128_0_1 : (⟨S1024x1, .f32⟩ : BufTy).Contents (Elt F) → (⟨S1024x128, .f32⟩ : BufTy).Contents (Elt F))
  :: StableHlo.binary main_v15 main_v14 main_v16 (mulf : (⟨S1024x128, .f32⟩ : BufTy).Contents (Elt F) → (⟨S1024x128, .f32⟩ : BufTy).Contents (Elt F) → (⟨S1024x128, .f32⟩ : BufTy).Contents (Elt F))
  :: StableHlo.binary main_v6 main_v16 main_v17 (catF : (⟨S1024x128, .f32⟩ : BufTy).Contents (Elt F) → (⟨S1024x128, .f32⟩ : BufTy).Contents (Elt F) → (⟨S1024x256, .f32⟩ : BufTy).Contents (Elt F))
  :: StableHlo.unary main_arg2 main_v18 ((transpose S256x512 [1, 0] · transposes_S512x256_S256x512_1_0) : (⟨S512x256, .f32⟩ : BufTy).Contents (Elt F) → (⟨S256x512, .f32⟩ : BufTy).Contents (Elt F))
  :: StableHlo.binary main_v17 main_v18 main_v19 ((fun l r => Host.dotGeneral dot_S1024x256_S256x512_S1024x512_1_0_0_1_n_n none l r) : (⟨S1024x256, .f32⟩ : BufTy).Contents (Elt F) → (⟨S256x512, .f32⟩ : BufTy).Contents (Elt F) → (⟨S1024x512, .f32⟩ : BufTy).Contents (Elt F))
  :: StableHlo.unary main_arg3 main_v20 ((transpose S128x512 [1, 0] · transposes_S512x128_S128x512_1_0) : (⟨S512x128, .f32⟩ : BufTy).Contents (Elt F) → (⟨S128x512, .f32⟩ : BufTy).Contents (Elt F))
  :: StableHlo.binary main_v12 main_v20 main_v21 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F))
  :: StableHlo.binary main_v19 main_v21 main_v22 (addf : (⟨S1024x512, .f32⟩ : BufTy).Contents (Elt F) → (⟨S1024x512, .f32⟩ : BufTy).Contents (Elt F) → (⟨S1024x512, .f32⟩ : BufTy).Contents (Elt F))
  :: StableHlo.unary main_arg4 main_v23 (broadcastInDim S1x512 ![1] bcast_S512_S1x512_1 : (⟨S512, .f32⟩ : BufTy).Contents (Elt F) → (⟨S1x512, .f32⟩ : BufTy).Contents (Elt F))
  :: StableHlo.unary main_v23 main_v24 (broadcastInDim S1024x512 ![0, 1] bcast_S1x512_S1024x512_0_1 : (⟨S1x512, .f32⟩ : BufTy).Contents (Elt F) → (⟨S1024x512, .f32⟩ : BufTy).Contents (Elt F))
  :: StableHlo.binary main_v22 main_v24 main_v25 (addf : (⟨S1024x512, .f32⟩ : BufTy).Contents (Elt F) → (⟨S1024x512, .f32⟩ : BufTy).Contents (Elt F) → (⟨S1024x512, .f32⟩ : BufTy).Contents (Elt F))
  :: StableHlo.unary main_arg5 main_v26 (broadcastInDim S1x512 ![1] bcast_S512_S1x512_1 : (⟨S512, .f32⟩ : BufTy).Contents (Elt F) → (⟨S1x512, .f32⟩ : BufTy).Contents (Elt F))
  :: StableHlo.unary main_v26 main_v27 (broadcastInDim S1024x512 ![0, 1] bcast_S1x512_S1024x512_0_1 : (⟨S1x512, .f32⟩ : BufTy).Contents (Elt F) → (⟨S1024x512, .f32⟩ : BufTy).Contents (Elt F))
  :: StableHlo.binary main_v25 main_v27 main_v28 (addf : (⟨S1024x512, .f32⟩ : BufTy).Contents (Elt F) → (⟨S1024x512, .f32⟩ : BufTy).Contents (Elt F) → (⟨S1024x512, .f32⟩ : BufTy).Contents (Elt F))
  :: StableHlo.unary main_v28 main_v29 ((extractStridedSlice S1024x128 ![0, 0] · slices_S1024x512_S1024x128_0_0) : (⟨S1024x512, .f32⟩ : BufTy).Contents (Elt F) → (⟨S1024x128, .f32⟩ : BufTy).Contents (Elt F))
  :: StableHlo.unary main_v28 main_v30 ((extractStridedSlice S1024x128 ![0, 128] · slices_S1024x512_S1024x128_0_128) : (⟨S1024x512, .f32⟩ : BufTy).Contents (Elt F) → (⟨S1024x128, .f32⟩ : BufTy).Contents (Elt F))
  :: StableHlo.unary main_v28 main_v31 ((extractStridedSlice S1024x128 ![0, 256] · slices_S1024x512_S1024x128_0_256) : (⟨S1024x512, .f32⟩ : BufTy).Contents (Elt F) → (⟨S1024x128, .f32⟩ : BufTy).Contents (Elt F))
  :: StableHlo.unary main_v28 main_v32 ((extractStridedSlice S1024x128 ![0, 384] · slices_S1024x512_S1024x128_0_384) : (⟨S1024x512, .f32⟩ : BufTy).Contents (Elt F) → (⟨S1024x128, .f32⟩ : BufTy).Contents (Elt F))
  :: StableHlo.unary main_v30 main_v33 (Host.negf : (⟨S1024x128, .f32⟩ : BufTy).Contents (Elt F) → (⟨S1024x128, .f32⟩ : BufTy).Contents (Elt F))
  :: StableHlo.unary main_v33 main_v34 (Host.exp : (⟨S1024x128, .f32⟩ : BufTy).Contents (Elt F) → (⟨S1024x128, .f32⟩ : BufTy).Contents (Elt F))
  :: StableHlo.nullary main_cst_4 (constant S_ .f32 0x3F800000#32)
  :: StableHlo.unary main_cst_4 main_v35 (broadcastInDim S1024x128 ![] bcast_S_S1024x128 : (⟨S_, .f32⟩ : BufTy).Contents (Elt F) → (⟨S1024x128, .f32⟩ : BufTy).Contents (Elt F))
  :: StableHlo.binary main_v35 main_v34 main_v36 (addf : (⟨S1024x128, .f32⟩ : BufTy).Contents (Elt F) → (⟨S1024x128, .f32⟩ : BufTy).Contents (Elt F) → (⟨S1024x128, .f32⟩ : BufTy).Contents (Elt F))
  :: StableHlo.nullary main_cst_5 (constant S_ .f32 0x3F800000#32)
  :: StableHlo.unary main_cst_5 main_v37 (broadcastInDim S1024x128 ![] bcast_S_S1024x128 : (⟨S_, .f32⟩ : BufTy).Contents (Elt F) → (⟨S1024x128, .f32⟩ : BufTy).Contents (Elt F))
  :: StableHlo.binary main_v37 main_v36 main_v38 (Host.divf : (⟨S1024x128, .f32⟩ : BufTy).Contents (Elt F) → (⟨S1024x128, .f32⟩ : BufTy).Contents (Elt F) → (⟨S1024x128, .f32⟩ : BufTy).Contents (Elt F))
  :: StableHlo.binary main_v38 main_v13 main_v39 (mulf : (⟨S1024x128, .f32⟩ : BufTy).Contents (Elt F) → (⟨S1024x128, .f32⟩ : BufTy).Contents (Elt F) → (⟨S1024x128, .f32⟩ : BufTy).Contents (Elt F))
  :: StableHlo.unary main_v29 main_v40 (Host.negf : (⟨S1024x128, .f32⟩ : BufTy).Contents (Elt F) → (⟨S1024x128, .f32⟩ : BufTy).Contents (Elt F))
  :: StableHlo.unary main_v40 main_v41 (Host.exp : (⟨S1024x128, .f32⟩ : BufTy).Contents (Elt F) → (⟨S1024x128, .f32⟩ : BufTy).Contents (Elt F))
  :: StableHlo.nullary main_cst_6 (constant S_ .f32 0x3F800000#32)
  :: StableHlo.unary main_cst_6 main_v42 (broadcastInDim S1024x128 ![] bcast_S_S1024x128 : (⟨S_, .f32⟩ : BufTy).Contents (Elt F) → (⟨S1024x128, .f32⟩ : BufTy).Contents (Elt F))
  :: StableHlo.binary main_v42 main_v41 main_v43 (addf : (⟨S1024x128, .f32⟩ : BufTy).Contents (Elt F) → (⟨S1024x128, .f32⟩ : BufTy).Contents (Elt F) → (⟨S1024x128, .f32⟩ : BufTy).Contents (Elt F))
  :: StableHlo.nullary main_cst_7 (constant S_ .f32 0x3F800000#32)
  :: StableHlo.unary main_cst_7 main_v44 (broadcastInDim S1024x128 ![] bcast_S_S1024x128 : (⟨S_, .f32⟩ : BufTy).Contents (Elt F) → (⟨S1024x128, .f32⟩ : BufTy).Contents (Elt F))
  :: StableHlo.binary main_v44 main_v43 main_v45 (Host.divf : (⟨S1024x128, .f32⟩ : BufTy).Contents (Elt F) → (⟨S1024x128, .f32⟩ : BufTy).Contents (Elt F) → (⟨S1024x128, .f32⟩ : BufTy).Contents (Elt F))
  :: StableHlo.unary main_v31 main_v46 (Host.tanh : (⟨S1024x128, .f32⟩ : BufTy).Contents (Elt F) → (⟨S1024x128, .f32⟩ : BufTy).Contents (Elt F))
  :: StableHlo.binary main_v45 main_v46 main_v47 (mulf : (⟨S1024x128, .f32⟩ : BufTy).Contents (Elt F) → (⟨S1024x128, .f32⟩ : BufTy).Contents (Elt F) → (⟨S1024x128, .f32⟩ : BufTy).Contents (Elt F))
  :: StableHlo.binary main_v39 main_v47 main_v48 (addf : (⟨S1024x128, .f32⟩ : BufTy).Contents (Elt F) → (⟨S1024x128, .f32⟩ : BufTy).Contents (Elt F) → (⟨S1024x128, .f32⟩ : BufTy).Contents (Elt F))
  :: StableHlo.unary main_v32 main_v49 (Host.negf : (⟨S1024x128, .f32⟩ : BufTy).Contents (Elt F) → (⟨S1024x128, .f32⟩ : BufTy).Contents (Elt F))
  :: StableHlo.unary main_v49 main_v50 (Host.exp : (⟨S1024x128, .f32⟩ : BufTy).Contents (Elt F) → (⟨S1024x128, .f32⟩ : BufTy).Contents (Elt F))
  :: StableHlo.nullary main_cst_8 (constant S_ .f32 0x3F800000#32)
  :: StableHlo.unary main_cst_8 main_v51 (broadcastInDim S1024x128 ![] bcast_S_S1024x128 : (⟨S_, .f32⟩ : BufTy).Contents (Elt F) → (⟨S1024x128, .f32⟩ : BufTy).Contents (Elt F))
  :: StableHlo.binary main_v51 main_v50 main_v52 (addf : (⟨S1024x128, .f32⟩ : BufTy).Contents (Elt F) → (⟨S1024x128, .f32⟩ : BufTy).Contents (Elt F) → (⟨S1024x128, .f32⟩ : BufTy).Contents (Elt F))
  :: StableHlo.nullary main_cst_9 (constant S_ .f32 0x3F800000#32)
  :: StableHlo.unary main_cst_9 main_v53 (broadcastInDim S1024x128 ![] bcast_S_S1024x128 : (⟨S_, .f32⟩ : BufTy).Contents (Elt F) → (⟨S1024x128, .f32⟩ : BufTy).Contents (Elt F))
  :: StableHlo.binary main_v53 main_v52 main_v54 (Host.divf : (⟨S1024x128, .f32⟩ : BufTy).Contents (Elt F) → (⟨S1024x128, .f32⟩ : BufTy).Contents (Elt F) → (⟨S1024x128, .f32⟩ : BufTy).Contents (Elt F))
  :: StableHlo.unary main_v48 main_v55 (Host.tanh : (⟨S1024x128, .f32⟩ : BufTy).Contents (Elt F) → (⟨S1024x128, .f32⟩ : BufTy).Contents (Elt F))
  :: StableHlo.binary main_v54 main_v55 main_v56 (mulf : (⟨S1024x128, .f32⟩ : BufTy).Contents (Elt F) → (⟨S1024x128, .f32⟩ : BufTy).Contents (Elt F) → (⟨S1024x128, .f32⟩ : BufTy).Contents (Elt F))
  :: [] )

/-- The second step of the cell. -/
abbrev opsB2 : List (HloOp τ sig (Elt F)) :=
  ( StableHlo.unary main_v11 main_v57 (broadcastInDim S1024x128 ![0, 1] bcast_S1024x1_S1024x128_0_1 : (⟨S1024x1, .f32⟩ : BufTy).Contents (Elt F) → (⟨S1024x128, .f32⟩ : BufTy).Contents (Elt F))
  :: StableHlo.binary main_v57 main_v56 main_v58 (mulf : (⟨S1024x128, .f32⟩ : BufTy).Contents (Elt F) → (⟨S1024x128, .f32⟩ : BufTy).Contents (Elt F) → (⟨S1024x128, .f32⟩ : BufTy).Contents (Elt F))
  :: StableHlo.binary main_v6 main_v58 main_v59 (catF : (⟨S1024x128, .f32⟩ : BufTy).Contents (Elt F) → (⟨S1024x128, .f32⟩ : BufTy).Contents (Elt F) → (⟨S1024x256, .f32⟩ : BufTy).Contents (Elt F))
  :: StableHlo.unary main_arg2 main_v60 ((transpose S256x512 [1, 0] · transposes_S512x256_S256x512_1_0) : (⟨S512x256, .f32⟩ : BufTy).Contents (Elt F) → (⟨S256x512, .f32⟩ : BufTy).Contents (Elt F))
  :: StableHlo.binary main_v59 main_v60 main_v61 ((fun l r => Host.dotGeneral dot_S1024x256_S256x512_S1024x512_1_0_0_1_n_n none l r) : (⟨S1024x256, .f32⟩ : BufTy).Contents (Elt F) → (⟨S256x512, .f32⟩ : BufTy).Contents (Elt F) → (⟨S1024x512, .f32⟩ : BufTy).Contents (Elt F))
  :: StableHlo.unary main_arg3 main_v62 ((transpose S128x512 [1, 0] · transposes_S512x128_S128x512_1_0) : (⟨S512x128, .f32⟩ : BufTy).Contents (Elt F) → (⟨S128x512, .f32⟩ : BufTy).Contents (Elt F))
  :: StableHlo.binary main_v56 main_v62 main_v63 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F))
  :: StableHlo.binary main_v61 main_v63 main_v64 (addf : (⟨S1024x512, .f32⟩ : BufTy).Contents (Elt F) → (⟨S1024x512, .f32⟩ : BufTy).Contents (Elt F) → (⟨S1024x512, .f32⟩ : BufTy).Contents (Elt F))
  :: StableHlo.unary main_arg4 main_v65 (broadcastInDim S1x512 ![1] bcast_S512_S1x512_1 : (⟨S512, .f32⟩ : BufTy).Contents (Elt F) → (⟨S1x512, .f32⟩ : BufTy).Contents (Elt F))
  :: StableHlo.unary main_v65 main_v66 (broadcastInDim S1024x512 ![0, 1] bcast_S1x512_S1024x512_0_1 : (⟨S1x512, .f32⟩ : BufTy).Contents (Elt F) → (⟨S1024x512, .f32⟩ : BufTy).Contents (Elt F))
  :: StableHlo.binary main_v64 main_v66 main_v67 (addf : (⟨S1024x512, .f32⟩ : BufTy).Contents (Elt F) → (⟨S1024x512, .f32⟩ : BufTy).Contents (Elt F) → (⟨S1024x512, .f32⟩ : BufTy).Contents (Elt F))
  :: StableHlo.unary main_arg5 main_v68 (broadcastInDim S1x512 ![1] bcast_S512_S1x512_1 : (⟨S512, .f32⟩ : BufTy).Contents (Elt F) → (⟨S1x512, .f32⟩ : BufTy).Contents (Elt F))
  :: StableHlo.unary main_v68 main_v69 (broadcastInDim S1024x512 ![0, 1] bcast_S1x512_S1024x512_0_1 : (⟨S1x512, .f32⟩ : BufTy).Contents (Elt F) → (⟨S1024x512, .f32⟩ : BufTy).Contents (Elt F))
  :: StableHlo.binary main_v67 main_v69 main_v70 (addf : (⟨S1024x512, .f32⟩ : BufTy).Contents (Elt F) → (⟨S1024x512, .f32⟩ : BufTy).Contents (Elt F) → (⟨S1024x512, .f32⟩ : BufTy).Contents (Elt F))
  :: StableHlo.unary main_v70 main_v71 ((extractStridedSlice S1024x128 ![0, 0] · slices_S1024x512_S1024x128_0_0) : (⟨S1024x512, .f32⟩ : BufTy).Contents (Elt F) → (⟨S1024x128, .f32⟩ : BufTy).Contents (Elt F))
  :: StableHlo.unary main_v70 main_v72 ((extractStridedSlice S1024x128 ![0, 128] · slices_S1024x512_S1024x128_0_128) : (⟨S1024x512, .f32⟩ : BufTy).Contents (Elt F) → (⟨S1024x128, .f32⟩ : BufTy).Contents (Elt F))
  :: StableHlo.unary main_v70 main_v73 ((extractStridedSlice S1024x128 ![0, 256] · slices_S1024x512_S1024x128_0_256) : (⟨S1024x512, .f32⟩ : BufTy).Contents (Elt F) → (⟨S1024x128, .f32⟩ : BufTy).Contents (Elt F))
  :: StableHlo.unary main_v70 main_v74 ((extractStridedSlice S1024x128 ![0, 384] · slices_S1024x512_S1024x128_0_384) : (⟨S1024x512, .f32⟩ : BufTy).Contents (Elt F) → (⟨S1024x128, .f32⟩ : BufTy).Contents (Elt F))
  :: StableHlo.unary main_v72 main_v75 (Host.negf : (⟨S1024x128, .f32⟩ : BufTy).Contents (Elt F) → (⟨S1024x128, .f32⟩ : BufTy).Contents (Elt F))
  :: StableHlo.unary main_v75 main_v76 (Host.exp : (⟨S1024x128, .f32⟩ : BufTy).Contents (Elt F) → (⟨S1024x128, .f32⟩ : BufTy).Contents (Elt F))
  :: StableHlo.nullary main_cst_10 (constant S_ .f32 0x3F800000#32)
  :: StableHlo.unary main_cst_10 main_v77 (broadcastInDim S1024x128 ![] bcast_S_S1024x128 : (⟨S_, .f32⟩ : BufTy).Contents (Elt F) → (⟨S1024x128, .f32⟩ : BufTy).Contents (Elt F))
  :: StableHlo.binary main_v77 main_v76 main_v78 (addf : (⟨S1024x128, .f32⟩ : BufTy).Contents (Elt F) → (⟨S1024x128, .f32⟩ : BufTy).Contents (Elt F) → (⟨S1024x128, .f32⟩ : BufTy).Contents (Elt F))
  :: StableHlo.nullary main_cst_11 (constant S_ .f32 0x3F800000#32)
  :: StableHlo.unary main_cst_11 main_v79 (broadcastInDim S1024x128 ![] bcast_S_S1024x128 : (⟨S_, .f32⟩ : BufTy).Contents (Elt F) → (⟨S1024x128, .f32⟩ : BufTy).Contents (Elt F))
  :: StableHlo.binary main_v79 main_v78 main_v80 (Host.divf : (⟨S1024x128, .f32⟩ : BufTy).Contents (Elt F) → (⟨S1024x128, .f32⟩ : BufTy).Contents (Elt F) → (⟨S1024x128, .f32⟩ : BufTy).Contents (Elt F))
  :: StableHlo.binary main_v80 main_v48 main_v81 (mulf : (⟨S1024x128, .f32⟩ : BufTy).Contents (Elt F) → (⟨S1024x128, .f32⟩ : BufTy).Contents (Elt F) → (⟨S1024x128, .f32⟩ : BufTy).Contents (Elt F))
  :: StableHlo.unary main_v71 main_v82 (Host.negf : (⟨S1024x128, .f32⟩ : BufTy).Contents (Elt F) → (⟨S1024x128, .f32⟩ : BufTy).Contents (Elt F))
  :: StableHlo.unary main_v82 main_v83 (Host.exp : (⟨S1024x128, .f32⟩ : BufTy).Contents (Elt F) → (⟨S1024x128, .f32⟩ : BufTy).Contents (Elt F))
  :: StableHlo.nullary main_cst_12 (constant S_ .f32 0x3F800000#32)
  :: StableHlo.unary main_cst_12 main_v84 (broadcastInDim S1024x128 ![] bcast_S_S1024x128 : (⟨S_, .f32⟩ : BufTy).Contents (Elt F) → (⟨S1024x128, .f32⟩ : BufTy).Contents (Elt F))
  :: StableHlo.binary main_v84 main_v83 main_v85 (addf : (⟨S1024x128, .f32⟩ : BufTy).Contents (Elt F) → (⟨S1024x128, .f32⟩ : BufTy).Contents (Elt F) → (⟨S1024x128, .f32⟩ : BufTy).Contents (Elt F))
  :: StableHlo.nullary main_cst_13 (constant S_ .f32 0x3F800000#32)
  :: StableHlo.unary main_cst_13 main_v86 (broadcastInDim S1024x128 ![] bcast_S_S1024x128 : (⟨S_, .f32⟩ : BufTy).Contents (Elt F) → (⟨S1024x128, .f32⟩ : BufTy).Contents (Elt F))
  :: StableHlo.binary main_v86 main_v85 main_v87 (Host.divf : (⟨S1024x128, .f32⟩ : BufTy).Contents (Elt F) → (⟨S1024x128, .f32⟩ : BufTy).Contents (Elt F) → (⟨S1024x128, .f32⟩ : BufTy).Contents (Elt F))
  :: StableHlo.unary main_v73 main_v88 (Host.tanh : (⟨S1024x128, .f32⟩ : BufTy).Contents (Elt F) → (⟨S1024x128, .f32⟩ : BufTy).Contents (Elt F))
  :: StableHlo.binary main_v87 main_v88 main_v89 (mulf : (⟨S1024x128, .f32⟩ : BufTy).Contents (Elt F) → (⟨S1024x128, .f32⟩ : BufTy).Contents (Elt F) → (⟨S1024x128, .f32⟩ : BufTy).Contents (Elt F))
  :: StableHlo.binary main_v81 main_v89 main_v90 (addf : (⟨S1024x128, .f32⟩ : BufTy).Contents (Elt F) → (⟨S1024x128, .f32⟩ : BufTy).Contents (Elt F) → (⟨S1024x128, .f32⟩ : BufTy).Contents (Elt F))
  :: StableHlo.unary main_v74 main_v91 (Host.negf : (⟨S1024x128, .f32⟩ : BufTy).Contents (Elt F) → (⟨S1024x128, .f32⟩ : BufTy).Contents (Elt F))
  :: StableHlo.unary main_v91 main_v92 (Host.exp : (⟨S1024x128, .f32⟩ : BufTy).Contents (Elt F) → (⟨S1024x128, .f32⟩ : BufTy).Contents (Elt F))
  :: StableHlo.nullary main_cst_14 (constant S_ .f32 0x3F800000#32)
  :: StableHlo.unary main_cst_14 main_v93 (broadcastInDim S1024x128 ![] bcast_S_S1024x128 : (⟨S_, .f32⟩ : BufTy).Contents (Elt F) → (⟨S1024x128, .f32⟩ : BufTy).Contents (Elt F))
  :: StableHlo.binary main_v93 main_v92 main_v94 (addf : (⟨S1024x128, .f32⟩ : BufTy).Contents (Elt F) → (⟨S1024x128, .f32⟩ : BufTy).Contents (Elt F) → (⟨S1024x128, .f32⟩ : BufTy).Contents (Elt F))
  :: StableHlo.nullary main_cst_15 (constant S_ .f32 0x3F800000#32)
  :: StableHlo.unary main_cst_15 main_v95 (broadcastInDim S1024x128 ![] bcast_S_S1024x128 : (⟨S_, .f32⟩ : BufTy).Contents (Elt F) → (⟨S1024x128, .f32⟩ : BufTy).Contents (Elt F))
  :: StableHlo.binary main_v95 main_v94 main_v96 (Host.divf : (⟨S1024x128, .f32⟩ : BufTy).Contents (Elt F) → (⟨S1024x128, .f32⟩ : BufTy).Contents (Elt F) → (⟨S1024x128, .f32⟩ : BufTy).Contents (Elt F))
  :: StableHlo.unary main_v90 main_v97 (Host.tanh : (⟨S1024x128, .f32⟩ : BufTy).Contents (Elt F) → (⟨S1024x128, .f32⟩ : BufTy).Contents (Elt F))
  :: StableHlo.binary main_v96 main_v97 main_v98 (mulf : (⟨S1024x128, .f32⟩ : BufTy).Contents (Elt F) → (⟨S1024x128, .f32⟩ : BufTy).Contents (Elt F) → (⟨S1024x128, .f32⟩ : BufTy).Contents (Elt F))
  :: [] )

/-- The third step of the cell, and the last hidden state twice side by side. -/
abbrev opsB3 : List (HloOp τ sig (Elt F)) :=
  ( StableHlo.unary main_v11 main_v99 (broadcastInDim S1024x128 ![0, 1] bcast_S1024x1_S1024x128_0_1 : (⟨S1024x1, .f32⟩ : BufTy).Contents (Elt F) → (⟨S1024x128, .f32⟩ : BufTy).Contents (Elt F))
  :: StableHlo.binary main_v99 main_v98 main_v100 (mulf : (⟨S1024x128, .f32⟩ : BufTy).Contents (Elt F) → (⟨S1024x128, .f32⟩ : BufTy).Contents (Elt F) → (⟨S1024x128, .f32⟩ : BufTy).Contents (Elt F))
  :: StableHlo.binary main_v6 main_v100 main_v101 (catF : (⟨S1024x128, .f32⟩ : BufTy).Contents (Elt F) → (⟨S1024x128, .f32⟩ : BufTy).Contents (Elt F) → (⟨S1024x256, .f32⟩ : BufTy).Contents (Elt F))
  :: StableHlo.unary main_arg2 main_v102 ((transpose S256x512 [1, 0] · transposes_S512x256_S256x512_1_0) : (⟨S512x256, .f32⟩ : BufTy).Contents (Elt F) → (⟨S256x512, .f32⟩ : BufTy).Contents (Elt F))
  :: StableHlo.binary main_v101 main_v102 main_v103 ((fun l r => Host.dotGeneral dot_S1024x256_S256x512_S1024x512_1_0_0_1_n_n none l r) : (⟨S1024x256, .f32⟩ : BufTy).Contents (Elt F) → (⟨S256x512, .f32⟩ : BufTy).Contents (Elt F) → (⟨S1024x512, .f32⟩ : BufTy).Contents (Elt F))
  :: StableHlo.unary main_arg3 main_v104 ((transpose S128x512 [1, 0] · transposes_S512x128_S128x512_1_0) : (⟨S512x128, .f32⟩ : BufTy).Contents (Elt F) → (⟨S128x512, .f32⟩ : BufTy).Contents (Elt F))
  :: StableHlo.binary main_v98 main_v104 main_v105 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F))
  :: StableHlo.binary main_v103 main_v105 main_v106 (addf : (⟨S1024x512, .f32⟩ : BufTy).Contents (Elt F) → (⟨S1024x512, .f32⟩ : BufTy).Contents (Elt F) → (⟨S1024x512, .f32⟩ : BufTy).Contents (Elt F))
  :: StableHlo.unary main_arg4 main_v107 (broadcastInDim S1x512 ![1] bcast_S512_S1x512_1 : (⟨S512, .f32⟩ : BufTy).Contents (Elt F) → (⟨S1x512, .f32⟩ : BufTy).Contents (Elt F))
  :: StableHlo.unary main_v107 main_v108 (broadcastInDim S1024x512 ![0, 1] bcast_S1x512_S1024x512_0_1 : (⟨S1x512, .f32⟩ : BufTy).Contents (Elt F) → (⟨S1024x512, .f32⟩ : BufTy).Contents (Elt F))
  :: StableHlo.binary main_v106 main_v108 main_v109 (addf : (⟨S1024x512, .f32⟩ : BufTy).Contents (Elt F) → (⟨S1024x512, .f32⟩ : BufTy).Contents (Elt F) → (⟨S1024x512, .f32⟩ : BufTy).Contents (Elt F))
  :: StableHlo.unary main_arg5 main_v110 (broadcastInDim S1x512 ![1] bcast_S512_S1x512_1 : (⟨S512, .f32⟩ : BufTy).Contents (Elt F) → (⟨S1x512, .f32⟩ : BufTy).Contents (Elt F))
  :: StableHlo.unary main_v110 main_v111 (broadcastInDim S1024x512 ![0, 1] bcast_S1x512_S1024x512_0_1 : (⟨S1x512, .f32⟩ : BufTy).Contents (Elt F) → (⟨S1024x512, .f32⟩ : BufTy).Contents (Elt F))
  :: StableHlo.binary main_v109 main_v111 main_v112 (addf : (⟨S1024x512, .f32⟩ : BufTy).Contents (Elt F) → (⟨S1024x512, .f32⟩ : BufTy).Contents (Elt F) → (⟨S1024x512, .f32⟩ : BufTy).Contents (Elt F))
  :: StableHlo.unary main_v112 main_v113 ((extractStridedSlice S1024x128 ![0, 0] · slices_S1024x512_S1024x128_0_0) : (⟨S1024x512, .f32⟩ : BufTy).Contents (Elt F) → (⟨S1024x128, .f32⟩ : BufTy).Contents (Elt F))
  :: StableHlo.unary main_v112 main_v114 ((extractStridedSlice S1024x128 ![0, 128] · slices_S1024x512_S1024x128_0_128) : (⟨S1024x512, .f32⟩ : BufTy).Contents (Elt F) → (⟨S1024x128, .f32⟩ : BufTy).Contents (Elt F))
  :: StableHlo.unary main_v112 main_v115 ((extractStridedSlice S1024x128 ![0, 256] · slices_S1024x512_S1024x128_0_256) : (⟨S1024x512, .f32⟩ : BufTy).Contents (Elt F) → (⟨S1024x128, .f32⟩ : BufTy).Contents (Elt F))
  :: StableHlo.unary main_v112 main_v116 ((extractStridedSlice S1024x128 ![0, 384] · slices_S1024x512_S1024x128_0_384) : (⟨S1024x512, .f32⟩ : BufTy).Contents (Elt F) → (⟨S1024x128, .f32⟩ : BufTy).Contents (Elt F))
  :: StableHlo.unary main_v114 main_v117 (Host.negf : (⟨S1024x128, .f32⟩ : BufTy).Contents (Elt F) → (⟨S1024x128, .f32⟩ : BufTy).Contents (Elt F))
  :: StableHlo.unary main_v117 main_v118 (Host.exp : (⟨S1024x128, .f32⟩ : BufTy).Contents (Elt F) → (⟨S1024x128, .f32⟩ : BufTy).Contents (Elt F))
  :: StableHlo.nullary main_cst_16 (constant S_ .f32 0x3F800000#32)
  :: StableHlo.unary main_cst_16 main_v119 (broadcastInDim S1024x128 ![] bcast_S_S1024x128 : (⟨S_, .f32⟩ : BufTy).Contents (Elt F) → (⟨S1024x128, .f32⟩ : BufTy).Contents (Elt F))
  :: StableHlo.binary main_v119 main_v118 main_v120 (addf : (⟨S1024x128, .f32⟩ : BufTy).Contents (Elt F) → (⟨S1024x128, .f32⟩ : BufTy).Contents (Elt F) → (⟨S1024x128, .f32⟩ : BufTy).Contents (Elt F))
  :: StableHlo.nullary main_cst_17 (constant S_ .f32 0x3F800000#32)
  :: StableHlo.unary main_cst_17 main_v121 (broadcastInDim S1024x128 ![] bcast_S_S1024x128 : (⟨S_, .f32⟩ : BufTy).Contents (Elt F) → (⟨S1024x128, .f32⟩ : BufTy).Contents (Elt F))
  :: StableHlo.binary main_v121 main_v120 main_v122 (Host.divf : (⟨S1024x128, .f32⟩ : BufTy).Contents (Elt F) → (⟨S1024x128, .f32⟩ : BufTy).Contents (Elt F) → (⟨S1024x128, .f32⟩ : BufTy).Contents (Elt F))
  :: StableHlo.binary main_v122 main_v90 main_v123 (mulf : (⟨S1024x128, .f32⟩ : BufTy).Contents (Elt F) → (⟨S1024x128, .f32⟩ : BufTy).Contents (Elt F) → (⟨S1024x128, .f32⟩ : BufTy).Contents (Elt F))
  :: StableHlo.unary main_v113 main_v124 (Host.negf : (⟨S1024x128, .f32⟩ : BufTy).Contents (Elt F) → (⟨S1024x128, .f32⟩ : BufTy).Contents (Elt F))
  :: StableHlo.unary main_v124 main_v125 (Host.exp : (⟨S1024x128, .f32⟩ : BufTy).Contents (Elt F) → (⟨S1024x128, .f32⟩ : BufTy).Contents (Elt F))
  :: StableHlo.nullary main_cst_18 (constant S_ .f32 0x3F800000#32)
  :: StableHlo.unary main_cst_18 main_v126 (broadcastInDim S1024x128 ![] bcast_S_S1024x128 : (⟨S_, .f32⟩ : BufTy).Contents (Elt F) → (⟨S1024x128, .f32⟩ : BufTy).Contents (Elt F))
  :: StableHlo.binary main_v126 main_v125 main_v127 (addf : (⟨S1024x128, .f32⟩ : BufTy).Contents (Elt F) → (⟨S1024x128, .f32⟩ : BufTy).Contents (Elt F) → (⟨S1024x128, .f32⟩ : BufTy).Contents (Elt F))
  :: StableHlo.nullary main_cst_19 (constant S_ .f32 0x3F800000#32)
  :: StableHlo.unary main_cst_19 main_v128 (broadcastInDim S1024x128 ![] bcast_S_S1024x128 : (⟨S_, .f32⟩ : BufTy).Contents (Elt F) → (⟨S1024x128, .f32⟩ : BufTy).Contents (Elt F))
  :: StableHlo.binary main_v128 main_v127 main_v129 (Host.divf : (⟨S1024x128, .f32⟩ : BufTy).Contents (Elt F) → (⟨S1024x128, .f32⟩ : BufTy).Contents (Elt F) → (⟨S1024x128, .f32⟩ : BufTy).Contents (Elt F))
  :: StableHlo.unary main_v115 main_v130 (Host.tanh : (⟨S1024x128, .f32⟩ : BufTy).Contents (Elt F) → (⟨S1024x128, .f32⟩ : BufTy).Contents (Elt F))
  :: StableHlo.binary main_v129 main_v130 main_v131 (mulf : (⟨S1024x128, .f32⟩ : BufTy).Contents (Elt F) → (⟨S1024x128, .f32⟩ : BufTy).Contents (Elt F) → (⟨S1024x128, .f32⟩ : BufTy).Contents (Elt F))
  :: StableHlo.binary main_v123 main_v131 main_v132 (addf : (⟨S1024x128, .f32⟩ : BufTy).Contents (Elt F) → (⟨S1024x128, .f32⟩ : BufTy).Contents (Elt F) → (⟨S1024x128, .f32⟩ : BufTy).Contents (Elt F))
  :: StableHlo.unary main_v116 main_v133 (Host.negf : (⟨S1024x128, .f32⟩ : BufTy).Contents (Elt F) → (⟨S1024x128, .f32⟩ : BufTy).Contents (Elt F))
  :: StableHlo.unary main_v133 main_v134 (Host.exp : (⟨S1024x128, .f32⟩ : BufTy).Contents (Elt F) → (⟨S1024x128, .f32⟩ : BufTy).Contents (Elt F))
  :: StableHlo.nullary main_cst_20 (constant S_ .f32 0x3F800000#32)
  :: StableHlo.unary main_cst_20 main_v135 (broadcastInDim S1024x128 ![] bcast_S_S1024x128 : (⟨S_, .f32⟩ : BufTy).Contents (Elt F) → (⟨S1024x128, .f32⟩ : BufTy).Contents (Elt F))
  :: StableHlo.binary main_v135 main_v134 main_v136 (addf : (⟨S1024x128, .f32⟩ : BufTy).Contents (Elt F) → (⟨S1024x128, .f32⟩ : BufTy).Contents (Elt F) → (⟨S1024x128, .f32⟩ : BufTy).Contents (Elt F))
  :: StableHlo.nullary main_cst_21 (constant S_ .f32 0x3F800000#32)
  :: StableHlo.unary main_cst_21 main_v137 (broadcastInDim S1024x128 ![] bcast_S_S1024x128 : (⟨S_, .f32⟩ : BufTy).Contents (Elt F) → (⟨S1024x128, .f32⟩ : BufTy).Contents (Elt F))
  :: StableHlo.binary main_v137 main_v136 main_v138 (Host.divf : (⟨S1024x128, .f32⟩ : BufTy).Contents (Elt F) → (⟨S1024x128, .f32⟩ : BufTy).Contents (Elt F) → (⟨S1024x128, .f32⟩ : BufTy).Contents (Elt F))
  :: StableHlo.unary main_v132 main_v139 (Host.tanh : (⟨S1024x128, .f32⟩ : BufTy).Contents (Elt F) → (⟨S1024x128, .f32⟩ : BufTy).Contents (Elt F))
  :: StableHlo.binary main_v138 main_v139 main_v140 (mulf : (⟨S1024x128, .f32⟩ : BufTy).Contents (Elt F) → (⟨S1024x128, .f32⟩ : BufTy).Contents (Elt F) → (⟨S1024x128, .f32⟩ : BufTy).Contents (Elt F))
  :: StableHlo.binary main_v140 main_v140 main_v141 (catF : (⟨S1024x128, .f32⟩ : BufTy).Contents (Elt F) → (⟨S1024x128, .f32⟩ : BufTy).Contents (Elt F) → (⟨S1024x256, .f32⟩ : BufTy).Contents (Elt F))
  :: [] )

/-- Two stretches run one after the other are their concatenation run as one. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- The operation list is the four stretches in a row. -/
theorem hostOps1_split : (hostOps1 : List (HloOp τ sig (Elt F))) = opsA ++ (opsB1 ++ (opsB2 ++ opsB3)) := rfl

/-! ## The first stretch -/

/-- The buffers' contents after the first stretch, from contents `V`. -/
def runA (V : Valuation τ sig (Elt F)) : Valuation τ sig (Elt F) := after opsA V

set_option maxRecDepth 8192 in
set_option maxHeartbeats 2000000 in
/-- The segment sums of `x`. -/
theorem runA_v6 (V : Valuation τ sig (Elt F)) :
    runA V (no_index (Proc.devRef .tc main_v6)) = Cert.Spec.xsumK (V (Proc.devRef .tc main_v1)) := by
  unfold runA
  simp only [opsA]
  after_results_simp
  <;> rfl
set_option maxRecDepth 8192 in
set_option maxHeartbeats 2000000 in
/-- The counts, as a column. -/
theorem runA_v11 (V : Valuation τ sig (Elt F)) :
    runA V (no_index (Proc.devRef .tc main_v11)) = shapeCast S1024x1 (Cert.Spec.countsK (V (Proc.devRef .tc main_arg1))) shapeCasts_S1024_S1024x1 := by
  unfold runA
  simp only [opsA]
  after_results_simp
  <;> rfl
set_option maxRecDepth 8192 in
set_option maxHeartbeats 2000000 in
theorem runA_v12 (V : Valuation τ sig (Elt F)) :
    runA V (no_index (Proc.devRef .tc main_v12)) = Cert.Spec.zeros := by
  unfold runA
  simp only [opsA]
  after_results_simp
  <;> rfl
set_option maxRecDepth 8192 in
set_option maxHeartbeats 2000000 in
theorem runA_v13 (V : Valuation τ sig (Elt F)) :
    runA V (no_index (Proc.devRef .tc main_v13)) = Cert.Spec.zeros := by
  unfold runA
  simp only [opsA]
  after_results_simp
  <;> rfl
set_option maxRecDepth 8192 in
set_option maxHeartbeats 2000000 in
theorem runA_v14 (V : Valuation τ sig (Elt F)) :
    runA V (no_index (Proc.devRef .tc main_v14)) = Cert.Spec.zeros := by
  unfold runA
  simp only [opsA]
  after_results_simp
  <;> rfl
set_option maxRecDepth 8192 in
set_option maxHeartbeats 2000000 in
theorem runA_arg2 (V : Valuation τ sig (Elt F)) :
    runA V (no_index (Proc.devRef .tc main_arg2)) = V (Proc.devRef .tc main_arg2) := by
  unfold runA
  simp only [opsA]
  after_results_simp
  <;> rfl
set_option maxRecDepth 8192 in
set_option maxHeartbeats 2000000 in
theorem runA_arg3 (V : Valuation τ sig (Elt F)) :
    runA V (no_index (Proc.devRef .tc main_arg3)) = V (Proc.devRef .tc main_arg3) := by
  unfold runA
  simp only [opsA]
  after_results_simp
  <;> rfl
set_option maxRecDepth 8192 in
set_option maxHeartbeats 2000000 in
theorem runA_arg4 (V : Valuation τ sig (Elt F)) :
    runA V (no_index (Proc.devRef .tc main_arg4)) = V (Proc.devRef .tc main_arg4) := by
  unfold runA
  simp only [opsA]
  after_results_simp
  <;> rfl
set_option maxRecDepth 8192 in
set_option maxHeartbeats 2000000 in
theorem runA_arg5 (V : Valuation τ sig (Elt F)) :
    runA V (no_index (Proc.devRef .tc main_arg5)) = V (Proc.devRef .tc main_arg5) := by
  unfold runA
  simp only [opsA]
  after_results_simp
  <;> rfl

/-! ## One step of the cell -/

/-- The pooled input of a step: the segment sums `x` beside `counts · q`, the counts as a column `cnt`. -/
def poolOf (x : FVec F S1024x128 .f32) (cnt : FVec F S1024x1 .f32) (q : FVec F S1024x128 .f32) : FVec F S1024x256 .f32 :=
  catF x (mulf (broadcastInDim S1024x128 ![0, 1] bcast_S1024x1_S1024x128_0_1 cnt) q)

/-- The gates' pre-activations of a step over that pooled input, the hidden state `h`. -/
def gK (x : FVec F S1024x128 .f32) (cnt : FVec F S1024x1 .f32) (q h : FVec F S1024x128 .f32) (Wih : FVec F S512x256 .f32)
    (Whh : FVec F S512x128 .f32) (bih bhh : FVec F S512 .f32) : FVec F S1024x512 .f32 :=
  Cert.Spec.gates (poolOf x cnt q) h Wih Whh bih bhh

/-! ## Step 1 -/

/-- The buffers' contents after step 1's operations, from contents `V`. -/
def runB1 (V : Valuation τ sig (Elt F)) : Valuation τ sig (Elt F) := after opsB1 V

set_option maxRecDepth 8192 in
set_option maxHeartbeats 2000000 in
/-- The new cell state. -/
theorem runB1_v48 (V : Valuation τ sig (Elt F)) :
    runB1 V (no_index (Proc.devRef .tc main_v48)) = Cert.Spec.cnew (gK (V (Proc.devRef .tc main_v6)) (V (Proc.devRef .tc main_v11)) (V (Proc.devRef .tc main_v14)) (V (Proc.devRef .tc main_v12)) (V (Proc.devRef .tc main_arg2)) (V (Proc.devRef .tc main_arg3)) (V (Proc.devRef .tc main_arg4)) (V (Proc.devRef .tc main_arg5))) (V (Proc.devRef .tc main_v13)) := by
  unfold runB1
  simp only [opsB1]
  after_results_simp
  <;> rfl
set_option maxRecDepth 8192 in
set_option maxHeartbeats 2000000 in
/-- The new hidden state. -/
theorem runB1_v56 (V : Valuation τ sig (Elt F)) :
    runB1 V (no_index (Proc.devRef .tc main_v56)) = Cert.Spec.hnew (gK (V (Proc.devRef .tc main_v6)) (V (Proc.devRef .tc main_v11)) (V (Proc.devRef .tc main_v14)) (V (Proc.devRef .tc main_v12)) (V (Proc.devRef .tc main_arg2)) (V (Proc.devRef .tc main_arg3)) (V (Proc.devRef .tc main_arg4)) (V (Proc.devRef .tc main_arg5))) (Cert.Spec.cnew (gK (V (Proc.devRef .tc main_v6)) (V (Proc.devRef .tc main_v11)) (V (Proc.devRef .tc main_v14)) (V (Proc.devRef .tc main_v12)) (V (Proc.devRef .tc main_arg2)) (V (Proc.devRef .tc main_arg3)) (V (Proc.devRef .tc main_arg4)) (V (Proc.devRef .tc main_arg5))) (V (Proc.devRef .tc main_v13))) := by
  unfold runB1
  simp only [opsB1]
  after_results_simp
  <;> rfl
set_option maxRecDepth 8192 in
set_option maxHeartbeats 2000000 in
theorem runB1_v6 (V : Valuation τ sig (Elt F)) :
    runB1 V (no_index (Proc.devRef .tc main_v6)) = V (Proc.devRef .tc main_v6) := by
  unfold runB1
  simp only [opsB1]
  after_results_simp
  <;> rfl
set_option maxRecDepth 8192 in
set_option maxHeartbeats 2000000 in
theorem runB1_v11 (V : Valuation τ sig (Elt F)) :
    runB1 V (no_index (Proc.devRef .tc main_v11)) = V (Proc.devRef .tc main_v11) := by
  unfold runB1
  simp only [opsB1]
  after_results_simp
  <;> rfl
set_option maxRecDepth 8192 in
set_option maxHeartbeats 2000000 in
theorem runB1_arg2 (V : Valuation τ sig (Elt F)) :
    runB1 V (no_index (Proc.devRef .tc main_arg2)) = V (Proc.devRef .tc main_arg2) := by
  unfold runB1
  simp only [opsB1]
  after_results_simp
  <;> rfl
set_option maxRecDepth 8192 in
set_option maxHeartbeats 2000000 in
theorem runB1_arg3 (V : Valuation τ sig (Elt F)) :
    runB1 V (no_index (Proc.devRef .tc main_arg3)) = V (Proc.devRef .tc main_arg3) := by
  unfold runB1
  simp only [opsB1]
  after_results_simp
  <;> rfl
set_option maxRecDepth 8192 in
set_option maxHeartbeats 2000000 in
theorem runB1_arg4 (V : Valuation τ sig (Elt F)) :
    runB1 V (no_index (Proc.devRef .tc main_arg4)) = V (Proc.devRef .tc main_arg4) := by
  unfold runB1
  simp only [opsB1]
  after_results_simp
  <;> rfl
set_option maxRecDepth 8192 in
set_option maxHeartbeats 2000000 in
theorem runB1_arg5 (V : Valuation τ sig (Elt F)) :
    runB1 V (no_index (Proc.devRef .tc main_arg5)) = V (Proc.devRef .tc main_arg5) := by
  unfold runB1
  simp only [opsB1]
  after_results_simp
  <;> rfl

/-! ## Step 2 -/

/-- The buffers' contents after step 2's operations, from contents `V`. -/
def runB2 (V : Valuation τ sig (Elt F)) : Valuation τ sig (Elt F) := after opsB2 V

set_option maxRecDepth 8192 in
set_option maxHeartbeats 2000000 in
/-- The new cell state. -/
theorem runB2_v90 (V : Valuation τ sig (Elt F)) :
    runB2 V (no_index (Proc.devRef .tc main_v90)) = Cert.Spec.cnew (gK (V (Proc.devRef .tc main_v6)) (V (Proc.devRef .tc main_v11)) (V (Proc.devRef .tc main_v56)) (V (Proc.devRef .tc main_v56)) (V (Proc.devRef .tc main_arg2)) (V (Proc.devRef .tc main_arg3)) (V (Proc.devRef .tc main_arg4)) (V (Proc.devRef .tc main_arg5))) (V (Proc.devRef .tc main_v48)) := by
  unfold runB2
  simp only [opsB2]
  after_results_simp
  <;> rfl
set_option maxRecDepth 8192 in
set_option maxHeartbeats 2000000 in
/-- The new hidden state. -/
theorem runB2_v98 (V : Valuation τ sig (Elt F)) :
    runB2 V (no_index (Proc.devRef .tc main_v98)) = Cert.Spec.hnew (gK (V (Proc.devRef .tc main_v6)) (V (Proc.devRef .tc main_v11)) (V (Proc.devRef .tc main_v56)) (V (Proc.devRef .tc main_v56)) (V (Proc.devRef .tc main_arg2)) (V (Proc.devRef .tc main_arg3)) (V (Proc.devRef .tc main_arg4)) (V (Proc.devRef .tc main_arg5))) (Cert.Spec.cnew (gK (V (Proc.devRef .tc main_v6)) (V (Proc.devRef .tc main_v11)) (V (Proc.devRef .tc main_v56)) (V (Proc.devRef .tc main_v56)) (V (Proc.devRef .tc main_arg2)) (V (Proc.devRef .tc main_arg3)) (V (Proc.devRef .tc main_arg4)) (V (Proc.devRef .tc main_arg5))) (V (Proc.devRef .tc main_v48))) := by
  unfold runB2
  simp only [opsB2]
  after_results_simp
  <;> rfl
set_option maxRecDepth 8192 in
set_option maxHeartbeats 2000000 in
theorem runB2_v6 (V : Valuation τ sig (Elt F)) :
    runB2 V (no_index (Proc.devRef .tc main_v6)) = V (Proc.devRef .tc main_v6) := by
  unfold runB2
  simp only [opsB2]
  after_results_simp
  <;> rfl
set_option maxRecDepth 8192 in
set_option maxHeartbeats 2000000 in
theorem runB2_v11 (V : Valuation τ sig (Elt F)) :
    runB2 V (no_index (Proc.devRef .tc main_v11)) = V (Proc.devRef .tc main_v11) := by
  unfold runB2
  simp only [opsB2]
  after_results_simp
  <;> rfl
set_option maxRecDepth 8192 in
set_option maxHeartbeats 2000000 in
theorem runB2_arg2 (V : Valuation τ sig (Elt F)) :
    runB2 V (no_index (Proc.devRef .tc main_arg2)) = V (Proc.devRef .tc main_arg2) := by
  unfold runB2
  simp only [opsB2]
  after_results_simp
  <;> rfl
set_option maxRecDepth 8192 in
set_option maxHeartbeats 2000000 in
theorem runB2_arg3 (V : Valuation τ sig (Elt F)) :
    runB2 V (no_index (Proc.devRef .tc main_arg3)) = V (Proc.devRef .tc main_arg3) := by
  unfold runB2
  simp only [opsB2]
  after_results_simp
  <;> rfl
set_option maxRecDepth 8192 in
set_option maxHeartbeats 2000000 in
theorem runB2_arg4 (V : Valuation τ sig (Elt F)) :
    runB2 V (no_index (Proc.devRef .tc main_arg4)) = V (Proc.devRef .tc main_arg4) := by
  unfold runB2
  simp only [opsB2]
  after_results_simp
  <;> rfl
set_option maxRecDepth 8192 in
set_option maxHeartbeats 2000000 in
theorem runB2_arg5 (V : Valuation τ sig (Elt F)) :
    runB2 V (no_index (Proc.devRef .tc main_arg5)) = V (Proc.devRef .tc main_arg5) := by
  unfold runB2
  simp only [opsB2]
  after_results_simp
  <;> rfl

/-! ## Step 3 -/

/-- The buffers' contents after step 3's operations, from contents `V`. -/
def runB3 (V : Valuation τ sig (Elt F)) : Valuation τ sig (Elt F) := after opsB3 V

set_option maxRecDepth 8192 in
set_option maxHeartbeats 2000000 in
/-- The result: the last hidden state twice side by side. -/
theorem runB3_v141 (V : Valuation τ sig (Elt F)) :
    runB3 V (no_index (Proc.devRef .tc main_v141)) = catF (Cert.Spec.hnew (gK (V (Proc.devRef .tc main_v6)) (V (Proc.devRef .tc main_v11)) (V (Proc.devRef .tc main_v98)) (V (Proc.devRef .tc main_v98)) (V (Proc.devRef .tc main_arg2)) (V (Proc.devRef .tc main_arg3)) (V (Proc.devRef .tc main_arg4)) (V (Proc.devRef .tc main_arg5))) (Cert.Spec.cnew (gK (V (Proc.devRef .tc main_v6)) (V (Proc.devRef .tc main_v11)) (V (Proc.devRef .tc main_v98)) (V (Proc.devRef .tc main_v98)) (V (Proc.devRef .tc main_arg2)) (V (Proc.devRef .tc main_arg3)) (V (Proc.devRef .tc main_arg4)) (V (Proc.devRef .tc main_arg5))) (V (Proc.devRef .tc main_v90)))) (Cert.Spec.hnew (gK (V (Proc.devRef .tc main_v6)) (V (Proc.devRef .tc main_v11)) (V (Proc.devRef .tc main_v98)) (V (Proc.devRef .tc main_v98)) (V (Proc.devRef .tc main_arg2)) (V (Proc.devRef .tc main_arg3)) (V (Proc.devRef .tc main_arg4)) (V (Proc.devRef .tc main_arg5))) (Cert.Spec.cnew (gK (V (Proc.devRef .tc main_v6)) (V (Proc.devRef .tc main_v11)) (V (Proc.devRef .tc main_v98)) (V (Proc.devRef .tc main_v98)) (V (Proc.devRef .tc main_arg2)) (V (Proc.devRef .tc main_arg3)) (V (Proc.devRef .tc main_arg4)) (V (Proc.devRef .tc main_arg5))) (V (Proc.devRef .tc main_v90)))) := by
  unfold runB3
  simp only [opsB3]
  after_results_simp
  <;> rfl

/-! ## The four stretches in a row -/

/-- The operations' run is the four stretches' runs in a row. -/
theorem after_hostOps1 (W : Valuation τ sig (Elt F)) : after hostOps1 W = runB3 (runB2 (runB1 (runA W))) := by
  rw [hostOps1_split, after_app, after_app, after_app]
  rfl

set_option maxRecDepth 8192 in
set_option maxHeartbeats 2000000 in
/-- What the later operations leave in the result buffer `main_v141`. -/
theorem tail_v141 (W : Valuation τ sig (Elt F)) :
    StableHlo.after hostOps1 W (Proc.devRef .tc main_v141)
      = Cert.Spec.resultOf (Cert.Spec.pooledK (W (Proc.devRef .tc main_v1)) (W (Proc.devRef .tc main_arg1)))
          (W (Proc.devRef .tc main_arg2)) (W (Proc.devRef .tc main_arg3)) (W (Proc.devRef .tc main_arg4)) (W (Proc.devRef .tc main_arg5)) := by
  rw [after_hostOps1]
  refine (runB3_v141 _).trans ?_
  simp only [runB2_v90, runB2_v98, runB2_v6, runB2_v11, runB2_arg2, runB2_arg3, runB2_arg4, runB2_arg5, runB1_v48, runB1_v56, runB1_v6, runB1_v11, runB1_arg2, runB1_arg3, runB1_arg4, runB1_arg5, runA_v6, runA_v11, runA_v12, runA_v13, runA_v14, runA_arg2, runA_arg3, runA_arg4, runA_arg5]
  rfl

end Cert.KernelIdeal.Tail

end
-- ==== Proof.SegSum.lean ====
/-
  The accumulator recursion in closed form, over the extended reals.

  Half `p` of the kernel's result, at segment `s` and column `h`, is the sum of `x[j, h]` over the rows `j` of that half
  (rows `[500000 p, 500000 p + 500000)`) whose segment id is `s`: each point adds, for each of its 2000 rows, the product of
  the row's one-hot indicator (1 when the id is `s`, else 0) with `x[j, h]`, onto a zero start.
-/
import proofs.«417752_j51754355917417_1_alg».proof.Proof.SegSpec
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx Cert.KernelIdeal Cert.KernelIdeal.Gen

/-- The indicator word of "the id equals s", converted to a float, times y: y when the id is s, else 0. -/
theorem onehot_mul (a c : BitVec 32) (y : EReal) :
    (FloatOps.sitofp (F := Ideal) .f32 ((IntOp.cmpi .eq a c).setWidth 32) : EReal) * y = if a = c then y else 0 := by
  show (((((IntOp.cmpi .eq a c).setWidth 32).toInt : ℝ) : EReal)) * y = _
  by_cases hc : a = c
  · rw [if_pos hc]
    have e : IntOp.cmpi .eq a c = 1#1 := by simp [IntOp.cmpi, hc]
    rw [e]
    have e2 : ((1#1 : BitVec 1).setWidth 32).toInt = 1 := by decide
    rw [e2]
    simp
  · rw [if_neg hc]
    have e : IntOp.cmpi .eq a c = 0#1 := by
      show BitVec.ofBool (a == c) = 0#1
      rw [beq_eq_false_iff_ne.mpr hc]; rfl
    rw [e]
    have e2 : ((0#1 : BitVec 1).setWidth 32).toInt = 0 := by decide
    rw [e2]
    simp

/-- One point's payload read at (s, h): what the point before left, plus the block's rows whose id is s, at column h. -/
theorem pay2_apply (xb : Vec Ideal S2000x128 .f32) (bb : Vec Ideal S2000x1 .i32) (acc : Vec Ideal S1024x128 .f32)
    (s : Fin 1024) (h : Fin 128) :
    k0_pay2 (F := Ideal) xb bb acc (ix2 s h)
      = acc (ix2 s h) + ∑ r : Fin 2000, (if bb (ix2 r (0 : Fin 1)) = BitVec.ofNat 32 s.val then xb (ix2 r h) else 0) := by
  unfold k0_pay2
  simp only [shapeCast_self]
  rw [addf_apply]
  refine congrArg (acc (ix2 s h) + ·) ?_
  refine (Ideal.matmul_constant_zero_apply dot_S2000x1024_S2000x128_S1024x128_0_0_1_1_n_n none _ _ (ix2 s h)).trans ?_
  rw [← Equiv.sum_comp (contrEquiv1 dot_S2000x1024_S2000x128_S1024x128_0_0_1_1_n_n 2000 rfl rfl).symm]
  refine Finset.sum_congr rfl fun r _ => ?_
  have c2 := contrEquiv1_symm_val dot_S2000x1024_S2000x128_S1024x128_0_0_1_1_n_n 2000 rfl rfl r
  have l2 : dot_S2000x1024_S2000x128_S1024x128_0_0_1_1_n_n.lhsIdx (ix2 s h)
      ((contrEquiv1 dot_S2000x1024_S2000x128_S1024x128_0_0_1_1_n_n 2000 rfl rfl).symm r) = ix2 r s := by
    funext ax; apply Fin.ext
    match ax with
    | ⟨0, _⟩ => simp [DotDims.lhsIdx, dot_S2000x1024_S2000x128_S1024x128_0_0_1_1_n_n]; exact c2
    | ⟨1, _⟩ => simp [DotDims.lhsIdx, dot_S2000x1024_S2000x128_S1024x128_0_0_1_1_n_n]; rfl
  have r2 : dot_S2000x1024_S2000x128_S1024x128_0_0_1_1_n_n.rhsIdx (ix2 s h)
      ((contrEquiv1 dot_S2000x1024_S2000x128_S1024x128_0_0_1_1_n_n 2000 rfl rfl).symm r) = ix2 r h := by
    funext ax; apply Fin.ext
    match ax with
    | ⟨0, _⟩ => simp [DotDims.rhsIdx, dot_S2000x1024_S2000x128_S1024x128_0_0_1_1_n_n]; exact c2
    | ⟨1, _⟩ => simp [DotDims.rhsIdx, dot_S2000x1024_S2000x128_S1024x128_0_0_1_1_n_n]; rfl
  rw [l2, r2, truncf_apply, truncf_apply, sitofp_apply, extui_apply]
  have hb : broadcastTo S2000x1024 bb broadcasts_S2000x1_S2000x1024 (ix2 r s) = bb (ix2 r (0 : Fin 1)) :=
    broadcastTo_apply bb _ (ix2 r s) (ix2 r (0 : Fin 1)) (fun a => by
      match a with
      | ⟨0, _⟩ => rfl
      | ⟨1, _⟩ => rfl)
  have hi : iota Kind.tc S2000x1024 32 [1] iota_S2000x1024_d1_w32 (ix2 r s) = BitVec.ofNat 32 s.val :=
    iota_single_apply _ _ _ _ _ _
  show (FloatOps.sitofp (F := Ideal) .f32 ((IntOp.cmpi .eq (broadcastTo S2000x1024 bb broadcasts_S2000x1_S2000x1024 (ix2 r s))
    (iota Kind.tc S2000x1024 32 [1] iota_S2000x1024_d1_w32 (ix2 r s))).setWidth 32) : EReal) * xb (ix2 r h) = _
  rw [hb, hi]
  exact onehot_mul _ _ _

/-- The zero start read at (s, h). -/
theorem pay1_apply (s : Fin 1024) (h : Fin 128) : k0_pay1 (F := Ideal) (ix2 s h) = 0 := by
  unfold k0_pay1
  simp only [shapeCast_self]
  rw [broadcast_apply]
  exact Ideal.ofBits_zero_f32

/-- Row j's contribution to segment s at column h: x[j, h] when the row's id is s, else 0. -/
def hit (x : FVec Ideal S1000000x128 .f32) (b2 : IVec S1000000x1 32) (s : Fin 1024) (h : Fin 128) (j : Fin 1000000) : EReal :=
  if b2 (ix2 j (0 : Fin 1)) = BitVec.ofNat 32 s.val then x (ix2 j h) else 0

/-- Point g's contribution: the sum of its 2000 rows' contributions. -/
def contrib (x : FVec Ideal S1000000x128 .f32) (b2 : IVec S1000000x1 32) (s : Fin 1024) (h : Fin 128) (g : ℕ) : EReal :=
  ∑ r : Fin 2000, hit x b2 s h (⟨(2000 * g + r.val) % 1000000, Nat.mod_lt _ (by decide)⟩ : Fin 1000000)

/-- One point's payload on the point's blocks: what came before plus the point's contribution. -/
theorem pay2_blk (x : FVec Ideal S1000000x128 .f32) (b2 : IVec S1000000x1 32) (acc : FVec Ideal S1024x128 .f32)
    (s : Fin 1024) (h : Fin 128) (g : ℕ) :
    k0_pay2 (F := Ideal) (xblk x g) (bblk (F := Ideal) b2 g) acc (ix2 s h) = acc (ix2 s h) + contrib x b2 s h g := by
  rw [pay2_apply]
  rfl

theorem accAt_start (x : FVec Ideal S1000000x128 .f32) (b2 : IVec S1000000x1 32) (g : ℕ) (hg : g % 250 = 0) :
    accAt x b2 g = k0_pay2 (xblk x g) (bblk (F := Ideal) b2 g) (k0_pay1 (F := Ideal)) := by
  cases g with
  | zero => rfl
  | succ n => rw [accAt, if_pos hg]

theorem accAt_next (x : FVec Ideal S1000000x128 .f32) (b2 : IVec S1000000x1 32) (g : ℕ) (hg : (g + 1) % 250 ≠ 0) :
    accAt x b2 (g + 1) = k0_pay2 (xblk x (g + 1)) (bblk (F := Ideal) b2 (g + 1)) (accAt x b2 g) := by
  rw [accAt, if_neg hg]

/-- Within a half the accumulator is the sum of the contributions of the half's points so far. -/
theorem accAt_half (x : FVec Ideal S1000000x128 .f32) (b2 : IVec S1000000x1 32) (s : Fin 1024) (h : Fin 128) (p : ℕ) :
    ∀ n : ℕ, n < 250 → accAt x b2 (250 * p + n) (ix2 s h) = ∑ t ∈ Finset.range (n + 1), contrib x b2 s h (250 * p + t) := by
  intro n
  induction n with
  | zero =>
    intro _
    rw [accAt_start x b2 (250 * p + 0) (by omega), pay2_blk, pay1_apply, zero_add, Finset.sum_range_one]
  | succ n ih =>
    intro hn
    rw [show 250 * p + (n + 1) = (250 * p + n) + 1 from rfl, accAt_next x b2 (250 * p + n) (by omega), pay2_blk,
      ih (by omega), Finset.sum_range_succ (fun t => contrib x b2 s h (250 * p + t)) (n + 1)]
    rfl

/-- Regrouping: the rows of half p are the rows 2000 (250 p + t) + r of the half's 250 points t, r the row in the point's block. -/
theorem regroup (f : Fin 1000000 → EReal) (p : Fin 2) [DecidablePred (fun j : Fin 1000000 => j.val / 500000 = p.val)] :
    ∑ t ∈ Finset.range 250, ∑ r : Fin 2000,
        f (⟨(2000 * (250 * p.val + t) + r.val) % 1000000, Nat.mod_lt _ (by decide)⟩ : Fin 1000000)
      = ∑ j ∈ Finset.univ.filter (fun j : Fin 1000000 => j.val / 500000 = p.val), f j := by
  rw [Finset.sum_range (fun t => ∑ r : Fin 2000,
        f (⟨(2000 * (250 * p.val + t) + r.val) % 1000000, Nat.mod_lt _ (by decide)⟩ : Fin 1000000)),
    ← Finset.sum_product']
  have hp := p.isLt
  refine Finset.sum_bij'
    (fun (tr : Fin 250 × Fin 2000) _ => (⟨(2000 * (250 * p.val + tr.1.val) + tr.2.val) % 1000000, Nat.mod_lt _ (by decide)⟩ : Fin 1000000))
    (fun (j : Fin 1000000) _ => ((⟨(j.val % 500000) / 2000, by have := j.isLt; omega⟩ : Fin 250), (⟨j.val % 2000, Nat.mod_lt _ (by decide)⟩ : Fin 2000)))
    ?_ ?_ ?_ ?_ ?_
  · intro tr _
    have h1 := tr.1.isLt
    have h2 := tr.2.isLt
    rw [Finset.mem_filter]
    refine ⟨Finset.mem_univ _, ?_⟩
    show (2000 * (250 * p.val + tr.1.val) + tr.2.val) % 1000000 / 500000 = p.val
    omega
  · intro j _
    exact Finset.mem_product.mpr ⟨Finset.mem_univ _, Finset.mem_univ _⟩
  · intro tr _
    have h1 := tr.1.isLt
    have h2 := tr.2.isLt
    refine Prod.ext (Fin.ext ?_) (Fin.ext ?_)
    · show (2000 * (250 * p.val + tr.1.val) + tr.2.val) % 1000000 % 500000 / 2000 = tr.1.val
      omega
    · show (2000 * (250 * p.val + tr.1.val) + tr.2.val) % 1000000 % 2000 = tr.2.val
      omega
  · intro j hj
    have hj' := (Finset.mem_filter.mp hj).2
    have hlt := j.isLt
    refine Fin.ext ?_
    show (2000 * (250 * p.val + j.val % 500000 / 2000) + j.val % 2000) % 1000000 = j.val
    omega
  · intro tr _
    rfl

/-- The sum of `x[j, h]` over the rows `j` of half `p` whose segment id is `s`. -/
def segSum (x : FVec Ideal S1000000x128 .f32) (b2 : IVec S1000000x1 32) (p : Fin 2) (s : Fin 1024) (h : Fin 128) : EReal :=
  ∑ j ∈ Finset.univ.filter (fun j : Fin 1000000 => j.val / 500000 = p.val ∧ b2 (ix2 j (0 : Fin 1)) = BitVec.ofNat 32 s.val), x (ix2 j h)

/-- The kernel's result array in closed form. -/
theorem segOut_eq_segSum (x : FVec Ideal S1000000x128 .f32) (b2 : IVec S1000000x1 32) (p : Fin 2) (s : Fin 1024) (h : Fin 128) :
    segOut (F := Ideal) x b2 (ix3 p s h) = segSum x b2 p s h := by
  have e : segOut (F := Ideal) x b2 (ix3 p s h) = accAt x b2 (250 * p.val + 249) (ix2 s h) := rfl
  rw [e, accAt_half x b2 s h p.val 249 (by decide)]
  unfold segSum
  rw [← Finset.filter_filter, Finset.sum_filter]
  refine (regroup (hit x b2 s h) p).trans ?_
  refine Finset.sum_congr rfl fun j _ => ?_
  unfold hit
  exact if_congr Iff.rfl rfl rfl

end Cert.Spec

end
-- ==== Proof.LibGatherRows.lean ====
/-
  A gather of whole ROWS of a table, read at an index.

  `x[idx]` of a table `x : [N, C]` at a column of row numbers `idx : [P, 1]` — what jnp's `table[rows]` lowers to — is a
  `stablehlo.gather` with the operand's first axis collapsed and start-indexed, the second an offset axis reading the whole
  row (slice sizes `[1, C]`), the index vector along the start indices' last axis (of extent one) and no batching axes.
  Result element `(p, c)` is the table at row `idx[p, 0]`, read as a SIGNED integer and clamped into `[0, N − 1]`
  (StableHLO clamps every start index so that the slice fits), and at column `c`.
-/
import Idealize.ShloMosaic.PureOps
import Idealize.ShloMosaic.Lib.ValueIdx

namespace GatherRows

open Idealize.ShloMosaic Idealize.ShloMosaic.ValueIdx

variable {α : Type}

/-- Those dimension numbers for a table `[N, C]`, start indices `[P, 1]` and a result `[P, C]`; their conditions `wf` are
    decided on a program's literal shapes. -/
abbrev rowDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE GATHER READ AT `(p, c)`: the table at row `idx[p, 0]`, read signed and clamped into `[0, N − 1]`, and at
    column `c`. -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (y : (⟨2, ![P, C]⟩ : Shape).Idx) :
    Host.gather (rowDims N C P wf) x idx y
      = x (ix2 (⟨min (idx (ix2 (y 0) (0 : Fin 1))).toInt.toNat (N - 1), by omega⟩ : Fin N) (y 1)) := by
  unfold Host.gather
  congr 1
  funext a
  refine Fin.ext ?_
  match a with
  | ⟨0, _⟩ =>
    show (rowDims N C P wf).start y idx 0 + (rowDims N C P wf).batchCoord y 0 + (rowDims N C P wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C P wf).startIndexMap from List.mem_singleton.mpr rfl)]
    have hsi : (rowDims N C P wf).siIdx y ⟨List.idxOf (0 : Fin 2) (rowDims N C P wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowDims N C P wf).start y idx 1 + (rowDims N C P wf).batchCoord y 1 + (rowDims N C P wf).offCoord y 1 = (y 1).val
    rw [GatherDims.batchCoord_eq_zero _ _ _ List.not_mem_nil]
    unfold GatherDims.start
    rw [dif_neg (show ¬ (1 : Fin 2) ∈ (rowDims N C P wf).startIndexMap from
      (show ¬ (1 : Fin 2) ∈ ([0] : List (Fin 2)) by decide))]
    unfold GatherDims.offCoord
    rw [dif_pos (show (1 : Fin 2) ∈ (rowDims N C P wf).sKept from
      (GatherDims.mem_sKept _ _).mpr ⟨(show ¬ (1 : Fin 2) ∈ ([0] : List (Fin 2)) by decide), List.not_mem_nil⟩)]
    simp only [Nat.zero_add, Nat.add_zero]
    rfl

end GatherRows
-- ==== Proof.PoolEqA.lean ====
/-
  Scatters of whole rows, and of scalars, into segments: where an update lands.

  `stablehlo.scatter` of updates `[P, C]` into an operand `[N, C]` at a column of row numbers `idx : [P, 1]` (update
  window axis 1, inserted window axis 0, the index vector along the indices' last axis of extent one): update element
  `(j₀, j₁)` lands at `(idx[j₀, 0], j₁)`, the row number read as a SIGNED integer and NOT clamped; when that row is
  outside `[0, N)` the update is dropped.  Likewise for updates `[P]` into an operand `[N]` (no window axes).
-/
import Idealize.ShloMosaic.PureOps
import Idealize.ShloMosaic.PureOps.Ideal.Laws
import Idealize.ShloMosaic.Lib.ValueIdx

namespace ScatterRows

open Idealize.ShloMosaic Idealize.ShloMosaic.ValueIdx

/-- Those dimension numbers for an operand `[N, C]`, scatter indices `[P, 1]` and updates `[P, C]`. -/
abbrev rowDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section Rows
variable {N C P w : Nat} (wf : ScatterDims.WF ⟨2, ![N, C]⟩ ⟨2, ![P, 1]⟩ ⟨2, ![P, C]⟩ [1] [0] [0] 1)

theorem rows_start0 (j : (⟨2, ![P, C]⟩ : Shape).Idx) (idx : IVec ⟨2, ![P, 1]⟩ w) :
    (rowDims N C P wf).start j idx 0 = (idx (ix2 (j 0) (0 : Fin 1))).toInt := by
  unfold ScatterDims.start
  rw [dif_pos (show (0 : Fin 2) ∈ (rowDims N C P wf).scatterDimsToOperandDims from List.mem_singleton.mpr rfl)]
  have hsi : (rowDims N C P wf).siIdx j ⟨List.idxOf (0 : Fin 2) (rowDims N C P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rows_start1 (j : (⟨2, ![P, C]⟩ : Shape).Idx) (idx : IVec ⟨2, ![P, 1]⟩ w) :
    (rowDims N C P wf).start j idx 1 = 0 := by
  unfold ScatterDims.start
  rw [dif_neg (show ¬ (1 : Fin 2) ∈ (rowDims N C P wf).scatterDimsToOperandDims from
    (show ¬ (1 : Fin 2) ∈ ([0] : List (Fin 2)) by decide))]

theorem rows_window0 (j : (⟨2, ![P, C]⟩ : Shape).Idx) : (rowDims N C P wf).window j 0 = 0 := by
  unfold ScatterDims.window
  rw [dif_neg (show ¬ (0 : Fin 2) ∈ (rowDims N C P wf).sKept from
    (show ¬ (0 : Fin 2) ∈ ([1] : List (Fin 2)) by decide))]

theorem rows_window1 (j : (⟨2, ![P, C]⟩ : Shape).Idx) : (rowDims N C P wf).window j 1 = (j 1).val := by
  unfold ScatterDims.window
  rw [dif_pos (show (1 : Fin 2) ∈ (rowDims N C P wf).sKept from
    (show (1 : Fin 2) ∈ ([1] : List (Fin 2)) by decide))]
  rfl

/-- WHERE A ROW UPDATE LANDS: update element `(j₀, j₁)` lands at `i` exactly when the row number `idx[j₀, 0]`, read signed,
    is `i`'s row and `j₁` is `i`'s column. -/
theorem rows_resultIdx?_eq_some (j : (⟨2, ![P, C]⟩ : Shape).Idx) (idx : IVec ⟨2, ![P, 1]⟩ w)
    (i : (⟨2, ![N, C]⟩ : Shape).Idx) :
    (rowDims N C P wf).resultIdx? j idx = some i
      ↔ (idx (ix2 (j 0) (0 : Fin 1))).toInt = ((i 0).val : Int) ∧ (j 1).val = (i 1).val := by
  have hs0 := rows_start0 wf j idx
  have hs1 := rows_start1 wf j idx
  have hw0 := rows_window0 wf j
  have hw1 := rows_window1 wf j
  have hi0 : (i 0).val < N := (i 0).isLt
  have hi1 : (i 1).val < C := (i 1).isLt
  have hj1 : (j 1).val < C := (j 1).isLt
  unfold ScatterDims.resultIdx?
  split
  · rename_i h
    rw [Option.some.injEq]
    constructor
    · intro hi
      have h0 := congrArg Fin.val (congrFun hi 0)
      have h1 := congrArg Fin.val (congrFun hi 1)
      have g0 := (h 0).1
      simp only [hs0, hs1, hw0, hw1] at h0 h1 g0
      constructor <;> omega
    · rintro ⟨e0, e1⟩
      funext a
      refine Fin.ext ?_
      match a with
      | ⟨0, _⟩ =>
        show ((rowDims N C P wf).start j idx 0 + ((rowDims N C P wf).window j 0 : Int)).toNat = (i 0).val
        rw [hs0, hw0, e0]; omega
      | ⟨1, _⟩ =>
        show ((rowDims N C P wf).start j idx 1 + ((rowDims N C P wf).window j 1 : Int)).toNat = (i 1).val
        rw [hs1, hw1]; omega
  · rename_i h
    constructor
    · intro hn; cases hn
    · rintro ⟨e0, e1⟩
      exfalso
      apply h
      intro a
      match a with
      | ⟨0, _⟩ =>
        show 0 ≤ (rowDims N C P wf).start j idx 0 + ((rowDims N C P wf).window j 0 : Int)
          ∧ (rowDims N C P wf).start j idx 0 + ((rowDims N C P wf).window j 0 : Int) < (N : Int)
        rw [hs0, hw0, e0]; constructor <;> omega
      | ⟨1, _⟩ =>
        show 0 ≤ (rowDims N C P wf).start j idx 1 + ((rowDims N C P wf).window j 1 : Int)
          ∧ (rowDims N C P wf).start j idx 1 + ((rowDims N C P wf).window j 1 : Int) < (C : Int)
        rw [hs1, hw1]; constructor <;> omega

end Rows

/-- The dimension numbers for an operand `[N]`, scatter indices `[P, 1]` and updates `[P]` (no window axes). -/
abbrev vecDims (N P : Nat)
    (wf : ScatterDims.WF ⟨1, ![N]⟩ ⟨2, ![P, 1]⟩ ⟨1, ![P]⟩ [] [0] [0] 1) :
    ScatterDims ⟨1, ![N]⟩ ⟨2, ![P, 1]⟩ ⟨1, ![P]⟩ where
  updateWindowDims := []
  insertedWindowDims := [0]
  scatterDimsToOperandDims := [0]
  indexVectorDim := 1
  wf := wf

section Vec
variable {N P w : Nat} (wf : ScatterDims.WF ⟨1, ![N]⟩ ⟨2, ![P, 1]⟩ ⟨1, ![P]⟩ [] [0] [0] 1)

theorem vec_start0 (j : (⟨1, ![P]⟩ : Shape).Idx) (idx : IVec ⟨2, ![P, 1]⟩ w) :
    (vecDims N P wf).start j idx 0 = (idx (ix2 (j 0) (0 : Fin 1))).toInt := by
  unfold ScatterDims.start
  rw [dif_pos (show (0 : Fin 1) ∈ (vecDims N P wf).scatterDimsToOperandDims from List.mem_singleton.mpr rfl)]
  have hsi : (vecDims N P wf).siIdx j ⟨List.idxOf (0 : Fin 1) (vecDims N P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vec_window0 (j : (⟨1, ![P]⟩ : Shape).Idx) : (vecDims N P wf).window j 0 = 0 := by
  unfold ScatterDims.window
  rw [dif_neg (show ¬ (0 : Fin 1) ∈ (vecDims N P wf).sKept from
    (show ¬ (0 : Fin 1) ∈ ([] : List (Fin 1)) from List.not_mem_nil))]

/-- WHERE A SCALAR UPDATE LANDS: update element `j` lands at `i` exactly when `idx[j, 0]`, read signed, is `i`. -/
theorem vec_resultIdx?_eq_some (j : (⟨1, ![P]⟩ : Shape).Idx) (idx : IVec ⟨2, ![P, 1]⟩ w)
    (i : (⟨1, ![N]⟩ : Shape).Idx) :
    (vecDims N P wf).resultIdx? j idx = some i ↔ (idx (ix2 (j 0) (0 : Fin 1))).toInt = ((i 0).val : Int) := by
  have hs0 := vec_start0 wf j idx
  have hw0 := vec_window0 wf j
  have hi0 : (i 0).val < N := (i 0).isLt
  unfold ScatterDims.resultIdx?
  split
  · rename_i h
    rw [Option.some.injEq]
    constructor
    · intro hi
      have h0 := congrArg Fin.val (congrFun hi 0)
      have g0 := (h 0).1
      simp only [hs0, hw0] at h0 g0
      omega
    · intro e0
      funext a
      refine Fin.ext ?_
      match a with
      | ⟨0, _⟩ =>
        show ((vecDims N P wf).start j idx 0 + ((vecDims N P wf).window j 0 : Int)).toNat = (i 0).val
        rw [hs0, hw0, e0]; omega
  · rename_i h
    constructor
    · intro hn; cases hn
    · intro e0
      exfalso
      apply h
      intro a
      match a with
      | ⟨0, _⟩ =>
        show 0 ≤ (vecDims N P wf).start j idx 0 + ((vecDims N P wf).window j 0 : Int)
          ∧ (vecDims N P wf).start j idx 0 + ((vecDims N P wf).window j 0 : Int) < (N : Int)
        rw [hs0, hw0, e0]; constructor <;> omega

end Vec

/-! ## The scatter-adds over the extended reals, read at an index -/

section Sums
open scoped BigOperators

/-- THE ROW SCATTER-ADD READ AT `i`: the operand there plus the sum, over the update rows `j₀` whose row number is `i`'s
    row, of the update at `(j₀, i₁)`. -/
theorem scatterAdd_rows_apply {N C P w : Nat} {φ : FTy}
    (wf : ScatterDims.WF ⟨2, ![N, C]⟩ ⟨2, ![P, 1]⟩ ⟨2, ![P, C]⟩ [1] [0] [0] 1)
    (x : FVec Ideal ⟨2, ![N, C]⟩ φ) (idx : IVec ⟨2, ![P, 1]⟩ w) (upd : FVec Ideal ⟨2, ![P, C]⟩ φ)
    (i : (⟨2, ![N, C]⟩ : Shape).Idx) :
    Host.scatterAdd (F := Ideal) (rowDims N C P wf) x idx upd i
      = (x i + ∑ j₀ ∈ Finset.univ.filter (fun j₀ : Fin P => (idx (ix2 j₀ (0 : Fin 1))).toInt = ((i 0).val : Int)),
          upd (ix2 j₀ (⟨(i 1).val, (i 1).isLt⟩ : Fin C)) : EReal) := by
  unfold Host.scatterAdd
  rw [Ideal.hostScatterAdd_def]
  unfold Ideal.hostScatterAdd
  congr 1
  refine Finset.sum_nbij' (fun j => (⟨(j 0).val, (j 0).isLt⟩ : Fin P))
    (fun j₀ => ix2 j₀ (⟨(i 1).val, (i 1).isLt⟩ : Fin C)) ?_ ?_ ?_ ?_ ?_
  · intro j hj
    rw [Finset.mem_filter] at hj ⊢
    exact ⟨Finset.mem_univ _, ((rows_resultIdx?_eq_some wf j idx i).mp hj.2).1⟩
  · intro j₀ hj
    rw [Finset.mem_filter] at hj ⊢
    exact ⟨Finset.mem_univ _, (rows_resultIdx?_eq_some wf _ idx i).mpr ⟨hj.2, rfl⟩⟩
  · intro j hj
    rw [Finset.mem_filter] at hj
    have h1 := ((rows_resultIdx?_eq_some wf j idx i).mp hj.2).2
    funext b; refine Fin.ext ?_
    match b with
    | ⟨0, _⟩ => rfl
    | ⟨1, _⟩ => exact h1.symm
  · intro j₀ hj
    rfl
  · intro j hj
    rw [Finset.mem_filter] at hj
    have h1 := ((rows_resultIdx?_eq_some wf j idx i).mp hj.2).2
    congr 1
    funext b; refine Fin.ext ?_
    match b with
    | ⟨0, _⟩ => rfl
    | ⟨1, _⟩ => exact h1

/-- THE SCALAR SCATTER-ADD READ AT `i`: the operand there plus the sum, over the updates `j₀` whose number is `i`, of
    the update at `j₀`. -/
theorem scatterAdd_vec_apply {N P w : Nat} {φ : FTy}
    (wf : ScatterDims.WF ⟨1, ![N]⟩ ⟨2, ![P, 1]⟩ ⟨1, ![P]⟩ [] [0] [0] 1)
    (x : FVec Ideal ⟨1, ![N]⟩ φ) (idx : IVec ⟨2, ![P, 1]⟩ w) (upd : FVec Ideal ⟨1, ![P]⟩ φ)
    (i : (⟨1, ![N]⟩ : Shape).Idx) :
    Host.scatterAdd (F := Ideal) (vecDims N P wf) x idx upd i
      = (x i + ∑ j₀ ∈ Finset.univ.filter (fun j₀ : Fin P => (idx (ix2 j₀ (0 : Fin 1))).toInt = ((i 0).val : Int)),
          upd (ix1 j₀) : EReal) := by
  unfold Host.scatterAdd
  rw [Ideal.hostScatterAdd_def]
  unfold Ideal.hostScatterAdd
  congr 1
  refine Finset.sum_nbij' (fun j => (⟨(j 0).val, (j 0).isLt⟩ : Fin P)) (fun j₀ => ix1 j₀) ?_ ?_ ?_ ?_ ?_
  · intro j hj
    rw [Finset.mem_filter] at hj ⊢
    exact ⟨Finset.mem_univ _, (vec_resultIdx?_eq_some wf j idx i).mp hj.2⟩
  · intro j₀ hj
    rw [Finset.mem_filter] at hj ⊢
    exact ⟨Finset.mem_univ _, (vec_resultIdx?_eq_some wf _ idx i).mpr hj.2⟩
  · intro j hj
    funext b; refine Fin.ext ?_
    match b with
    | ⟨0, _⟩ => rfl
  · intro j₀ hj
    rfl
  · intro j hj
    congr 1
    funext b; refine Fin.ext ?_
    match b with
    | ⟨0, _⟩ => rfl

end Sums

end ScatterRows
-- ==== Proof.PoolEq.lean ====
/-
  The two poolings agree over the extended reals.

  At segment `s`: in the first 128 columns both are the sum of `x[j, ·]` over the rows `j` whose segment id is `s` (the
  kernel's two halves added; the reference's scatter of the rows); in the last 128 columns the reference adds `q[batch_j, ·]`
  over those rows, each of which is `q[s, ·]`, and the kernel multiplies `q[s, ·]` by their number.  Rows whose id is outside
  `[0, 1024)` contribute to neither.
-/
import proofs.«417752_j51754355917417_1_alg».proof.Proof.SegSum
import proofs.«417752_j51754355917417_1_alg».proof.Proof.LibGatherRows
import proofs.«417752_j51754355917417_1_alg».proof.Proof.PoolEqA
import Idealize.ShloMosaic.PureOps.Ideal.Laws
import Idealize.ShloMosaic.Lib.ValueIdx
import Idealize.ShloMosaic.Lib.Pipeline.Value
import Idealize.ShloMosaic.Lib.StableHlo.Predicate

noncomputable section

namespace Cert.Spec

open Idealize.ShloMosaic Idealize.ShloMosaic.ValueIdx
open scoped BigOperators
open Idealize.ShloMosaic.StableHlo.Predicate (toInt_ofNat_small)

/-! ## Arithmetic over the extended reals, and words -/

/-- A natural number times `y` is `y` added that many times (the coefficients are non-negative, so the product
    distributes). -/
theorem natCast_mul_eq_nsmul (n : ℕ) (y : EReal) : ((n : ℕ) : EReal) * y = n • y := by
  induction n with
  | zero => rw [Nat.cast_zero, zero_mul, zero_nsmul]
  | succ k ih =>
    rw [Nat.cast_succ, EReal.right_distrib_of_nonneg (Nat.cast_nonneg' k) zero_le_one, one_mul, succ_nsmul, ih]

/-- The number of elements of `S` (as a sum of ones onto zero) times `y` is the sum of `y` over `S` onto zero. -/
theorem count_mul {ι : Type} (S : Finset ι) (y : EReal) :
    (0 + ∑ _j ∈ S, (1 : EReal)) * y = 0 + ∑ _j ∈ S, y := by
  rw [zero_add, zero_add, Finset.sum_const, Finset.sum_const, nsmul_one, natCast_mul_eq_nsmul]

/-- A 32-bit word is the word of a small number `s` exactly when it reads `s` signed. -/
theorem word_eq_iff (a : BitVec 32) (s : ℕ) (hs : s < 1024) : a = BitVec.ofNat 32 s ↔ a.toInt = (s : Int) := by
  constructor
  · intro h; rw [h]; exact toInt_ofNat_small s (by omega)
  · intro h
    apply BitVec.eq_of_toInt_eq
    rw [h]; exact (toInt_ofNat_small s (by omega)).symm

/-- The gather's row number: a word that reads `s` signed, `0 ≤ s < 1024`, is not negative, so it is not wrapped, and
    clamping it into `[0, 1023]` leaves `s`. -/
theorem wrap_row (b : BitVec 32) (s : ℕ) (hs : s < 1024) (hb : b.toInt = (s : Int)) :
    min (Scalar.select (IntOp.cmpi .slt b 0#32) (IntOp.addi b 1024#32) b).toInt.toNat 1023 = s := by
  have hc : IntOp.cmpi .slt b 0#32 = 0#1 := by
    unfold IntOp.cmpi
    simp only [BitVec.slt, hb]
    have hn : ¬ ((s : Int) < 0) := by omega
    simp [hn]
  rw [hc, select_zero, hb]
  omega

/-! ## Layout operations read at an index -/

/-- A vector broadcast to a column, read at `(j, 0)`, is the vector at `j`. -/
theorem bcast_col_apply {α : Type} {n : ℕ} (h : (⟨1, ![n]⟩ : Shape).BroadcastsInDim ⟨2, ![n, 1]⟩ ![0])
    (v : (⟨1, ![n]⟩ : Shape).Idx → α) (j : Fin n) :
    broadcastInDim ⟨2, ![n, 1]⟩ ![0] h v (ix2 j (0 : Fin 1)) = v (ix1 j) := by
  refine broadcastInDim_apply _ h v _ (ix1 j) ?_
  intro a
  match a with
  | ⟨0, _⟩ =>
    split
    · next h1 => change n = 1 at h1; show j.val = 0; omega
    · rfl

/-- The rows whose segment id, read signed, is `s`. -/
def rowsOf (batch : IVec Cert.KernelIdeal.S1000000 32) (s : Fin 1024) : Finset (Fin 1000000) :=
  Finset.univ.filter (fun j : Fin 1000000 => (batch (ix1 j)).toInt = (s.val : Int))

/-- The zero start of a scatter: the zero constant broadcast to any shape is `0` everywhere. -/
theorem zero_bcast_apply {t : Shape} (h : (⟨0, ![]⟩ : Shape).BroadcastsInDim t ![]) (j : t.Idx) :
    broadcastInDim t ![] h (constant (F := Ideal) (⟨0, ![]⟩ : Shape) .f32 0x00000000#32) j = (0 : EReal) := by
  refine (broadcastInDim_apply _ h _ j ix0 (fun a => a.elim0)).trans ?_
  rw [constant_apply, Ideal.ofBits_zero_f32]

/-- The bits `0x3F800000` are the number one. -/
theorem ofBits_one_f32 : Ideal.ofBits .f32 0x3F800000#32 = (1 : EReal) := by
  simp [Ideal.ofBits, Ideal.ieee, -EReal.coe_mul]; norm_num

/-- The constant one broadcast to any shape is `1` everywhere. -/
theorem one_bcast_apply {t : Shape} (h : (⟨0, ![]⟩ : Shape).BroadcastsInDim t ![]) (j : t.Idx) :
    broadcastInDim t ![] h (constant (F := Ideal) (⟨0, ![]⟩ : Shape) .f32 0x3F800000#32) j = (1 : EReal) := by
  refine (broadcastInDim_apply _ h _ j ix0 (fun a => a.elim0)).trans ?_
  rw [constant_apply, ofBits_one_f32]

/-! ## The reference's pooling read at an index -/

section Reference
open Cert.ReferenceIdeal Cert.ReferenceIdeal.Facts₀

/-- THE REFERENCE'S POOLING, first half: at `(s, c)`, `c < 128`, the sum of `x[j, c]` over the rows of segment `s`. -/
theorem pooledR_left (x : FVec Ideal S1000000x128 .f32) (batch : IVec S1000000 32) (q : FVec Ideal S1024x128 .f32)
    (s : Fin 1024) (c : Fin 128) :
    pooledR (F := Ideal) x batch q (ix2 s (⟨c.val, by omega⟩ : Fin 256))
      = (0 + ∑ j ∈ rowsOf batch s, x (ix2 j c) : EReal) := by
  unfold pooledR
  refine (ScatterRows.scatterAdd_rows_apply (N := 1024) (C := 256) (P := 1000000)
    scatter_S1024x256_S1000000x1_S1000000x256_1_0_0_1_wf _ _ _ _).trans ?_
  rw [zero_bcast_apply]
  refine congrArg (HAdd.hAdd (0 : EReal)) ?_
  unfold rowsOf
  refine Finset.sum_congr (Finset.filter_congr fun j _ => ?_) (fun j _ => ?_)
  · rw [bcast_col_apply]
  · refine concatenate_pair_apply_left (t := S1000000x256) (s₁ := S1000000x128) (s₂ := S1000000x128) 1 x _
      concatenates_S1000000x128_S1000000x128_S1000000x256_d1 _ rfl (ix2 j c) ?_
    intro b
    match b with
    | ⟨0, _⟩ => rfl
    | ⟨1, _⟩ => rfl

/-- THE REFERENCE'S POOLING, second half: at `(s, 128 + c)` the sum of `q[s, c]` over the rows of segment `s` (each such
    row gathers row `s` of `q`: its id `s` is not negative, so it is not wrapped, and `s ≤ 1023` is not clamped). -/
theorem pooledR_right (x : FVec Ideal S1000000x128 .f32) (batch : IVec S1000000 32) (q : FVec Ideal S1024x128 .f32)
    (s : Fin 1024) (c : Fin 128) :
    pooledR (F := Ideal) x batch q (ix2 s (⟨128 + c.val, by omega⟩ : Fin 256))
      = (0 + ∑ j ∈ rowsOf batch s, q (ix2 s c) : EReal) := by
  unfold pooledR
  refine (ScatterRows.scatterAdd_rows_apply (N := 1024) (C := 256) (P := 1000000)
    scatter_S1024x256_S1000000x1_S1000000x256_1_0_0_1_wf _ _ _ _).trans ?_
  rw [zero_bcast_apply]
  refine congrArg (HAdd.hAdd (0 : EReal)) ?_
  unfold rowsOf
  refine Finset.sum_congr (Finset.filter_congr fun j _ => ?_) (fun j hj => ?_)
  · rw [bcast_col_apply]
  · have hb : (batch (ix1 j)).toInt = (s.val : Int) := (Finset.mem_filter.mp hj).2
    refine (concatenate_pair_apply_right (t := S1000000x256) (s₁ := S1000000x128) (s₂ := S1000000x128) 1 x _
      concatenates_S1000000x128_S1000000x128_S1000000x256_d1 _ rfl rfl (ix2 j c) ?_ ?_).trans ?_
    · intro b hb'
      match b with
      | ⟨0, _⟩ => rfl
      | ⟨1, _⟩ => exact absurd rfl hb'
    · show c.val + 128 = 128 + c.val
      omega
    · refine (GatherRows.gather_rows_apply (N := 1024) (C := 128) (P := 1000000) (by decide)
        gather_S1024x128_S1000000x1_S1000000x128_1_0_n_n_0_1_1128_wf q _ (ix2 j c)).trans ?_
      refine congrArg q ?_
      refine congrArg (fun r : Fin 1024 => ix2 r c) (Fin.ext ?_)
      show min (_ : BitVec 32).toInt.toNat (1024 - 1) = s.val
      rw [bcast_col_apply]
      exact wrap_row (batch (ix1 j)) s.val s.isLt hb

end Reference

/-! ## The kernel program's pooling read at an index -/

section Kernel
open Cert.KernelIdeal Cert.KernelIdeal.Facts₀

/-- The two halves of the kernel's result added, read at `(s, c)`. -/
theorem xsumK_apply (out : FVec Ideal S2x1024x128 .f32) (s : Fin 1024) (c : Fin 128) :
    xsumK (F := Ideal) out (ix2 s c) = (out (ix3 (0 : Fin 2) s c) + out (ix3 (1 : Fin 2) s c) : EReal) := by
  unfold xsumK
  rw [addf_apply]
  have e0 : shapeCast S1024x128 (extractStridedSlice S1x1024x128 ![0, 0, 0] out slices_S2x1024x128_S1x1024x128_0_0_0)
      shapeCasts_S1x1024x128_S1024x128 (ix2 s c) = out (ix3 (0 : Fin 2) s c) := by
    refine (shapeCast_apply _ shapeCasts_S1x1024x128_S1024x128 (ix2 s c) (ix3 (0 : Fin 1) s c) ?_).trans ?_
    · rw [Shape.rowMajor_val_three, Shape.rowMajor_val_two]
      show (0 * 1024 + s.val) * 128 + c.val = s.val * 128 + c.val
      omega
    · refine extractStridedSlice_apply _ out slices_S2x1024x128_S1x1024x128_0_0_0 (ix3 (0 : Fin 1) s c) (ix3 (0 : Fin 2) s c) ?_
      intro a
      match a with
      | ⟨0, _⟩ => rfl
      | ⟨1, _⟩ => show s.val = 0 + s.val; omega
      | ⟨2, _⟩ => show c.val = 0 + c.val; omega
  have e1 : shapeCast S1024x128 (extractStridedSlice S1x1024x128 ![1, 0, 0] out slices_S2x1024x128_S1x1024x128_1_0_0)
      shapeCasts_S1x1024x128_S1024x128 (ix2 s c) = out (ix3 (1 : Fin 2) s c) := by
    refine (shapeCast_apply _ shapeCasts_S1x1024x128_S1024x128 (ix2 s c) (ix3 (0 : Fin 1) s c) ?_).trans ?_
    · rw [Shape.rowMajor_val_three, Shape.rowMajor_val_two]
      show (0 * 1024 + s.val) * 128 + c.val = s.val * 128 + c.val
      omega
    · refine extractStridedSlice_apply _ out slices_S2x1024x128_S1x1024x128_1_0_0 (ix3 (0 : Fin 1) s c) (ix3 (1 : Fin 2) s c) ?_
      intro a
      match a with
      | ⟨0, _⟩ => rfl
      | ⟨1, _⟩ => show s.val = 0 + s.val; omega
      | ⟨2, _⟩ => show c.val = 0 + c.val; omega
  rw [e0, e1]

/-- THE KERNEL PROGRAM'S POOLING, first half: at `(s, c)`, `c < 128`, the two halves of the kernel's result added. -/
theorem pooledK_left (out : FVec Ideal S2x1024x128 .f32) (batch : IVec S1000000 32) (q : FVec Ideal S1024x128 .f32)
    (s : Fin 1024) (c : Fin 128) :
    pooledK (F := Ideal) out batch q (ix2 s (⟨c.val, by omega⟩ : Fin 256))
      = (out (ix3 (0 : Fin 2) s c) + out (ix3 (1 : Fin 2) s c) : EReal) := by
  unfold pooledK
  refine (concatenate_pair_apply_left (t := S1024x256) (s₁ := S1024x128) (s₂ := S1024x128) 1 _ _
    concatenates_S1024x128_S1024x128_S1024x256_d1 _ rfl (ix2 s c) ?_).trans (xsumK_apply out s c)
  intro b
  match b with
  | ⟨0, _⟩ => rfl
  | ⟨1, _⟩ => rfl

/-- The number of rows of segment `s`, as the kernel program counts it: ones added onto zero. -/
theorem countsK_apply (batch : IVec S1000000 32) (s : Fin 1024) :
    countsK (F := Ideal) batch (ix1 s) = (0 + ∑ _j ∈ rowsOf batch s, (1 : EReal) : EReal) := by
  unfold countsK
  refine (ScatterRows.scatterAdd_vec_apply (N := 1024) (P := 1000000)
    scatter_S1024_S1000000x1_S1000000_n_0_0_1_wf _ _ _ _).trans ?_
  rw [zero_bcast_apply]
  refine congrArg (HAdd.hAdd (0 : EReal)) ?_
  unfold rowsOf
  refine Finset.sum_congr (Finset.filter_congr fun j _ => ?_) (fun j _ => ?_)
  · rw [bcast_col_apply]
  · exact one_bcast_apply _ _

/-- THE KERNEL PROGRAM'S POOLING, second half: at `(s, 128 + c)` the number of rows of segment `s` times `q[s, c]`. -/
theorem pooledK_right (out : FVec Ideal S2x1024x128 .f32) (batch : IVec S1000000 32) (q : FVec Ideal S1024x128 .f32)
    (s : Fin 1024) (c : Fin 128) :
    pooledK (F := Ideal) out batch q (ix2 s (⟨128 + c.val, by omega⟩ : Fin 256))
      = ((0 + ∑ _j ∈ rowsOf batch s, (1 : EReal)) * q (ix2 s c) : EReal) := by
  unfold pooledK
  refine (concatenate_pair_apply_right (t := S1024x256) (s₁ := S1024x128) (s₂ := S1024x128) 1 _ _
    concatenates_S1024x128_S1024x128_S1024x256_d1 _ rfl rfl (ix2 s c) ?_ ?_).trans ?_
  · intro b hb'
    match b with
    | ⟨0, _⟩ => rfl
    | ⟨1, _⟩ => exact absurd rfl hb'
  · show c.val + 128 = 128 + c.val
    omega
  · rw [mulf_apply]
    refine congrArg (fun t : EReal => t * q (ix2 s c)) ?_
    refine (broadcastInDim_apply _ bcast_S1024x1_S1024x128_0_1 _ (ix2 s c) (ix2 s (0 : Fin 1)) ?_).trans ?_
    · intro a
      match a with
      | ⟨0, _⟩ =>
        show s.val = if (1024 : ℕ) = 1 then 0 else s.val
        rw [if_neg (by decide)]
      | ⟨1, _⟩ =>
        show (0 : ℕ) = if (1 : ℕ) = 1 then 0 else c.val
        rw [if_pos rfl]
    · refine (shapeCast_apply _ shapeCasts_S1024_S1024x1 (ix2 s (0 : Fin 1)) (ix1 s) ?_).trans (countsK_apply batch s)
      rw [Shape.rowMajor_val_one, Shape.rowMajor_val_two]
      show s.val = s.val * 1 + 0
      omega

end Kernel

/-! ## The kernel's two halves together are all the rows -/

section Halves
open Cert.KernelIdeal Cert.KernelIdeal.Facts₀

/-- The segment ids as a column, read at `(j, 0)`, are the ids at `j`. -/
theorem ids_col_apply (batch : IVec S1000000 32) (j : Fin 1000000) :
    shapeCast S1000000x1 batch Cert.KernelIdeal.Gen.shapeCasts_S1000000_S1000000x1 (ix2 j (0 : Fin 1)) = batch (ix1 j) := by
  refine shapeCast_apply _ _ (ix2 j (0 : Fin 1)) (ix1 j) ?_
  rw [Shape.rowMajor_val_one, Shape.rowMajor_val_two]
  show j.val = j.val * 1 + 0
  omega

/-- The sums over the two halves of the rows add to the sum over all the rows of segment `s`: every row is in exactly one
    half, and a row's id is the word of `s` exactly when it reads `s` signed. -/
theorem segSum_add (x : FVec Ideal S1000000x128 .f32) (batch : IVec S1000000 32) (s : Fin 1024) (c : Fin 128) :
    segSum x (shapeCast S1000000x1 batch Cert.KernelIdeal.Gen.shapeCasts_S1000000_S1000000x1) (0 : Fin 2) s c
      + segSum x (shapeCast S1000000x1 batch Cert.KernelIdeal.Gen.shapeCasts_S1000000_S1000000x1) (1 : Fin 2) s c
      = (0 + ∑ j ∈ rowsOf batch s, x (ix2 j c) : EReal) := by
  unfold segSum rowsOf
  rw [zero_add, ← Finset.sum_union]
  · refine Finset.sum_congr ?_ (fun _ _ => rfl)
    ext j
    simp only [Finset.mem_union, Finset.mem_filter, Finset.mem_univ, true_and]
    rw [ids_col_apply, word_eq_iff _ _ s.isLt]
    have hj := j.isLt
    constructor
    · rintro (h | h) <;> exact h.2
    · intro h
      have h01 : j.val / 500000 = 0 ∨ j.val / 500000 = 1 := by omega
      rcases h01 with h0 | h1
      · exact Or.inl ⟨h0, h⟩
      · exact Or.inr ⟨h1, h⟩
  · refine Finset.disjoint_filter.mpr (fun j _ h0 h1 => ?_)
    have e0 : j.val / 500000 = 0 := h0.1
    have e1 : j.val / 500000 = 1 := h1.1
    omega

end Halves

/-- The kernel program's pooling of the kernel's result is the reference's pooling. -/
theorem pooled_eq (x : FVec Ideal Cert.KernelIdeal.S1000000x128 .f32) (batch : IVec Cert.KernelIdeal.S1000000 32)
    (q : FVec Ideal Cert.KernelIdeal.S1024x128 .f32) :
    pooledK (F := Ideal) (segOut (F := Ideal) x (shapeCast Cert.KernelIdeal.S1000000x1 batch Cert.KernelIdeal.Gen.shapeCasts_S1000000_S1000000x1)) batch q
      = pooledR (F := Ideal) x batch q := by
  -- at every segment `s` and column `cv`
  have key : ∀ (s : Fin 1024) (cv : ℕ) (hcv : cv < 256),
      pooledK (F := Ideal) (segOut (F := Ideal) x (shapeCast Cert.KernelIdeal.S1000000x1 batch Cert.KernelIdeal.Gen.shapeCasts_S1000000_S1000000x1)) batch q
          (ix2 s (⟨cv, hcv⟩ : Fin 256))
        = pooledR (F := Ideal) x batch q (ix2 s (⟨cv, hcv⟩ : Fin 256)) := by
    intro s cv hcv
    by_cases h : cv < 128
    · -- first half: the two halves' sums are the sum over all the rows of the segment
      refine (pooledK_left _ batch q s ⟨cv, h⟩).trans ?_
      refine Eq.trans ?_ (pooledR_left x batch q s ⟨cv, h⟩).symm
      rw [segOut_eq_segSum, segOut_eq_segSum]
      exact segSum_add x batch s ⟨cv, h⟩
    · -- second half: the number of rows times `q[s, ·]` is `q[s, ·]` added once per row
      have e : (⟨cv, hcv⟩ : Fin 256) = ⟨128 + (⟨cv - 128, by omega⟩ : Fin 128).val, by omega⟩ :=
        Fin.ext (by show cv = 128 + (cv - 128); omega)
      rw [e]
      refine (pooledK_right _ batch q s ⟨cv - 128, by omega⟩).trans ?_
      refine Eq.trans ?_ (pooledR_right x batch q s ⟨cv - 128, by omega⟩).symm
      exact count_mul _ _
  funext i
  have hi : i = ix2 (⟨(i 0).val, (i 0).isLt⟩ : Fin 1024) (⟨(i 1).val, (i 1).isLt⟩ : Fin 256) := by
    funext b
    match b with
    | ⟨0, _⟩ => rfl
    | ⟨1, _⟩ => rfl
  rw [hi]
  exact key _ _ _

end Cert.Spec

end
-- ==== Proof.KIValue.lean ====
/-
  The kernel program's run over the extended reals, with its result named.

  The frame run leaves the region's result array at the accumulator recursion (`arr2_eq`) and every other buffer at what
  the later host operations compute from the region's exit contents; those operations are three steps of the LSTM cell over
  the kernel program's pooling (`tail_v141`), and that pooling of the accumulator recursion is the reference's pooling
  (`pooled_eq`).  So the result buffer ends at three steps of the cell over the REFERENCE's pooling of the launch contents.
-/
import proofs.«417752_j51754355917417_1_alg».proof.Proof.KIFrame
import proofs.«417752_j51754355917417_1_alg».proof.Proof.KIRegionValue
import proofs.«417752_j51754355917417_1_alg».proof.Proof.KITail
import proofs.«417752_j51754355917417_1_alg».proof.Proof.PoolEq

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The region finds the segment ids as a column: the reshape of the argument. -/
theorem V_main_v0 (c : Dev nD) :
    (V m c main_v0 : S1000000x1.Idx → BitVec 32)
      = shapeCast S1000000x1 (m ((c : Thread nD τ).loc main_arg1)) Gen.shapeCasts_S1000000_S1000000x1 := by
  dsimp only [V, V0, hostOps0]
  simp only [List.flatten_cons, List.flatten_nil, List.append_nil]
  after_results
  rfl

/-- What the later operations leave in the result buffer, as a function of the launch contents. -/
theorem tail_value (c : Dev nD) :
    Pipeline.afterTail₀ cfgs (dats m) 0 (V0 m) [hostOps1] c main_v141
      = Cert.Spec.resultOf (F := Ideal)
          (Cert.Spec.pooledR (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  unfold Pipeline.afterTail₀
  simp only [List.flatten_cons, List.flatten_nil, List.append_nil]
  rw [Cert.KernelIdeal.Tail.tail_v141]
  rw [show Pipeline.withArrays (cfgs 0).spec c (V0 m c) (fun w => (dats m 0 c).arrAt w (cfgs 0).N) (Proc.devRef .tc main_v1)
        = (dats m 0 c).arrAt 2 cfg0.N from Pipeline.withArrays_arr spec0 launch0.win.arr_inj c _ _ 2]
  rw [Pipeline.withArrays_of_ne _ c (V0 m c) _ main_arg1 (by decide), Pipeline.withArrays_of_ne _ c (V0 m c) _ main_arg2 (by decide),
    Pipeline.withArrays_of_ne _ c (V0 m c) _ main_arg3 (by decide), Pipeline.withArrays_of_ne _ c (V0 m c) _ main_arg4 (by decide),
    Pipeline.withArrays_of_ne _ c (V0 m c) _ main_arg5 (by decide)]
  rw [arr2_eq m c]
  rw [show V0 m c (Proc.devRef .tc main_arg1) = m ((c : Thread nD τ).loc main_arg1) from V_main_arg1 m c,
    show V0 m c (Proc.devRef .tc main_arg2) = m ((c : Thread nD τ).loc main_arg2) from V_main_arg2 m c,
    show V0 m c (Proc.devRef .tc main_arg3) = m ((c : Thread nD τ).loc main_arg3) from V_main_arg3 m c,
    show V0 m c (Proc.devRef .tc main_arg4) = m ((c : Thread nD τ).loc main_arg4) from V_main_arg4 m c,
    show V0 m c (Proc.devRef .tc main_arg5) = m ((c : Thread nD τ).loc main_arg5) from V_main_arg5 m c]
  rw [V_main_arg0 m c, V_main_v0 m c]
  exact congrArg (fun P => Cert.Spec.resultOf (F := Ideal) P (m ((c : Thread nD τ).loc main_arg2)) (m ((c : Thread nD τ).loc main_arg3))
      (m ((c : Thread nD τ).loc main_arg4)) (m ((c : Thread nD τ).loc main_arg5)))
    (funext fun q => Cert.Spec.pooled_eq _ _ q)

/-- The kernel program's run: the result buffer ends at three steps of the cell over the reference's pooling of the launch
    contents, and the six arguments end as launched. -/
theorem run_value :
    θ_run (defs (F := Ideal)) (onTc (τ := τ) (main (F := Ideal))) ⟨m, fun _ => 0, ρ⟩ (fun r => ∀ c : Dev nD,
      r.2.mem ((c.tc : Thread nD τ).loc main_v141) = Cert.Spec.resultOf (F := Ideal)
          (Cert.Spec.pooledR (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v141 (Pipeline.mem_restRefs_of main_v141 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans ((W_of_not_written m (dats m) c main_arg1 (by decide) (by decide)).trans (V_main_arg1 m c)),
      ((h c).2 main_arg2 (Pipeline.mem_restRefs_of main_arg2 (by decide) (by decide))).trans ((W_of_not_written m (dats m) c main_arg2 (by decide) (by decide)).trans (V_main_arg2 m c)),
      ((h c).2 main_arg3 (Pipeline.mem_restRefs_of main_arg3 (by decide) (by decide))).trans ((W_of_not_written m (dats m) c main_arg3 (by decide) (by decide)).trans (V_main_arg3 m c)),
      ((h c).2 main_arg4 (Pipeline.mem_restRefs_of main_arg4 (by decide) (by decide))).trans ((W_of_not_written m (dats m) c main_arg4 (by decide) (by decide)).trans (V_main_arg4 m c)),
      ((h c).2 main_arg5 (Pipeline.mem_restRefs_of main_arg5 (by decide) (by decide))).trans ((W_of_not_written m (dats m) c main_arg5 (by decide) (by decide)).trans (V_main_arg5 m c))⟩)
    (run_main (F := Ideal) m ρ)

end Cert.KernelIdeal.Fr

end
-- ==== Proof.RefValue.lean ====
/-
  The reference's result is three steps of the LSTM cell over the reference's pooling.

  The reference program's run names its gate pre-activations, cell states and hidden states step by step; each is the
  shared cell's function (`Cert.Spec.gates`, `cnew`, `hnew`) of the one before, with the pooled input the scatter-add of
  the rows `[x_i, q[batch_i]]` (`Cert.Spec.pooledR`): the same terms, read side by side.
-/
import proofs.«417752_j51754355917417_1_alg».proof.Proof.Spec
import proofs.«417752_j51754355917417_1_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The pooling function of the reference at the launch contents `V0`. -/
abbrev P (V0 : Valuation τ sig (Elt F)) : FVec F S1024x128 .f32 → FVec F S1024x256 .f32 :=
  Cert.Spec.pooledR (V0 (Proc.devRef .tc main_arg0)) (V0 (Proc.devRef .tc main_arg1))

/-- One step over the reference's pooling at the launch contents' weights. -/
abbrev stepR (V0 : Valuation τ sig (Elt F)) :=
  Cert.Spec.step (P V0) (V0 (Proc.devRef .tc main_arg2)) (V0 (Proc.devRef .tc main_arg3)) (V0 (Proc.devRef .tc main_arg4)) (V0 (Proc.devRef .tc main_arg5))

/-- The first step from the zero states: the run's first hidden and cell states. -/
theorem step1 (V0 : Valuation τ sig (Elt F)) :
    stepR V0 (Cert.Spec.zeros, Cert.Spec.zeros) = (res_main_v52 V0, res_main_v44 V0) := rfl

/-- The second step. -/
theorem step2 (V0 : Valuation τ sig (Elt F)) :
    stepR V0 (res_main_v52 V0, res_main_v44 V0) = (res_main_v102 V0, res_main_v94 V0) := rfl

/-- The third step's hidden state. -/
theorem step3 (V0 : Valuation τ sig (Elt F)) :
    (stepR V0 (res_main_v102 V0, res_main_v94 V0)).1 = res_main_v152 V0 := rfl

/-- The reference's result term is `Cert.Spec.resultOf` over the reference's pooling. -/
theorem result_eq (V0 : Valuation τ sig (Elt F)) :
    concatenate S1024x256 1 [⟨S1024x128, (res_main_v152 V0)⟩, ⟨S1024x128, (res_main_v152 V0)⟩] concatenates_S1024x128_S1024x128_S1024x256_d1
      = Cert.Spec.resultOf (P V0) (V0 (Proc.devRef .tc main_arg2)) (V0 (Proc.devRef .tc main_arg3)) (V0 (Proc.devRef .tc main_arg4)) (V0 (Proc.devRef .tc main_arg5)) := by
  unfold Cert.Spec.resultOf
  rw [show Cert.Spec.step (P V0) (V0 (Proc.devRef .tc main_arg2)) (V0 (Proc.devRef .tc main_arg3)) (V0 (Proc.devRef .tc main_arg4)) (V0 (Proc.devRef .tc main_arg5)) (Cert.Spec.zeros, Cert.Spec.zeros) = (res_main_v52 V0, res_main_v44 V0) from step1 V0,
    show Cert.Spec.step (P V0) (V0 (Proc.devRef .tc main_arg2)) (V0 (Proc.devRef .tc main_arg3)) (V0 (Proc.devRef .tc main_arg4)) (V0 (Proc.devRef .tc main_arg5)) (res_main_v52 V0, res_main_v44 V0) = (res_main_v102 V0, res_main_v94 V0) from step2 V0,
    show (Cert.Spec.step (P V0) (V0 (Proc.devRef .tc main_arg2)) (V0 (Proc.devRef .tc main_arg3)) (V0 (Proc.devRef .tc main_arg4)) (V0 (Proc.devRef .tc main_arg5)) (res_main_v102 V0, res_main_v94 V0)).1 = res_main_v152 V0 from step3 V0]

end Cert.ReferenceIdeal.RefValue

end
-- ==== Proof.lean ====
/-
  Set2Set pooling: the Pallas program against its jnp reference, over the extended reals.

  THE PROGRAMS.  Both run three steps of one LSTM cell (gate pre-activations `pooled · W_ihᵀ + h · W_hhᵀ + b_ih + b_hh`, new cell state
  `σ(f) · c + σ(i) · tanh g`, new hidden state `σ(o) · tanh c'`) from zero states, the query of a step the hidden state before it, and
  return the last hidden state twice side by side.  They differ in the POOLED input of a step.  The reference gathers `q[batch]`
  row by row, concatenates it to `x` and scatter-adds the million rows into the 1024 segments.  The kernel program computes the
  segment sums of `x` ONCE, in a kernel: a [1024, 128] accumulator over 2 × 250 grid points, each point adding the product of the
  one-hot matrix of its 2000 segment ids (transposed) with its 2000 rows of `x`, zeroed at the first point of each half and copied
  to the half's result block at the last; the halves are added on the host; and it pools the query as `counts · q`, `counts` the
  number of rows of each segment (ones scatter-added).

  WHY THEY AGREE over the extended reals (`Cert.Spec.pooled_eq`).  A one-hot factor is 0 or 1, and `0 · y = 0`, `1 · y = y` for EVERY
  extended real `y`; sums of extended reals may be regrouped freely; so the accumulator's half `p` at (segment `s`, column `h`) is the sum
  of `x[j, h]` over the rows `j` of that half whose id is `s`, the two halves add to the sum over all such rows, and that is the
  reference's scatter-add in the first 128 columns (an id outside `[0, 1024)` matches no one-hot column and is dropped by the scatter).
  In the last 128 columns the reference adds `q[batch_j, h]` over the rows with id `s`; each such summand is `q[s, h]` (the gather's
  wrap and clamp leave an in-range id alone), and a sum of `n` copies of `y` is `n · y` for every extended real `y`, `n` a natural
  number (nonnegative coefficients distribute).  No finiteness of the inputs is used.  The rest of a step is the same chain of
  operations in both programs (`Cert.Spec.resultOf` over the pooling function).

  THE FRAMES.  The kernel program's (at both instances, one text generic in the float instance) is the pipeline's frame run: the
  body's symbolic run in its three control cases, the accumulator carried from point to point in the region's invariant, the
  163 later host operations writing only their own result buffers.  The reference's is its run with the result dropped.
  `preserves` is trivial: the idealization rewrote nothing.
-/
import proofs.«417752_j51754355917417_1_alg».proof.Defs
import proofs.«417752_j51754355917417_1_alg».proof.Proof.Gen.Kernel
import proofs.«417752_j51754355917417_1_alg».proof.Proof.Gen.Kernel.Skeleton
import proofs.«417752_j51754355917417_1_alg».proof.Proof.Gen.Kernel.Launch
import proofs.«417752_j51754355917417_1_alg».proof.Proof.Gen.Kernel.Points
import proofs.«417752_j51754355917417_1_alg».proof.Proof.Gen.KernelIdeal
import proofs.«417752_j51754355917417_1_alg».proof.Proof.Gen.KernelIdeal.Skeleton
import proofs.«417752_j51754355917417_1_alg».proof.Proof.Gen.KernelIdeal.Launch
import proofs.«417752_j51754355917417_1_alg».proof.Proof.Gen.KernelIdeal.Points
import proofs.«417752_j51754355917417_1_alg».proof.Proof.Gen.ReferenceIdeal
import proofs.«417752_j51754355917417_1_alg».proof.Proof.Gen.Pre_finite_inputs
import proofs.«417752_j51754355917417_1_alg».proof.Proof.Gen.ReferenceIdeal.Run
import proofs.«417752_j51754355917417_1_alg».proof.Proof.KFrame
import proofs.«417752_j51754355917417_1_alg».proof.Proof.KIValue
import proofs.«417752_j51754355917417_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, and its arguments end as launched. -/
theorem frame_k : Cert.frame_Kernel := fun m ρ _ => Cert.Kernel.Fr.frame (F := Bits) m ρ

/-- The idealized kernel program runs, and its arguments end as launched. -/
theorem frame_ki : Cert.frame_KernelIdeal := fun m ρ _ => Cert.KernelIdeal.Fr.frame (F := Ideal) m ρ

/-- The idealized reference runs, and its arguments end as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories that agree on the arguments, end with the same result: three steps of the cell over
    the reference's pooling of the arguments. -/
theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  show Cert.Spec.resultOf (F := Ideal)
      (Cert.Spec.pooledR (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
